-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S32x10 .f32) (main_arg10 : FVec F S10 .f32) (main_v33 : IVec S_ 1) : IVec S_ 1 :=
  let main_v34 : FVec F S32x10 .f32 := Host.absf main_arg9
  let main_cst_12 : FVec F S_ .f32 := constant S_ .f32 0x7F800000#32
  let main_v35 : FVec F S32x10 .f32 := broadcastInDim S32x10 ![] bcast_S_S32x10 main_cst_12
  let main_v36 : IVec S32x10 1 := cmpf .olt main_v34 main_v35
  let main_c_13 : IVec S_ 1 := constantI S_ 1 1#1
  let main_v37 : IVec S_ 1 := (fun x v => Host.reduce IntOp.andi x v reducesTo_S32x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S64 .f32) (main_arg7 : FVec F S64x32 .f32) (main_arg8 : FVec F S32 .f32) (main_arg9 : FVec F S32x10 .f32) (main_arg10 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S64x64 .f32) (main_arg6 : FVec F S64 .f32) (main_arg7 : FVec F S64x32 .f32) (main_arg8 : FVec F S32 .f32) (main_arg9 : FVec F S32x10 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x800000 : Shape := ⟨2, ![1, 800000]⟩
abbrev S800000 : Shape := ⟨1, ![800000]⟩
abbrev S50000x64 : Shape := ⟨2, ![50000, 64]⟩
abbrev S10000x128 : Shape := ⟨2, ![10000, 128]⟩
abbrev S10000x64 : Shape := ⟨2, ![10000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S50000x1 : Shape := ⟨2, ![50000, 1]⟩
abbrev S2x64x64 : Shape := ⟨3, ![2, 64, 64]⟩
abbrev S5000x64 : Shape := ⟨2, ![5000, 64]⟩
abbrev S1x64x64 : Shape := ⟨3, ![1, 64, 64]⟩
abbrev S64x1 : Shape := ⟨2, ![64, 1]⟩
abbrev S1x32 : Shape := ⟨2, ![1, 32]⟩
abbrev S1x10 : Shape := ⟨2, ![1, 10]⟩
abbrev S64x10 : Shape := ⟨2, ![64, 10]⟩

abbrev nBuf : Space → Nat
  | .hbm => 75
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x10, .f32⟩
  | .hbm, ⟨10, _⟩ => ⟨S10, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000x64, .bf16⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .bf16⟩
  | .hbm, ⟨25, _⟩ => ⟨S800000x64, .f32⟩
  | .hbm, ⟨26, _⟩ => ⟨S_, .f32⟩
  | .hbm, ⟨27, _⟩ => ⟨S50000x64, .f32⟩
  | .hbm, ⟨28, _⟩ => ⟨S800000x1, .i32⟩
  | .hbm, ⟨29, _⟩ => ⟨S50000x64, .f32⟩
  | .hbm, ⟨30, _⟩ => ⟨S1x64, .f32⟩
  | .hbm, ⟨31, _⟩ => ⟨S50000x64, .bf16⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .bf16⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S1x64, .f32⟩
  | .hbm, ⟨47, _⟩ => ⟨S64, .i32⟩
  | .hbm, ⟨48, _⟩ => ⟨S1x64, .i32⟩
  | .hbm, ⟨49, _⟩ => ⟨S50000x1, .i32⟩
  | .hbm, ⟨50, _⟩ => ⟨S50000x64, .i32⟩
  | .hbm, ⟨51, _⟩ => ⟨S50000x64, .i32⟩
  | .hbm, ⟨52, _⟩ => ⟨S50000x64, .i1⟩
  | .hbm, ⟨53, _⟩ => ⟨S50000x64, .bf16⟩
  | .hbm, ⟨54, _⟩ => ⟨S2x64x64, .f32⟩
  | .hbm, ⟨55, _⟩ => ⟨S1x64x64, .f32⟩
  | .hbm, ⟨56, _⟩ => ⟨S64x64, .f32⟩
  | .hbm, ⟨57, _⟩ => ⟨S1x64x64, .f32⟩
  | .hbm, ⟨58, _⟩ => ⟨S64x64, .f32⟩
  | .hbm, ⟨59, _⟩ => ⟨S64x64, .f32⟩
  | .hbm, ⟨60, _⟩ => ⟨S_, .f32⟩
  | .hbm, ⟨61, _⟩ => ⟨S50000, .f32⟩
  | .hbm, ⟨62, _⟩ => ⟨S_, .f32⟩
  | .hbm, ⟨63, _⟩ => ⟨S64, .f32⟩
  | .hbm, ⟨64, _⟩ => ⟨S50000x1, .i32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S64x1, .f32⟩
  | .hbm, ⟨70, _⟩ => ⟨S64x64, .f32⟩
  | .hbm, ⟨71, _⟩ => ⟨S64x64, .f32⟩
  | .hbm, ⟨72, _⟩ => ⟨S1x32, .f32⟩
  | .hbm, ⟨73, _⟩ => ⟨S1x10, .f32⟩
  | .hbm, ⟨74, _⟩ => ⟨S64x10, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .bf16⟩
  | .local _ .vmem, ⟨4, _⟩ => ⟨S10000x64, .bf16⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .bf16⟩
  | .local _ .vmem, ⟨10, _⟩ => ⟨S10000x64, .bf16⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .bf16⟩
  | .local _ .vmem, ⟨15, _⟩ => ⟨S5000x64, .bf16⟩
  | .local _ .vmem, ⟨16, _⟩ => ⟨S1x64x64, .f32⟩
  | .local _ .vmem, ⟨17, _⟩ => ⟨S1x64x64, .f32⟩
  | .local _ .vmem, ⟨18, _⟩ => ⟨S64x64, .f32⟩
  | .local _ .vmem, ⟨19, _⟩ => ⟨S64x64, .f32⟩
  | .local _ .vmem, ⟨20, _⟩ => ⟨S64x32, .f32⟩
  | .local _ .vmem, ⟨21, _⟩ => ⟨S1x32, .f32⟩
  | .local _ .vmem, ⟨22, _⟩ => ⟨S32x10, .f32⟩
  | .local _ .vmem, ⟨23, _⟩ => ⟨S1x10, .f32⟩
  | .local _ .vmem, ⟨24, _⟩ => ⟨S64x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 5], ![false, false]⟩

def k2_cond2 (i : grid2.Coords) : BitVec 1 :=
  let arg1 : BitVec 32 := BitVec.ofNat 32 (i 1).val
  let c4_i32 : BitVec 32 := 4#32
  let v20 : BitVec 1 := Scalar.cmpi .eq arg1 c4_i32
  let v21 : BitVec 32 := Scalar.extui v20
  let c0_i32_11 : BitVec 32 := 0#32
  let v22 : BitVec 1 := Scalar.cmpi .ne v21 c0_i32_11
  v22

def cc2_transform_0 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S5000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x64x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S64_S1x64_1 : S64.BroadcastsInDim S1x64 (![1] : Fin 1 → Fin S1x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  shapeCasts_S64x64_S64x64 : S64x64.ShapeCasts S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  slices_S2x64x64_S1x64x64_0_0_0 : S2x64x64.Slices ![0, 0, 0] S1x64x64
  slices_S2x64x64_S1x64x64_1_0_0 : S2x64x64.Slices ![1, 0, 0] S1x64x64
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S32_S1x32 : S32.ShapeCasts S1x32
  shapeCasts_S10_S1x10 : S10.ShapeCasts S1x10
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  reduces_S64x10_S64 : S64x10.Reduces [1] S64
  shapeCasts_S64_S64x1 : S64.ShapeCasts S64x1
  broadcasts_S64x1_S64x10 : S64x1.Broadcasts S64x10
  inb_S64x10_S64x10_0_0 : ∀ a, (![0, 0] : Fin 2 → Nat) a + S64x10.size a ≤ S64x10.size a
  h_S64x10 : 0 < S64x10.numel
  dot_S10000x128_S128x64_S10000x64_1_0_0_1_n_n_wf : DotDims.WF S10000x128 S128x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  dot_S5000x64_S5000x64_S64x64_0_0_1_1_n_n_wf : DotDims.WF S5000x64 S5000x64 S64x64 [0] [0] [1] [1] [] []
  scatter_S64_S50000x1_S50000_n_0_0_1_wf : ScatterDims.WF S64 S50000x1 S50000 [] [0] [0] 1
  dot_S64x64_S64x32_S64x32_1_0_0_1_n_n_wf : DotDims.WF S64x64 S64x32 S64x32 [1] [0] [0] [1] [] []
  dot_S64x32_S32x10_S64x10_1_0_0_1_n_n_wf : DotDims.WF S64x32 S32x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .bf16 = 32 ∨ (Rect.block (s := S50000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .bf16 = 32 ∨ (Rect.block (s := S50000x64) S10000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .bf16 = 32 ∨ (Rect.block (s := S50000x64) S5000x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x64x64.size a ≤ S2x64x64.size a
  hwx2_3 : ∀ i : grid2.Coords, EltTy.bits .f32 = 32 ∨ (Rect.block (s := S2x64x64) S1x64x64.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x64.size a ≤ S64x64.size a
  hwx3_0 : ∀ i : grid3.Coords, EltTy.bits .f32 = 32 ∨ (Rect.block (s := S64x64) S64x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x10.size a ≤ S32x10.size a
  hwx3_3 : ∀ i : grid3.Coords, EltTy.bits .f32 = 32 ∨ (Rect.block (s := S32x10) S32x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x10.size a ≤ S64x10.size a
  hwx3_5 : ∀ i : grid3.Coords, EltTy.bits .f32 = 32 ∨ (Rect.block (s := S64x10) S64x10.size (cc3_transform_5 i) (hinb3_5 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x10_S64x10_1_0_0_1_n_n : DotDims S64x32 S32x10 S64x10 where
  lhsContracting := [1]
  rhsContracting := [0]
  lhsNonContracting := [0]
  rhsNonContracting := [1]
  lhsBatch := []
  rhsBatch := []
  wf := dot_S64x32_S32x10_S64x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x64x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v51) S64x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S32x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S64x10.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x800000 : Shape := ⟨2, ![1, 800000]⟩
abbrev S800000 : Shape := ⟨1, ![800000]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S50000x1 : Shape := ⟨2, ![50000, 1]⟩
abbrev S64x1 : Shape := ⟨2, ![64, 1]⟩
abbrev S1x32 : Shape := ⟨2, ![1, 32]⟩
abbrev S64x10 : Shape := ⟨2, ![64, 10]⟩
abbrev S1x10 : Shape := ⟨2, ![1, 10]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x10, .f32⟩
  | .hbm, ⟨10, _⟩ => ⟨S10, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000x64, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S_, .f32⟩
  | .hbm, ⟨26, _⟩ => ⟨S50000x64, .f32⟩
  | .hbm, ⟨27, _⟩ => ⟨S800000x1, .i32⟩
  | .hbm, ⟨28, _⟩ => ⟨S50000x64, .f32⟩
  | .hbm, ⟨29, _⟩ => ⟨S1x64, .f32⟩
  | .hbm, ⟨30, _⟩ => ⟨S50000x64, .f32⟩
  | .hbm, ⟨31, _⟩ => ⟨S50000x64, .f32⟩
  | .hbm, ⟨32, _⟩ => ⟨S_, .f32⟩
  | .hbm, ⟨33, _⟩ => ⟨S50000x64, .f32⟩
  | .hbm, ⟨34, _⟩ => ⟨S50000x64, .f32⟩
  | .hbm, ⟨35, _⟩ => ⟨S50000x64, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .f32⟩
  | .hbm, ⟨45, _⟩ => ⟨S_, .f32⟩
  | .hbm, ⟨46, _⟩ => ⟨S50000x64, .f32⟩
  | .hbm, ⟨47, _⟩ => ⟨S800000x1, .i32⟩
  | .hbm, ⟨48, _⟩ => ⟨S50000x64, .f32⟩
  | .hbm, ⟨49, _⟩ => ⟨S1x64, .f32⟩
  | .hbm, ⟨50, _⟩ => ⟨S50000x64, .f32⟩
  | .hbm, ⟨51, _⟩ => ⟨S50000x64, .f32⟩
  | .hbm, ⟨52, _⟩ => ⟨S_, .f32⟩
  | .hbm, ⟨53, _⟩ => ⟨S50000x64, .f32⟩
  | .hbm, ⟨54, _⟩ => ⟨S50000x64, .f32⟩
  | .hbm, ⟨55, _⟩ => ⟨S_, .f32⟩
  | .hbm, ⟨56, _⟩ => ⟨S64x64, .f32⟩
  | .hbm, ⟨57, _⟩ => ⟨S50000x1, .i32⟩
  | .hbm, ⟨58, _⟩ => ⟨S64x64, .f32⟩
  | .hbm, ⟨59, _⟩ => ⟨S_, .f32⟩
  | .hbm, ⟨60, _⟩ => ⟨S50000, .f32⟩
  | .hbm, ⟨61, _⟩ => ⟨S_, .f32⟩
  | .hbm, ⟨62, _⟩ => ⟨S64, .f32⟩
  | .hbm, ⟨63, _⟩ => ⟨S50000x1, .i32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S64x1, .f32⟩
  | .hbm, ⟨69, _⟩ => ⟨S64x64, .f32⟩
  | .hbm, ⟨70, _⟩ => ⟨S64x64, .f32⟩
  | .hbm, ⟨71, _⟩ => ⟨S64x32, .f32⟩
  | .hbm, ⟨72, _⟩ => ⟨S1x32, .f32⟩
  | .hbm, ⟨73, _⟩ => ⟨S64x32, .f32⟩
  | .hbm, ⟨74, _⟩ => ⟨S64x32, .f32⟩
  | .hbm, ⟨75, _⟩ => ⟨S_, .f32⟩
  | .hbm, ⟨76, _⟩ => ⟨S64x32, .f32⟩
  | .hbm, ⟨77, _⟩ => ⟨S64x32, .f32⟩
  | .hbm, ⟨78, _⟩ => ⟨S64x10, .f32⟩
  | .hbm, ⟨79, _⟩ => ⟨S1x10, .f32⟩
  | .hbm, ⟨80, _⟩ => ⟨S64x10, .f32⟩
  | .hbm, ⟨81, _⟩ => ⟨S64x10, .f32⟩
  | .hbm, ⟨82, _⟩ => ⟨S_, .f32⟩
  | .hbm, ⟨83, _⟩ => ⟨S64, .f32⟩
  | .hbm, ⟨84, _⟩ => ⟨S_, .f32⟩
  | .hbm, ⟨85, _⟩ => ⟨S64, .f32⟩
  | .hbm, ⟨86, _⟩ => ⟨S64, .f32⟩
  | .hbm, ⟨87, _⟩ => ⟨S64x1, .f32⟩
  | .hbm, ⟨88, _⟩ => ⟨S64x10, .f32⟩
  | .hbm, ⟨89, _⟩ => ⟨S64x10, .f32⟩
  | .hbm, ⟨90, _⟩ => ⟨S64x10, .f32⟩
  | .hbm, ⟨91, _⟩ => ⟨S_, .f32⟩
  | .hbm, ⟨92, _⟩ => ⟨S64, .f32⟩
  | .hbm, ⟨93, _⟩ => ⟨S64x1, .f32⟩
  | .hbm, ⟨94, _⟩ => ⟨S64x1, .f32⟩
  | .hbm, ⟨95, _⟩ => ⟨S64x10, .f32⟩
  | .hbm, ⟨96, _⟩ => ⟨S64x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_cst : Ref sig .tc := ⟨.hbm, 32, rfl⟩
abbrev main_call0_v0 : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_cst : Ref sig .tc := ⟨.hbm, 52, rfl⟩
abbrev main_call1_v0 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call2_cst : Ref sig .tc := ⟨.hbm, 75, rfl⟩
abbrev main_call2_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call3_cst : Ref sig .tc := ⟨.hbm, 82, rfl⟩
abbrev main_call3_v0 : Ref sig .tc := ⟨.hbm, 83, rfl⟩
abbrev main_call3_cst_0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_v6 : Ref sig .tc := ⟨.hbm, 90, rfl⟩
abbrev main_call3_cst_1 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_v55 : Ref sig .tc := ⟨.hbm, 96, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S64x1_S64x10_0_1 : S64x1.BroadcastsInDim S64x10 (![0, 1] : Fin 2 → Fin S64x10.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x32_S64x32_1_0_0_1_n_n_wf : DotDims.WF S64x64 S64x32 S64x32 [1] [0] [0] [1] [] []
  dot_S64x32_S32x10_S64x10_1_0_0_1_n_n_wf : DotDims.WF S64x32 S32x10 S64x10 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x10_S64x10_1_0_0_1_n_n : DotDims S64x32 S32x10 S64x10 where
  lhsContracting := [1]
  rhsContracting := [0]
  lhsNonContracting := [0]
  rhsNonContracting := [1]
  lhsBatch := []
  rhsBatch := []
  wf := dot_S64x32_S32x10_S64x10_1_0_0_1_n_n_wf

class Facts : Prop extends Facts₀ where

variable [Facts]
-- ==== Proof.KFrReg0.lean ====
import proofs.«410010_j22943715295836_2_alg».proof.Proof.LaunchK
import proofs.«410010_j22943715295836_2_alg».proof.Proof.Gen.Kernel.Skeleton
import proofs.«410010_j22943715295836_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first pallas_call: one row block of `x · W1` per grid point

The grid has 5 points; point `t` reads rows `10000 t … 10000 t + 9999` of `x` (window 0) and the whole of `W1`
(window 1, fetched once), and writes the same rows of the product (window 2). Everything here is stated at a
parameter `V`, the contents of the TensorCore's buffers when the region is entered. -/

variable (V : (c : Dev nD) → (b : Ref sig .tc) → Buf (Elt F) ((c : Thread nD τ).loc b))

/-- Window `w`'s block at point `t`, read off its array in the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block of the entry contents at every point, whether the
    point fetched it or the block index stood still since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block of the entry contents at every point, whether the
    point fetched it or the block index stood still since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x64 := Rect.unit (s := S10000x64) ![0, 0] S10000x64.size inb_S10000x64_S10000x64_0_0

/-- What the body leaves in the output window's buffer: its one whole-buffer store of the product of the two
    loaded blocks. -/
def out0_2 (x0 : Vec F S10000x128 .f32) (x1 : Vec F S128x64 .f32) : Vec F S10000x64 .bf16 :=
  View.canon [⟨r0_2, k0_pay1 (View.ld x0 r0_0) (View.ld x1 r0_1)⟩]

/-- The one store covers the whole buffer. -/
theorem cover0_2 (p0 : Vec F S10000x64 .bf16) (y : S10000x64.Idx) :
    ∃ pc ∈ ([⟨r0_2, p0⟩] : List (View.Piece (Elt F) S10000x64 .bf16)), y ∈ pc.1.set :=
  View.cover_of_tiled [⟨r0_2, p0⟩] S10000x64.size (by rfl) y

set_option maxHeartbeats 1000000 in
/-- The body on whole staging buffers: the two inputs at `x0`, `x1` and the output at anything; it ends with the
    inputs as they were and the output at `out0_2 x0 x1`. -/
theorem sound_kernel0 (c : Dev nD) (E : Set ℕ) (i : grid0.Coords) (arg1 : Memref sig .tc .vmem S10000x128 .f32) (harg1 : arg1.IsWhole)
    (arg2 : Memref sig .tc .vmem S128x64 .f32) (harg2 : arg2.IsWhole) (arg3 : Memref sig .tc .vmem S10000x64 .bf16) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pallas_call on core `c`: the arrays as the region finds them; after the body at point `t`
    each input's buffer at its block and the output's at `out0_2` of the two blocks; the invariant is the scoped rest
    and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KFrReg1.lean ====
import proofs.«410010_j22943715295836_2_alg».proof.Proof.LaunchK
import proofs.«410010_j22943715295836_2_alg».proof.Proof.Gen.Kernel.Skeleton
import proofs.«410010_j22943715295836_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second pallas_call: one row block of `max (agg + b) 0 · W2` per grid point

The grid has 5 points; point `t` reads rows `10000 t … 10000 t + 9999` of the aggregate (window 0), the bias row
(window 1) and the whole of `W2` (window 2), the last two fetched once, and writes the same rows of the result
(window 3). Everything is stated at a parameter `V`, the buffers' contents when the region is entered. -/

variable (V : (c : Dev nD) → (b : Ref sig .tc) → Buf (Elt F) ((c : Thread nD τ).loc b))

/-- Window `w`'s block at point `t`, read off its array in the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block of the entry contents at every point, whether the point
    fetched it or the block index stood still since the last fetch: window 0, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- window 1, -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- and window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S10000x64 := Rect.unit (s := S10000x64) ![0, 0] S10000x64.size inb_S10000x64_S10000x64_0_0
abbrev r1_1 : Rect S1x64 := Rect.unit (s := S1x64) ![0, 0] S1x64.size inb_S1x64_S1x64_0_0
abbrev r1_2 : Rect S64x64 := Rect.unit (s := S64x64) ![0, 0] S64x64.size inb_S64x64_S64x64_0_0

/-- What the body leaves in the output window's buffer: its one whole-buffer store. -/
def out1_3 (x0 : Vec F S10000x64 .f32) (x1 : Vec F S1x64 .f32) (x2 : Vec F S64x64 .f32) : Vec F S10000x64 .bf16 :=
  View.canon [⟨r1_0, k1_pay1 (View.ld x0 r1_0) (View.ld x1 r1_1) (View.ld x2 r1_2)⟩]

/-- The one store covers the whole buffer. -/
theorem cover1_3 (p0 : Vec F S10000x64 .bf16) (y : S10000x64.Idx) :
    ∃ pc ∈ ([⟨r1_0, p0⟩] : List (View.Piece (Elt F) S10000x64 .bf16)), y ∈ pc.1.set :=
  View.cover_of_tiled [⟨r1_0, p0⟩] S10000x64.size (by rfl) y

set_option maxHeartbeats 1000000 in
/-- The body on whole staging buffers: the three inputs at `x0`, `x1`, `x2` and the output at anything; it ends with
    the inputs as they were and the output at `out1_3 x0 x1 x2`. -/
theorem sound_kernel1 (c : Dev nD) (E : Set ℕ) (i : grid1.Coords) (arg1 : Memref sig .tc .vmem S10000x64 .f32) (harg1 : arg1.IsWhole)
    (arg2 : Memref sig .tc .vmem S1x64 .f32) (harg2 : arg2.IsWhole) (arg3 : Memref sig .tc .vmem S64x64 .f32) (harg3 : arg3.IsWhole)
    (arg4 : Memref sig .tc .vmem S10000x64 .bf16) (harg4 : arg4.IsWhole)
    (x0 : Vec F S10000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__fused_bias_relu_matmul_kernel i arg1 harg1 arg2 harg2 arg3 harg3 arg4 harg4) K := by
  simp only [cc1__fused_bias_relu_matmul_kernel_eq_skeleton]; unfold cc1__fused_bias_relu_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pallas_call on core `c`: the arrays as the region finds them; after the body at point `t`
    each input's buffer at its block and the output's at `out1_3` of the three blocks; the invariant is the scoped
    rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KFrReg2.lean ====
import proofs.«410010_j22943715295836_2_alg».proof.Proof.LaunchK
import proofs.«410010_j22943715295836_2_alg».proof.Proof.Gen.Kernel.Skeleton
import proofs.«410010_j22943715295836_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The third pallas_call: per half of the rows, five blocks accumulated in a scratch buffer

The grid is 2 × 5: point `t` = (half `t / 5`, step `t % 5`) reads rows `5000 t … 5000 t + 4999` of the aggregate
(window 0) and of the membership table (window 2) and the bias row (window 1). The body keeps a 64 × 64 accumulator in
a scratch buffer across points: at step 0 it stores zero there, at every step it adds the block's product, and at
step 4 it copies the accumulator into the output window's buffer (window 3, one 64 × 64 block per half), which the
pipeline writes back at those two points only. Everything is stated at a parameter `V`, the buffers' contents when
the region is entered. -/

variable (V : (c : Dev nD) → (b : Ref sig .tc) → Buf (Elt F) ((c : Thread nD τ).loc b))

/-- Window `w`'s block at point `t`, read off its array in the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block of the entry contents at every point, whether the point
    fetched it or the block index stood still since the last fetch: window 0, -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- window 1, -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- and window 2. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, over the grid -/

/-- "This is step 0 of the half": the body then zeroes the accumulator first. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 5 = 0 :=
  (by decide +kernel : ∀ t : Fin grid2.N, cond2_0 (grid2.coords t) ↔ t.val % 5 = 0)

/-- "This is step 4 of the half": the body then copies the accumulator into the output window. -/
abbrev cond2_1 (i : grid2.Coords) : Prop := k2_cond2 i = 1#1
theorem hcond2_1 : ∀ t : Fin cfg2.N, cond2_1 (grid2.coords t) ↔ t.val % 5 = 4 :=
  (by decide +kernel : ∀ t : Fin grid2.N, cond2_1 (grid2.coords t) ↔ t.val % 5 = 4)

/-- The inputs are stored into nowhere and read everywhere: never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Before step 4 the body stores nothing into the output window, and the pipeline does not write it back there. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At step 4 it does. -/
theorem liveAt2_3 : ∀ t : Fin cfg2.N, cond2_1 (grid2.coords t) → cfg2.idle 3 (grid2.coords t) = false := by decide +kernel

/-! ## The scratch accumulator as a buffer -/

/-- The accumulator: a whole scoped buffer of the kernel's own. -/
abbrev scM2 : Memref sig .tc .vmem S64x64 .f32 := Memref.whole cc2_scratch0

/-- Everything else the region's invariant holds — the other scoped buffers and the generator register —, as what
    gives the whole scoped rest back for the accumulator at any contents. -/
def R2rest (c : Dev nD) : sProp 𝕄 :=
  iprop((∃ d, owns (c : Thread nD τ) scM2 fullShare d) -∗ Pipeline.ΦA spec2 c)

/-- The scoped rest of this call holds the accumulator at some contents; taking it out leaves `R2rest`. -/
theorem PhiA2_split (c : Dev nD) :
    (Pipeline.ΦA spec2 c : sProp 𝕄) ⊢ iprop((∃ d, owns (c : Thread nD τ) scM2 fullShare d) ∗ R2rest c) := by
  unfold R2rest Pipeline.ΦA; rw [scopedRest2_eq]; simp only [scM2, owns_whole]
  iintro ⟨⟨A0, A1, A2, A3, A4, A5, A6, A7, A8, A9, A10, HS, B0, B1, B2, B3, B4, B5⟩, Hg⟩
  isplitl [HS]; · iexact HS
  iintro HS
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [HS]; · iexact HS
    isplitl [B0]; · iexact B0
    isplitl [B1]; · iexact B1
    isplitl [B2]; · iexact B2
    isplitl [B3]; · iexact B3
    isplitl [B4]; · iexact B4
    iexact B5
  iexact Hg

theorem hz2 : (![0, 0] : Fin 2 → Nat) = fun _ => 0 := by funext a; fin_cases a <;> rfl
theorem hz3 : (![0, 0, 0] : Fin 3 → Nat) = fun _ => 0 := by funext a; fin_cases a <;> rfl

/-! ## The body in its three cases -/

set_option maxHeartbeats 2000000 in
/-- Step 0 of a half: the accumulator is zeroed, then the block's product added; the output window's buffer is not
    touched. -/
theorem sound_kernel2_A (c : Dev nD) (E : Set ℕ) (i : grid2.Coords) (arg2 : Memref sig .tc .vmem S5000x64 .f32) (harg2 : arg2.IsWhole)
    (arg3 : Memref sig .tc .vmem S1x64 .f32) (harg3 : arg3.IsWhole) (arg4 : Memref sig .tc .vmem S5000x64 .bf16) (harg4 : arg4.IsWhole)
    (arg5 : Memref sig .tc .vmem S1x64x64 .f32) (harg5 : arg5.IsWhole) (arg6 : Memref sig .tc .vmem S64x64 .f32) (harg6 : arg6.IsWhole)
    (hc0 : cond2_0 i) (hc1 : ¬cond2_1 i)
    (x0 : Vec F S5000x64 .f32) (x1 : Vec F S1x64 .f32) (x2 : Vec F S5000x64 .bf16) (xi3 : Vec F S1x64x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k2_pay2 x0 x1 x2 (k2_pay1 (F := F)))) -∗ K ⟨⟩))
      ⊢ wp frame (wpE (defs₀ (F := F)) Variants.none c none) E (cc2__pool_kernel i arg2 harg2 arg3 harg3 arg4 harg4 arg5 harg5 arg6 harg6) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (fun y => ⟨_, List.Mem.head _, View.mem_set_unit_zero hz2 inb_S64x64_S64x64_0_0 y⟩)]
  rw [View.canon_cons_unit_zero (S := S64x64) hz2, View.readCov_unit_zero (S := S64x64) _ hz2]
  simp only [View.readAt_eq_ld, View.ld_unit_zero (S := S5000x64) hz2, View.ld_unit_zero (S := S1x64) hz2]

set_option maxHeartbeats 2000000 in
/-- Steps 1 to 3: the block's product is added to what the step before left; the output window's buffer is not
    touched. -/
theorem sound_kernel2_B (c : Dev nD) (E : Set ℕ) (i : grid2.Coords) (arg2 : Memref sig .tc .vmem S5000x64 .f32) (harg2 : arg2.IsWhole)
    (arg3 : Memref sig .tc .vmem S1x64 .f32) (harg3 : arg3.IsWhole) (arg4 : Memref sig .tc .vmem S5000x64 .bf16) (harg4 : arg4.IsWhole)
    (arg5 : Memref sig .tc .vmem S1x64x64 .f32) (harg5 : arg5.IsWhole) (arg6 : Memref sig .tc .vmem S64x64 .f32) (harg6 : arg6.IsWhole)
    (hc0 : ¬cond2_0 i) (hc1 : ¬cond2_1 i)
    (x0 : Vec F S5000x64 .f32) (x1 : Vec F S1x64 .f32) (x2 : Vec F S5000x64 .bf16) (xi3 : Vec F S1x64x64 .f32) (xs : Vec F S64x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k2_pay2 x0 x1 x2 xs)) -∗ K ⟨⟩))
      ⊢ wp frame (wpE (defs₀ (F := F)) Variants.none c none) E (cc2__pool_kernel i arg2 harg2 arg3 harg3 arg4 harg4 arg5 harg5 arg6 harg6) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (fun y => ⟨_, List.Mem.head _, View.mem_set_unit_zero hz2 inb_S64x64_S64x64_0_0 y⟩)]
  rw [View.canon_unit_zero (S := S64x64) hz2]
  simp only [View.readAt_eq_ld, View.ld_unit_zero (S := S5000x64) hz2, View.ld_unit_zero (S := S1x64) hz2, View.ld_unit_zero (S := S64x64) hz2]

set_option maxHeartbeats 2000000 in
/-- Step 4: the block's product is added to what the step before left, and the sum is copied into the output
    window's buffer. -/
theorem sound_kernel2_C (c : Dev nD) (E : Set ℕ) (i : grid2.Coords) (arg2 : Memref sig .tc .vmem S5000x64 .f32) (harg2 : arg2.IsWhole)
    (arg3 : Memref sig .tc .vmem S1x64 .f32) (harg3 : arg3.IsWhole) (arg4 : Memref sig .tc .vmem S5000x64 .bf16) (harg4 : arg4.IsWhole)
    (arg5 : Memref sig .tc .vmem S1x64x64 .f32) (harg5 : arg5.IsWhole) (arg6 : Memref sig .tc .vmem S64x64 .f32) (harg6 : arg6.IsWhole)
    (hc0 : ¬cond2_0 i) (hc1 : cond2_1 i)
    (x0 : Vec F S5000x64 .f32) (x1 : Vec F S1x64 .f32) (x2 : Vec F S5000x64 .bf16) (xs : Vec F S64x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k2_pay3 (k2_pay2 x0 x1 x2 xs))
            ∗ owns (c : Thread nD τ) arg6 fullShare (k2_pay2 x0 x1 x2 xs)) -∗ K ⟨⟩))
      ⊢ wp frame (wpE (defs₀ (F := F)) Variants.none c none) E (cc2__pool_kernel i arg2 harg2 arg3 harg3 arg4 harg4 arg5 harg5 arg6 harg6) K := by
  simp only [cc2__pool_kernel_eq_skeleton]; unfold cc2__pool_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.Mem.head _, View.mem_set_unit_zero hz3 inb_S1x64x64_S1x64x64_0_0_0 y⟩)]
    rw [View.canon_unit_zero (S := S1x64x64) hz3, View.readCov_unit_zero (S := S64x64) _ hz2]
    simp only [View.readAt_eq_ld, View.ld_unit_zero (S := S5000x64) hz2, View.ld_unit_zero (S := S1x64) hz2, View.ld_unit_zero (S := S64x64) hz2]
  iexists _; isplitr
  swap; · iexact HS
  ipureintro
  sl_unfold_words
  rw [View.read_writes_eq_canon _ _ _ (fun y => ⟨_, List.Mem.head _, View.mem_set_unit_zero hz2 inb_S64x64_S64x64_0_0 y⟩)]
  rw [View.canon_unit_zero (S := S64x64) hz2]
  simp only [View.readAt_eq_ld, View.ld_unit_zero (S := S5000x64) hz2, View.ld_unit_zero (S := S1x64) hz2, View.ld_unit_zero (S := S64x64) hz2]

/-! ## The accumulator point by point -/

/-- What the scratch accumulator holds after the body at position `n`: at step 0 of a half the block's product added
    to zero, at a later step added to what position `n - 1` left. -/
def accAt (c : Dev nD) : (n : ℕ) → n < cfg2.N → Vec F S64x64 .f32
  | 0, hn => k2_pay2 (iblk2 V c 0 ⟨0, hn⟩) (iblk2 V c 1 ⟨0, hn⟩) (iblk2 V c 2 ⟨0, hn⟩) (k2_pay1 (F := F))
  | n + 1, hn =>
    if (n + 1) % 5 = 0 then
      k2_pay2 (iblk2 V c 0 ⟨n + 1, hn⟩) (iblk2 V c 1 ⟨n + 1, hn⟩) (iblk2 V c 2 ⟨n + 1, hn⟩) (k2_pay1 (F := F))
    else
      k2_pay2 (iblk2 V c 0 ⟨n + 1, hn⟩) (iblk2 V c 1 ⟨n + 1, hn⟩) (iblk2 V c 2 ⟨n + 1, hn⟩) (accAt c n (Nat.lt_of_succ_lt hn))

/-- At step 0 of a half the accumulator starts again from zero. -/
theorem accAt_reset (c : Dev nD) (t : Fin cfg2.N) (h0 : t.val % 5 = 0) :
    accAt V c t.val t.isLt = k2_pay2 (iblk2 V c 0 t) (iblk2 V c 1 t) (iblk2 V c 2 t) (k2_pay1 (F := F)) := by
  obtain ⟨n, hn⟩ := t
  cases n with
  | zero => rfl
  | succ n => exact (if_pos h0).trans rfl

/-- At a later step it goes on from what the point before left. -/
theorem accAt_step (c : Dev nD) (t : Fin cfg2.N) (h0 : ¬t.val % 5 = 0) :
    accAt V c t.val t.isLt
      = k2_pay2 (iblk2 V c 0 t) (iblk2 V c 1 t) (iblk2 V c 2 t) (accAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The region's invariant before position `n`: before the first point the scoped rest at anything and the generator
    register; afterwards the accumulator at what the point before left, beside the rest. -/
def PhiS (c : Dev nD) : (n : ℕ) → n ≤ cfg2.N → sProp 𝕄
  | 0, _ => Pipeline.ΦA spec2 c
  | n + 1, hn => iprop(iprop(owns (c : Thread nD τ) scM2 fullShare (accAt V c n hn)) ∗ R2rest c)

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM2 fullShare (accAt V c n hn)) ∗ R2rest c) := rfl

theorem PhiS_pos (c : Dev nD) (n : ℕ) (h : n ≤ cfg2.N) (hz : n ≠ 0) :
    PhiS V c n h = iprop(iprop(owns (c : Thread nD τ) scM2 fullShare (accAt V c (n - 1) (by omega))) ∗ R2rest c) := by
  cases n with
  | zero => exact absurd rfl hz
  | succ n => rfl

/-! ## The proof data and the body obligation -/

/-- The proof data of this pallas_call on core `c`: the arrays as the region finds them; after the body at point `t`
    each input's buffer at its block and the output's at the accumulator reshaped (what step 4 stores; at the other
    steps the window is idle and this is not consulted); the invariant carries the accumulator; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (accAt V c t.val t.isLt)
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay3 (accAt V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4000000 in
/-- The body at any point, by the step of the half the point is: the inputs' buffers hold their blocks; the invariant
    hands over the accumulator at what the point before left (at anything before step 0) and takes it back at this
    point's contents; before step 4 the output window's buffer goes back as it came. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS V c (t.val + 1) t.isLt from rfl, PhiS_succ]
  have hN : t.val < 10 := lt_of_lt_of_eq t.isLt (show cfg2.N = 10 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  by_cases h0 : t.val % 5 = 0
  · have h1 : ¬t.val % 5 = 4 := by omega
    rw [Dat.leavesExact_idle (dat2 V c) 3 t (idleAt2_3 t (fun h => h1 ((hcond2_1 t).mp h))) (noFlush2_3 t (fun h => h1 ((hcond2_1 t).mp h)))]
    rw [accAt_reset V c t h0]
    by_cases hz : t.val = 0
    · rw [PhiS_castSucc V c t, PhiS_zero V c _ _ hz]
      have hsp := PhiA2_split (F := F) c
      iintro ⟨Hphi, Ho, ⟨%d0, H0⟩, ⟨%d1, H1⟩, ⟨%d2, H2⟩, ⟨%d3, H3⟩⟩
      ihave Hsp := hsp $$ Hphi
      icases Hsp with ⟨HS, Hg⟩
      iapply (sound_kernel2_A c Set.univ (grid2.coords t) _ _ _ _ _ _ _ _ _ _ ((hcond2_0 t).mpr h0) (fun h => h1 ((hcond2_1 t).mp h))
        (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HS, Hg⟩, Ho, ⟨%d0, H0⟩, ⟨%d1, H1⟩, ⟨%d2, H2⟩, ⟨%d3, H3⟩⟩
      iapply (sound_kernel2_A c Set.univ (grid2.coords t) _ _ _ _ _ _ _ _ _ _ ((hcond2_0 t).mpr h0) (fun h => h1 ((hcond2_1 t).mp h))
        (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 5 = 4
    · rw [show (dat2 V c).leavesExact 3 t = owns (c : Thread nD τ) (st2_3 t) fullShare ((dat2 V c).after 3 t) from by
        unfold Dat.leavesExact; rw [liveAt2_3 t ((hcond2_1 t).mpr h1)], after2_3]
      rw [accAt_step V c t h0]
      rw [PhiS_castSucc V c t, PhiS_pos V c _ _ hz]
      iintro ⟨⟨HS, Hg⟩, Ho, ⟨%d0, H0⟩, ⟨%d1, H1⟩, ⟨%d2, H2⟩, ⟨%d3, H3⟩⟩
      iapply (sound_kernel2_C c Set.univ (grid2.coords t) _ _ _ _ _ _ _ _ _ _ (fun h => h0 ((hcond2_0 t).mp h)) ((hcond2_1 t).mpr h1)
        (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · rw [Dat.leavesExact_idle (dat2 V c) 3 t (idleAt2_3 t (fun h => h1 ((hcond2_1 t).mp h))) (noFlush2_3 t (fun h => h1 ((hcond2_1 t).mp h)))]
      rw [accAt_step V c t h0]
      rw [PhiS_castSucc V c t, PhiS_pos V c _ _ hz]
      iintro ⟨⟨HS, Hg⟩, Ho, ⟨%d0, H0⟩, ⟨%d1, H1⟩, ⟨%d2, H2⟩, ⟨%d3, H3⟩⟩
      iapply (sound_kernel2_B c Set.univ (grid2.coords t) _ _ _ _ _ _ _ _ _ _ (fun h => h0 ((hcond2_0 t).mp h)) (fun h => h1 ((hcond2_1 t).mp h))
        (iblk2 V c 0 t) (iblk2 V c 1 t) (iblk2 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the scoped rest back: the accumulator's contents are forgotten. -/
theorem hout2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 10 := N_2; omega)]
  unfold R2rest
  iintro ⟨HS, Hg⟩
  iapply Hg
  iexists _; iexact HS

end Cert.Kernel.Fr

end
-- ==== Proof.KFrReg3.lean ====
import proofs.«410010_j22943715295836_2_alg».proof.Proof.LaunchK
import proofs.«410010_j22943715295836_2_alg».proof.Proof.Gen.Kernel.Skeleton
import proofs.«410010_j22943715295836_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The fourth pallas_call: the head, at one grid point

The grid has one point: the pooled features (window 0), the two weight matrices (windows 1 and 3) and the two bias
rows (windows 2 and 4) are fetched whole, and the 64 × 10 result (window 5) is written whole. Everything is stated at a
parameter `V`, the buffers' contents when the region is entered. -/

variable (V : (c : Dev nD) → (b : Ref sig .tc) → Buf (Elt F) ((c : Thread nD τ).loc b))

/-- Window `w`'s block at point `t`, read off its array in the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block of the entry contents: window 0, -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- window 1, -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- window 2, -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- window 3, -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- and window 4. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_0 : Rect S64x64 := Rect.unit (s := S64x64) ![0, 0] S64x64.size inb_S64x64_S64x64_0_0
abbrev r3_1 : Rect S64x32 := Rect.unit (s := S64x32) ![0, 0] S64x32.size inb_S64x32_S64x32_0_0
abbrev r3_2 : Rect S1x32 := Rect.unit (s := S1x32) ![0, 0] S1x32.size inb_S1x32_S1x32_0_0
abbrev r3_3 : Rect S32x10 := Rect.unit (s := S32x10) ![0, 0] S32x10.size inb_S32x10_S32x10_0_0
abbrev r3_4 : Rect S1x10 := Rect.unit (s := S1x10) ![0, 0] S1x10.size inb_S1x10_S1x10_0_0
abbrev r3_5 : Rect S64x10 := Rect.unit (s := S64x10) ![0, 0] S64x10.size inb_S64x10_S64x10_0_0

/-- What the body leaves in the output window's buffer: its one whole-buffer store. -/
def out3_5 (x0 : Vec F S64x64 .f32) (x1 : Vec F S64x32 .f32) (x2 : Vec F S1x32 .f32) (x3 : Vec F S32x10 .f32) (x4 : Vec F S1x10 .f32) :
    Vec F S64x10 .f32 :=
  View.canon [⟨r3_5, k3_pay1 (View.ld x0 r3_0) (View.ld x1 r3_1) (View.ld x2 r3_2) (View.ld x3 r3_3) (View.ld x4 r3_4)⟩]

/-- The one store covers the whole buffer. -/
theorem cover3_5 (p0 : Vec F S64x10 .f32) (y : S64x10.Idx) :
    ∃ pc ∈ ([⟨r3_5, p0⟩] : List (View.Piece (Elt F) S64x10 .f32)), y ∈ pc.1.set :=
  View.cover_of_tiled [⟨r3_5, p0⟩] S64x10.size (by rfl) y

set_option maxHeartbeats 1000000 in
/-- The body on whole staging buffers: the five inputs at `x0 … x4` and the output at anything; it ends with the inputs
    as they were and the output at `out3_5` of them. -/
theorem sound_kernel3 (c : Dev nD) (E : Set ℕ) (i : grid3.Coords) (arg1 : Memref sig .tc .vmem S64x64 .f32) (harg1 : arg1.IsWhole)
    (arg2 : Memref sig .tc .vmem S64x32 .f32) (harg2 : arg2.IsWhole) (arg3 : Memref sig .tc .vmem S1x32 .f32) (harg3 : arg3.IsWhole)
    (arg4 : Memref sig .tc .vmem S32x10 .f32) (harg4 : arg4.IsWhole) (arg5 : Memref sig .tc .vmem S1x10 .f32) (harg5 : arg5.IsWhole)
    (arg6 : Memref sig .tc .vmem S64x10 .f32) (harg6 : arg6.IsWhole)
    (x0 : Vec F S64x64 .f32) (x1 : Vec F S64x32 .f32) (x2 : Vec F S1x32 .f32) (x3 : Vec F S32x10 .f32) (x4 : Vec F S1x10 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__mlp_head_kernel i arg1 harg1 arg2 harg2 arg3 harg3 arg4 harg4 arg5 harg5 arg6 harg6) K := by
  simp only [cc3__mlp_head_kernel_eq_skeleton]; unfold cc3__mlp_head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of this pallas_call on core `c`: the arrays as the region finds them; after the body each input's
    buffer at its block and the output's at `out3_5` of the five blocks; the invariant is the scoped rest and the
    generator register, untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at the point, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at the point: the inputs' buffers hold their blocks, so `sound_kernel3` applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at the point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KFrRun.lean ====
import proofs.«410010_j22943715295836_2_alg».proof.Proof.LaunchK
import proofs.«410010_j22943715295836_2_alg».proof.Proof.Gen.Kernel.Skeleton
import proofs.«410010_j22943715295836_2_alg».proof.Proof.Gen.Kernel.Points
import proofs.«410010_j22943715295836_2_alg».proof.Proof.RegionsK
import proofs.«410010_j22943715295836_2_alg».proof.Proof.KFrReg0
import proofs.«410010_j22943715295836_2_alg».proof.Proof.KFrReg1
import proofs.«410010_j22943715295836_2_alg».proof.Proof.KFrReg2
import proofs.«410010_j22943715295836_2_alg».proof.Proof.KFrReg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run: @main's eight items from the launch to the return

@main is host operations, call 0, host operations, call 1, host operations, call 2, host operations, call 3. The
buffers' contents at each boundary are a fold from the launch memory: a host stretch applies its operations, a call
leaves its arrays at what its pipeline's write-backs produce and everything else alone. Each call is a segment of the
several-regions launch over the thread state "every unscoped buffer at the boundary's contents, the generator
register at some state, nothing owed"; the launch then says every execution terminates with every unscoped buffer at
the last boundary's contents. -/

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (call 0's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- After call 0: its arrays at what the pipeline leaves (the inputs as entered, the output's write-backs folded), every
    other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch (call 1's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- After call 1: its arrays at what the pipeline leaves (the inputs as entered, the output's write-backs folded), every
    other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-- After the third host stretch (call 2's entry). -/
abbrev W5 : Dev nD → Valuation τ sig (Elt F) := fun c => StableHlo.after hostOps2 (W4 m ρ c)
abbrev E5 : (c : Dev nD) → (b : Ref sig .tc) → Buf (Elt F) ((c : Thread nD τ).loc b) := fun c b => W5 m ρ c b
/-- After call 2: its arrays at what the pipeline leaves (the inputs as entered, the output's write-backs folded), every
    other buffer as entered. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev E6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = E6 m ρ c (Pipeline.arrRef spec2 w) :=
  (W6_arr m ρ c w).symm
theorem hrest2 (c : Dev nD) : ∀ b, b ∉ Finset.univ.image (Pipeline.arrRef spec2) → E6 m ρ c b = E5 m ρ c b :=
  fun b hb => W6_of_ne m ρ c b fun w e => hb (Finset.mem_image.mpr ⟨w, Finset.mem_univ _, e⟩)

/-- After the fourth host stretch (call 3's entry). -/
abbrev W7 : Dev nD → Valuation τ sig (Elt F) := fun c => StableHlo.after hostOps3 (W6 m ρ c)
abbrev E7 : (c : Dev nD) → (b : Ref sig .tc) → Buf (Elt F) ((c : Thread nD τ).loc b) := fun c b => W7 m ρ c b
/-- After call 3: its arrays at what the pipeline leaves (the inputs as entered, the output's write-backs folded), every
    other buffer as entered. -/
def W8 (c : Dev nD) : Valuation τ sig (Elt F) :=
  Pipeline.withArrays spec3 c (W7 m ρ c) fun w => (dat3 (E7 m ρ) c).arrAt w cfg3.N
theorem W8_arr (c : Dev nD) (w : Fin cfg3.W) :
    W8 m ρ c (Proc.devRef .tc (Pipeline.arrRef spec3 w)) = (dat3 (E7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references. -/
abbrev E8 : (c : Dev nD) → (b : Ref sig .tc) → Buf (Elt F) ((c : Thread nD τ).loc b) := fun c b => W8 m ρ c b
theorem hF3 (c : Dev nD) (w : Fin cfg3.W) : (dat3 (E7 m ρ) c).arrAt w cfg3.N = E8 m ρ c (Pipeline.arrRef spec3 w) :=
  (W8_arr m ρ c w).symm
theorem hrest3 (c : Dev nD) : ∀ b, b ∉ Finset.univ.image (Pipeline.arrRef spec3) → E8 m ρ c b = E7 m ρ c b :=
  fun b hb => W8_of_ne m ρ c b fun w e => hb (Finset.mem_image.mpr ⟨w, Finset.mem_univ _, e⟩)

/-! ## A call leaves every buffer that is not its output as it found it -/

/-- Call 0 changes `main_v4` only. -/
theorem keep0 (c : Dev nD) (b : Ref sig .tc) (hb : b ≠ main_v4) : W2 m ρ c (Proc.devRef .tc b) = W1 m ρ c (Proc.devRef .tc b) := by
  by_cases h : ∃ w, Pipeline.arrRef spec0 w = b
  · obtain ⟨w, rfl⟩ := h
    rw [W2_arr]
    have hw : (cfg0.win w).isOut = false := by
      match w with
      | ⟨0, _⟩ => rfl
      | ⟨1, _⟩ => rfl
      | ⟨2, _⟩ => exact absurd rfl hb
    exact ((dat0 (E1 m ρ) c).arrAt_in w hw _).trans (A_eq0 (E1 m ρ) c w)
  · exact W2_of_ne m ρ c b fun w e => h ⟨w, e⟩
/-- Call 1 changes `main_v17` only. -/
theorem keep1 (c : Dev nD) (b : Ref sig .tc) (hb : b ≠ main_v17) : W4 m ρ c (Proc.devRef .tc b) = W3 m ρ c (Proc.devRef .tc b) := by
  by_cases h : ∃ w, Pipeline.arrRef spec1 w = b
  · obtain ⟨w, rfl⟩ := h
    rw [W4_arr]
    have hw : (cfg1.win w).isOut = false := by
      match w with
      | ⟨0, _⟩ => rfl
      | ⟨1, _⟩ => rfl
      | ⟨2, _⟩ => rfl
      | ⟨3, _⟩ => exact absurd rfl hb
    exact ((dat1 (E3 m ρ) c).arrAt_in w hw _).trans (A_eq1 (E3 m ρ) c w)
  · exact W4_of_ne m ρ c b fun w e => h ⟨w, e⟩
/-- Call 2 changes `main_v37` only. -/
theorem keep2 (c : Dev nD) (b : Ref sig .tc) (hb : b ≠ main_v37) : W6 m ρ c (Proc.devRef .tc b) = W5 m ρ c (Proc.devRef .tc b) := by
  by_cases h : ∃ w, Pipeline.arrRef spec2 w = b
  · obtain ⟨w, rfl⟩ := h
    rw [W6_arr]
    have hw : (cfg2.win w).isOut = false := by
      match w with
      | ⟨0, _⟩ => rfl
      | ⟨1, _⟩ => rfl
      | ⟨2, _⟩ => rfl
      | ⟨3, _⟩ => exact absurd rfl hb
    exact ((dat2 (E5 m ρ) c).arrAt_in w hw _).trans (A_eq2 (E5 m ρ) c w)
  · exact W6_of_ne m ρ c b fun w e => h ⟨w, e⟩
/-- Call 3 changes `main_v54` only. -/
theorem keep3 (c : Dev nD) (b : Ref sig .tc) (hb : b ≠ main_v54) : W8 m ρ c (Proc.devRef .tc b) = W7 m ρ c (Proc.devRef .tc b) := by
  by_cases h : ∃ w, Pipeline.arrRef spec3 w = b
  · obtain ⟨w, rfl⟩ := h
    rw [W8_arr]
    have hw : (cfg3.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact ((dat3 (E7 m ρ) c).arrAt_in w hw _).trans (A_eq3 (E7 m ρ) c w)
  · exact W8_of_ne m ρ c b fun w e => h ⟨w, e⟩

/-- `main_arg0` ends as launched: no host stretch writes it and each call reads it through an input window or not at all. -/
theorem W8_main_arg0 (c : Dev nD) : W8 m ρ c (Proc.devRef .tc main_arg0) = m ((c : Thread nD τ).loc main_arg0) :=
  (keep3 m ρ c main_arg0 (by decide)).trans <| (StableHlo.after_of_writes_sub hostOps3 _ hostOps3_writes (by decide)).trans <|
  (keep2 m ρ c main_arg0 (by decide)).trans <| (StableHlo.after_of_writes_sub hostOps2 _ hostOps2_writes (by decide)).trans <|
  (keep1 m ρ c main_arg0 (by decide)).trans <| (StableHlo.after_of_writes_sub hostOps1 _ hostOps1_writes (by decide)).trans <|
  (keep0 m ρ c main_arg0 (by decide)).trans <| (StableHlo.after_of_writes_sub hostOps0 _ hostOps0_writes (by decide)).trans rfl
/-- `main_arg1` ends as launched: no host stretch writes it and each call reads it through an input window or not at all. -/
theorem W8_main_arg1 (c : Dev nD) : W8 m ρ c (Proc.devRef .tc main_arg1) = m ((c : Thread nD τ).loc main_arg1) :=
  (keep3 m ρ c main_arg1 (by decide)).trans <| (StableHlo.after_of_writes_sub hostOps3 _ hostOps3_writes (by decide)).trans <|
  (keep2 m ρ c main_arg1 (by decide)).trans <| (StableHlo.after_of_writes_sub hostOps2 _ hostOps2_writes (by decide)).trans <|
  (keep1 m ρ c main_arg1 (by decide)).trans <| (StableHlo.after_of_writes_sub hostOps1 _ hostOps1_writes (by decide)).trans <|
  (keep0 m ρ c main_arg1 (by decide)).trans <| (StableHlo.after_of_writes_sub hostOps0 _ hostOps0_writes (by decide)).trans rfl
/-- `main_arg2` ends as launched: no host stretch writes it and each call reads it through an input window or not at all. -/
theorem W8_main_arg2 (c : Dev nD) : W8 m ρ c (Proc.devRef .tc main_arg2) = m ((c : Thread nD τ).loc main_arg2) :=
  (keep3 m ρ c main_arg2 (by decide)).trans <| (StableHlo.after_of_writes_sub hostOps3 _ hostOps3_writes (by decide)).trans <|
  (keep2 m ρ c main_arg2 (by decide)).trans <| (StableHlo.after_of_writes_sub hostOps2 _ hostOps2_writes (by decide)).trans <|
  (keep1 m ρ c main_arg2 (by decide)).trans <| (StableHlo.after_of_writes_sub hostOps1 _ hostOps1_writes (by decide)).trans <|
  (keep0 m ρ c main_arg2 (by decide)).trans <| (StableHlo.after_of_writes_sub hostOps0 _ hostOps0_writes (by decide)).trans rfl
/-- `main_arg3` ends as launched: no host stretch writes it and each call reads it through an input window or not at all. -/
theorem W8_main_arg3 (c : Dev nD) : W8 m ρ c (Proc.devRef .tc main_arg3) = m ((c : Thread nD τ).loc main_arg3) :=
  (keep3 m ρ c main_arg3 (by decide)).trans <| (StableHlo.after_of_writes_sub hostOps3 _ hostOps3_writes (by decide)).trans <|
  (keep2 m ρ c main_arg3 (by decide)).trans <| (StableHlo.after_of_writes_sub hostOps2 _ hostOps2_writes (by decide)).trans <|
  (keep1 m ρ c main_arg3 (by decide)).trans <| (StableHlo.after_of_writes_sub hostOps1 _ hostOps1_writes (by decide)).trans <|
  (keep0 m ρ c main_arg3 (by decide)).trans <| (StableHlo.after_of_writes_sub hostOps0 _ hostOps0_writes (by decide)).trans rfl
/-- `main_arg4` ends as launched: no host stretch writes it and each call reads it through an input window or not at all. -/
theorem W8_main_arg4 (c : Dev nD) : W8 m ρ c (Proc.devRef .tc main_arg4) = m ((c : Thread nD τ).loc main_arg4) :=
  (keep3 m ρ c main_arg4 (by decide)).trans <| (StableHlo.after_of_writes_sub hostOps3 _ hostOps3_writes (by decide)).trans <|
  (keep2 m ρ c main_arg4 (by decide)).trans <| (StableHlo.after_of_writes_sub hostOps2 _ hostOps2_writes (by decide)).trans <|
  (keep1 m ρ c main_arg4 (by decide)).trans <| (StableHlo.after_of_writes_sub hostOps1 _ hostOps1_writes (by decide)).trans <|
  (keep0 m ρ c main_arg4 (by decide)).trans <| (StableHlo.after_of_writes_sub hostOps0 _ hostOps0_writes (by decide)).trans rfl
/-- `main_arg5` ends as launched: no host stretch writes it and each call reads it through an input window or not at all. -/
theorem W8_main_arg5 (c : Dev nD) : W8 m ρ c (Proc.devRef .tc main_arg5) = m ((c : Thread nD τ).loc main_arg5) :=
  (keep3 m ρ c main_arg5 (by decide)).trans <| (StableHlo.after_of_writes_sub hostOps3 _ hostOps3_writes (by decide)).trans <|
  (keep2 m ρ c main_arg5 (by decide)).trans <| (StableHlo.after_of_writes_sub hostOps2 _ hostOps2_writes (by decide)).trans <|
  (keep1 m ρ c main_arg5 (by decide)).trans <| (StableHlo.after_of_writes_sub hostOps1 _ hostOps1_writes (by decide)).trans <|
  (keep0 m ρ c main_arg5 (by decide)).trans <| (StableHlo.after_of_writes_sub hostOps0 _ hostOps0_writes (by decide)).trans rfl
/-- `main_arg6` ends as launched: no host stretch writes it and each call reads it through an input window or not at all. -/
theorem W8_main_arg6 (c : Dev nD) : W8 m ρ c (Proc.devRef .tc main_arg6) = m ((c : Thread nD τ).loc main_arg6) :=
  (keep3 m ρ c main_arg6 (by decide)).trans <| (StableHlo.after_of_writes_sub hostOps3 _ hostOps3_writes (by decide)).trans <|
  (keep2 m ρ c main_arg6 (by decide)).trans <| (StableHlo.after_of_writes_sub hostOps2 _ hostOps2_writes (by decide)).trans <|
  (keep1 m ρ c main_arg6 (by decide)).trans <| (StableHlo.after_of_writes_sub hostOps1 _ hostOps1_writes (by decide)).trans <|
  (keep0 m ρ c main_arg6 (by decide)).trans <| (StableHlo.after_of_writes_sub hostOps0 _ hostOps0_writes (by decide)).trans rfl
/-- `main_arg7` ends as launched: no host stretch writes it and each call reads it through an input window or not at all. -/
theorem W8_main_arg7 (c : Dev nD) : W8 m ρ c (Proc.devRef .tc main_arg7) = m ((c : Thread nD τ).loc main_arg7) :=
  (keep3 m ρ c main_arg7 (by decide)).trans <| (StableHlo.after_of_writes_sub hostOps3 _ hostOps3_writes (by decide)).trans <|
  (keep2 m ρ c main_arg7 (by decide)).trans <| (StableHlo.after_of_writes_sub hostOps2 _ hostOps2_writes (by decide)).trans <|
  (keep1 m ρ c main_arg7 (by decide)).trans <| (StableHlo.after_of_writes_sub hostOps1 _ hostOps1_writes (by decide)).trans <|
  (keep0 m ρ c main_arg7 (by decide)).trans <| (StableHlo.after_of_writes_sub hostOps0 _ hostOps0_writes (by decide)).trans rfl
/-- `main_arg8` ends as launched: no host stretch writes it and each call reads it through an input window or not at all. -/
theorem W8_main_arg8 (c : Dev nD) : W8 m ρ c (Proc.devRef .tc main_arg8) = m ((c : Thread nD τ).loc main_arg8) :=
  (keep3 m ρ c main_arg8 (by decide)).trans <| (StableHlo.after_of_writes_sub hostOps3 _ hostOps3_writes (by decide)).trans <|
  (keep2 m ρ c main_arg8 (by decide)).trans <| (StableHlo.after_of_writes_sub hostOps2 _ hostOps2_writes (by decide)).trans <|
  (keep1 m ρ c main_arg8 (by decide)).trans <| (StableHlo.after_of_writes_sub hostOps1 _ hostOps1_writes (by decide)).trans <|
  (keep0 m ρ c main_arg8 (by decide)).trans <| (StableHlo.after_of_writes_sub hostOps0 _ hostOps0_writes (by decide)).trans rfl
/-- `main_arg9` ends as launched: no host stretch writes it and each call reads it through an input window or not at all. -/
theorem W8_main_arg9 (c : Dev nD) : W8 m ρ c (Proc.devRef .tc main_arg9) = m ((c : Thread nD τ).loc main_arg9) :=
  (keep3 m ρ c main_arg9 (by decide)).trans <| (StableHlo.after_of_writes_sub hostOps3 _ hostOps3_writes (by decide)).trans <|
  (keep2 m ρ c main_arg9 (by decide)).trans <| (StableHlo.after_of_writes_sub hostOps2 _ hostOps2_writes (by decide)).trans <|
  (keep1 m ρ c main_arg9 (by decide)).trans <| (StableHlo.after_of_writes_sub hostOps1 _ hostOps1_writes (by decide)).trans <|
  (keep0 m ρ c main_arg9 (by decide)).trans <| (StableHlo.after_of_writes_sub hostOps0 _ hostOps0_writes (by decide)).trans rfl
/-- `main_arg10` ends as launched: no host stretch writes it and each call reads it through an input window or not at all. -/
theorem W8_main_arg10 (c : Dev nD) : W8 m ρ c (Proc.devRef .tc main_arg10) = m ((c : Thread nD τ).loc main_arg10) :=
  (keep3 m ρ c main_arg10 (by decide)).trans <| (StableHlo.after_of_writes_sub hostOps3 _ hostOps3_writes (by decide)).trans <|
  (keep2 m ρ c main_arg10 (by decide)).trans <| (StableHlo.after_of_writes_sub hostOps2 _ hostOps2_writes (by decide)).trans <|
  (keep1 m ρ c main_arg10 (by decide)).trans <| (StableHlo.after_of_writes_sub hostOps1 _ hostOps1_writes (by decide)).trans <|
  (keep0 m ρ c main_arg10 (by decide)).trans <| (StableHlo.after_of_writes_sub hostOps0 _ hostOps0_writes (by decide)).trans rfl

/-! ## The proof data family and the thread state -/

/-- Every call's proof data, each at its entry contents — a literal `match`, so that the pinned configuration at a
    numeral reduces to the printed one. -/
def pdats : (p : Fin 4) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W8 m ρ c) ∗ ∃ r, prngReg c r)

/-! ## The calls as segments -/

-- unification with the pinned configuration may unfold plain definitions in a metavariable's type
set_option backward.isDefEq.respectTransparency.types false in
/-- Call 0 as a segment: entered with every unscoped buffer at `W1`, left with them at `W2`. Its arrays are
    split out of the unscoped buffers on entry and put back, at what the pipeline leaves, on exit; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Call 1 as a segment: entered with every unscoped buffer at `W3`, left with them at `W4`. Its arrays are
    split out of the unscoped buffers on entry and put back, at what the pipeline leaves, on exit; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Call 2 as a segment: entered with every unscoped buffer at `W5`, left with them at `W6`. Its arrays are
    split out of the unscoped buffers on entry and put back, at what the pipeline leaves, on exit; the generator
    register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ (Pipeline.ΦA spec2 c : sProp 𝕄) from hout2 (E5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Call 3 as a segment: entered with every unscoped buffer at `W7`, left with them at `W8`. Its arrays are
    split out of the unscoped buffers on entry and put back, at what the pipeline leaves, on exit; the generator
    register goes into the region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E7 m ρ c) (E8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments. -/
theorem main_run (c : Dev nD) : main (F := F) c = Pipeline.Seg.run (segs m ρ) := (main_chain c).trans (by chain_rfl)

-- the launch theorem's implicit arguments are found by unifying its conclusion with this one
set_option backward.isDefEq.respectTransparency.types false in
/-- THE RUN. From any memory with zero counters every weakly fair execution of @main terminates, nothing faulting,
    and every final state holds every unscoped buffer at the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME, at any float family: every execution terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W8_main_arg0 m ρ c), (h c _ (mem_uc main_arg1 (by decide))).trans (W8_main_arg1 m ρ c),
     (h c _ (mem_uc main_arg2 (by decide))).trans (W8_main_arg2 m ρ c), (h c _ (mem_uc main_arg3 (by decide))).trans (W8_main_arg3 m ρ c),
     (h c _ (mem_uc main_arg4 (by decide))).trans (W8_main_arg4 m ρ c), (h c _ (mem_uc main_arg5 (by decide))).trans (W8_main_arg5 m ρ c),
     (h c _ (mem_uc main_arg6 (by decide))).trans (W8_main_arg6 m ρ c), (h c _ (mem_uc main_arg7 (by decide))).trans (W8_main_arg7 m ρ c),
     (h c _ (mem_uc main_arg8 (by decide))).trans (W8_main_arg8 m ρ c), (h c _ (mem_uc main_arg9 (by decide))).trans (W8_main_arg9 m ρ c),
     (h c _ (mem_uc main_arg10 (by decide))).trans (W8_main_arg10 m ρ c)⟩) (run_all m ρ)

end Cert.Kernel.Fr

end
-- ==== Proof.FrReg0.lean ====
import proofs.«410010_j22943715295836_2_alg».proof.Proof.LaunchKI
import proofs.«410010_j22943715295836_2_alg».proof.Proof.Gen.KernelIdeal.Skeleton
import proofs.«410010_j22943715295836_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first pallas_call: one row block of `x · W1` per grid point

The grid has 5 points; point `t` reads rows `10000 t … 10000 t + 9999` of `x` (window 0) and the whole of `W1`
(window 1, fetched once), and writes the same rows of the product (window 2). Everything here is stated at a
parameter `V`, the contents of the TensorCore's buffers when the region is entered. -/

variable (V : (c : Dev nD) → (b : Ref sig .tc) → Buf (Elt F) ((c : Thread nD τ).loc b))

/-- Window `w`'s block at point `t`, read off its array in the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block of the entry contents at every point, whether the
    point fetched it or the block index stood still since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block of the entry contents at every point, whether the
    point fetched it or the block index stood still since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x64 := Rect.unit (s := S10000x64) ![0, 0] S10000x64.size inb_S10000x64_S10000x64_0_0

/-- What the body leaves in the output window's buffer: its one whole-buffer store of the product of the two
    loaded blocks. -/
def out0_2 (x0 : Vec F S10000x128 .f32) (x1 : Vec F S128x64 .f32) : Vec F S10000x64 .bf16 :=
  View.canon [⟨r0_2, k0_pay1 (View.ld x0 r0_0) (View.ld x1 r0_1)⟩]

/-- The one store covers the whole buffer. -/
theorem cover0_2 (p0 : Vec F S10000x64 .bf16) (y : S10000x64.Idx) :
    ∃ pc ∈ ([⟨r0_2, p0⟩] : List (View.Piece (Elt F) S10000x64 .bf16)), y ∈ pc.1.set :=
  View.cover_of_tiled [⟨r0_2, p0⟩] S10000x64.size (by rfl) y

set_option maxHeartbeats 1000000 in
/-- The body on whole staging buffers: the two inputs at `x0`, `x1` and the output at anything; it ends with the
    inputs as they were and the output at `out0_2 x0 x1`. -/
theorem sound_kernel0 (c : Dev nD) (E : Set ℕ) (i : grid0.Coords) (arg1 : Memref sig .tc .vmem S10000x128 .f32) (harg1 : arg1.IsWhole)
    (arg2 : Memref sig .tc .vmem S128x64 .f32) (harg2 : arg2.IsWhole) (arg3 : Memref sig .tc .vmem S10000x64 .bf16) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pallas_call on core `c`: the arrays as the region finds them; after the body at point `t`
    each input's buffer at its block and the output's at `out0_2` of the two blocks; the invariant is the scoped rest
    and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrReg1.lean ====
import proofs.«410010_j22943715295836_2_alg».proof.Proof.LaunchKI
import proofs.«410010_j22943715295836_2_alg».proof.Proof.Gen.KernelIdeal.Skeleton
import proofs.«410010_j22943715295836_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second pallas_call: one row block of `max (agg + b) 0 · W2` per grid point

The grid has 5 points; point `t` reads rows `10000 t … 10000 t + 9999` of the aggregate (window 0), the bias row
(window 1) and the whole of `W2` (window 2), the last two fetched once, and writes the same rows of the result
(window 3). Everything is stated at a parameter `V`, the buffers' contents when the region is entered. -/

variable (V : (c : Dev nD) → (b : Ref sig .tc) → Buf (Elt F) ((c : Thread nD τ).loc b))

/-- Window `w`'s block at point `t`, read off its array in the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block of the entry contents at every point, whether the point
    fetched it or the block index stood still since the last fetch: window 0, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- window 1, -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- and window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S10000x64 := Rect.unit (s := S10000x64) ![0, 0] S10000x64.size inb_S10000x64_S10000x64_0_0
abbrev r1_1 : Rect S1x64 := Rect.unit (s := S1x64) ![0, 0] S1x64.size inb_S1x64_S1x64_0_0
abbrev r1_2 : Rect S64x64 := Rect.unit (s := S64x64) ![0, 0] S64x64.size inb_S64x64_S64x64_0_0

/-- What the body leaves in the output window's buffer: its one whole-buffer store. -/
def out1_3 (x0 : Vec F S10000x64 .f32) (x1 : Vec F S1x64 .f32) (x2 : Vec F S64x64 .f32) : Vec F S10000x64 .bf16 :=
  View.canon [⟨r1_0, k1_pay1 (View.ld x0 r1_0) (View.ld x1 r1_1) (View.ld x2 r1_2)⟩]

/-- The one store covers the whole buffer. -/
theorem cover1_3 (p0 : Vec F S10000x64 .bf16) (y : S10000x64.Idx) :
    ∃ pc ∈ ([⟨r1_0, p0⟩] : List (View.Piece (Elt F) S10000x64 .bf16)), y ∈ pc.1.set :=
  View.cover_of_tiled [⟨r1_0, p0⟩] S10000x64.size (by rfl) y

set_option maxHeartbeats 1000000 in
/-- The body on whole staging buffers: the three inputs at `x0`, `x1`, `x2` and the output at anything; it ends with
    the inputs as they were and the output at `out1_3 x0 x1 x2`. -/
theorem sound_kernel1 (c : Dev nD) (E : Set ℕ) (i : grid1.Coords) (arg1 : Memref sig .tc .vmem S10000x64 .f32) (harg1 : arg1.IsWhole)
    (arg2 : Memref sig .tc .vmem S1x64 .f32) (harg2 : arg2.IsWhole) (arg3 : Memref sig .tc .vmem S64x64 .f32) (harg3 : arg3.IsWhole)
    (arg4 : Memref sig .tc .vmem S10000x64 .bf16) (harg4 : arg4.IsWhole)
    (x0 : Vec F S10000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__fused_bias_relu_matmul_kernel i arg1 harg1 arg2 harg2 arg3 harg3 arg4 harg4) K := by
  simp only [cc1__fused_bias_relu_matmul_kernel_eq_skeleton]; unfold cc1__fused_bias_relu_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pallas_call on core `c`: the arrays as the region finds them; after the body at point `t`
    each input's buffer at its block and the output's at `out1_3` of the three blocks; the invariant is the scoped
    rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrReg2.lean ====
import proofs.«410010_j22943715295836_2_alg».proof.Proof.LaunchKI
import proofs.«410010_j22943715295836_2_alg».proof.Proof.Gen.KernelIdeal.Skeleton
import proofs.«410010_j22943715295836_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The third pallas_call: per half of the rows, five blocks accumulated in a scratch buffer

The grid is 2 × 5: point `t` = (half `t / 5`, step `t % 5`) reads rows `5000 t … 5000 t + 4999` of the aggregate
(window 0) and of the membership table (window 2) and the bias row (window 1). The body keeps a 64 × 64 accumulator in
a scratch buffer across points: at step 0 it stores zero there, at every step it adds the block's product, and at
step 4 it copies the accumulator into the output window's buffer (window 3, one 64 × 64 block per half), which the
pipeline writes back at those two points only. Everything is stated at a parameter `V`, the buffers' contents when
the region is entered. -/

variable (V : (c : Dev nD) → (b : Ref sig .tc) → Buf (Elt F) ((c : Thread nD τ).loc b))

/-- Window `w`'s block at point `t`, read off its array in the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block of the entry contents at every point, whether the point
    fetched it or the block index stood still since the last fetch: window 0, -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- window 1, -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- and window 2. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, over the grid -/

/-- "This is step 0 of the half": the body then zeroes the accumulator first. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 5 = 0 :=
  (by decide +kernel : ∀ t : Fin grid2.N, cond2_0 (grid2.coords t) ↔ t.val % 5 = 0)

/-- "This is step 4 of the half": the body then copies the accumulator into the output window. -/
abbrev cond2_1 (i : grid2.Coords) : Prop := k2_cond2 i = 1#1
theorem hcond2_1 : ∀ t : Fin cfg2.N, cond2_1 (grid2.coords t) ↔ t.val % 5 = 4 :=
  (by decide +kernel : ∀ t : Fin grid2.N, cond2_1 (grid2.coords t) ↔ t.val % 5 = 4)

/-- The inputs are stored into nowhere and read everywhere: never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Before step 4 the body stores nothing into the output window, and the pipeline does not write it back there. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At step 4 it does. -/
theorem liveAt2_3 : ∀ t : Fin cfg2.N, cond2_1 (grid2.coords t) → cfg2.idle 3 (grid2.coords t) = false := by decide +kernel

/-! ## The scratch accumulator as a buffer -/

/-- The accumulator: a whole scoped buffer of the kernel's own. -/
abbrev scM2 : Memref sig .tc .vmem S64x64 .f32 := Memref.whole cc2_scratch0

/-- Everything else the region's invariant holds — the other scoped buffers and the generator register —, as what
    gives the whole scoped rest back for the accumulator at any contents. -/
def R2rest (c : Dev nD) : sProp 𝕄 :=
  iprop((∃ d, owns (c : Thread nD τ) scM2 fullShare d) -∗ Pipeline.ΦA spec2 c)

/-- The scoped rest of this call holds the accumulator at some contents; taking it out leaves `R2rest`. -/
theorem PhiA2_split (c : Dev nD) :
    (Pipeline.ΦA spec2 c : sProp 𝕄) ⊢ iprop((∃ d, owns (c : Thread nD τ) scM2 fullShare d) ∗ R2rest c) := by
  unfold R2rest Pipeline.ΦA; rw [scopedRest2_eq]; simp only [scM2, owns_whole]
  iintro ⟨⟨A0, A1, A2, A3, A4, A5, A6, A7, A8, A9, A10, HS, B0, B1, B2, B3, B4, B5⟩, Hg⟩
  isplitl [HS]; · iexact HS
  iintro HS
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [HS]; · iexact HS
    isplitl [B0]; · iexact B0
    isplitl [B1]; · iexact B1
    isplitl [B2]; · iexact B2
    isplitl [B3]; · iexact B3
    isplitl [B4]; · iexact B4
    iexact B5
  iexact Hg

theorem hz2 : (![0, 0] : Fin 2 → Nat) = fun _ => 0 := by funext a; fin_cases a <;> rfl
theorem hz3 : (![0, 0, 0] : Fin 3 → Nat) = fun _ => 0 := by funext a; fin_cases a <;> rfl

/-! ## The body in its three cases -/

set_option maxHeartbeats 2000000 in
/-- Step 0 of a half: the accumulator is zeroed, then the block's product added; the output window's buffer is not
    touched. -/
theorem sound_kernel2_A (c : Dev nD) (E : Set ℕ) (i : grid2.Coords) (arg2 : Memref sig .tc .vmem S5000x64 .f32) (harg2 : arg2.IsWhole)
    (arg3 : Memref sig .tc .vmem S1x64 .f32) (harg3 : arg3.IsWhole) (arg4 : Memref sig .tc .vmem S5000x64 .bf16) (harg4 : arg4.IsWhole)
    (arg5 : Memref sig .tc .vmem S1x64x64 .f32) (harg5 : arg5.IsWhole) (arg6 : Memref sig .tc .vmem S64x64 .f32) (harg6 : arg6.IsWhole)
    (hc0 : cond2_0 i) (hc1 : ¬cond2_1 i)
    (x0 : Vec F S5000x64 .f32) (x1 : Vec F S1x64 .f32) (x2 : Vec F S5000x64 .bf16) (xi3 : Vec F S1x64x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k2_pay2 x0 x1 x2 (k2_pay1 (F := F)))) -∗ K ⟨⟩))
      ⊢ wp frame (wpE (defs₀ (F := F)) Variants.none c none) E (cc2__pool_kernel i arg2 harg2 arg3 harg3 arg4 harg4 arg5 harg5 arg6 harg6) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (fun y => ⟨_, List.Mem.head _, View.mem_set_unit_zero hz2 inb_S64x64_S64x64_0_0 y⟩)]
  rw [View.canon_cons_unit_zero (S := S64x64) hz2, View.readCov_unit_zero (S := S64x64) _ hz2]
  simp only [View.readAt_eq_ld, View.ld_unit_zero (S := S5000x64) hz2, View.ld_unit_zero (S := S1x64) hz2]

set_option maxHeartbeats 2000000 in
/-- Steps 1 to 3: the block's product is added to what the step before left; the output window's buffer is not
    touched. -/
theorem sound_kernel2_B (c : Dev nD) (E : Set ℕ) (i : grid2.Coords) (arg2 : Memref sig .tc .vmem S5000x64 .f32) (harg2 : arg2.IsWhole)
    (arg3 : Memref sig .tc .vmem S1x64 .f32) (harg3 : arg3.IsWhole) (arg4 : Memref sig .tc .vmem S5000x64 .bf16) (harg4 : arg4.IsWhole)
    (arg5 : Memref sig .tc .vmem S1x64x64 .f32) (harg5 : arg5.IsWhole) (arg6 : Memref sig .tc .vmem S64x64 .f32) (harg6 : arg6.IsWhole)
    (hc0 : ¬cond2_0 i) (hc1 : ¬cond2_1 i)
    (x0 : Vec F S5000x64 .f32) (x1 : Vec F S1x64 .f32) (x2 : Vec F S5000x64 .bf16) (xi3 : Vec F S1x64x64 .f32) (xs : Vec F S64x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k2_pay2 x0 x1 x2 xs)) -∗ K ⟨⟩))
      ⊢ wp frame (wpE (defs₀ (F := F)) Variants.none c none) E (cc2__pool_kernel i arg2 harg2 arg3 harg3 arg4 harg4 arg5 harg5 arg6 harg6) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (fun y => ⟨_, List.Mem.head _, View.mem_set_unit_zero hz2 inb_S64x64_S64x64_0_0 y⟩)]
  rw [View.canon_unit_zero (S := S64x64) hz2]
  simp only [View.readAt_eq_ld, View.ld_unit_zero (S := S5000x64) hz2, View.ld_unit_zero (S := S1x64) hz2, View.ld_unit_zero (S := S64x64) hz2]

set_option maxHeartbeats 2000000 in
/-- Step 4: the block's product is added to what the step before left, and the sum is copied into the output
    window's buffer. -/
theorem sound_kernel2_C (c : Dev nD) (E : Set ℕ) (i : grid2.Coords) (arg2 : Memref sig .tc .vmem S5000x64 .f32) (harg2 : arg2.IsWhole)
    (arg3 : Memref sig .tc .vmem S1x64 .f32) (harg3 : arg3.IsWhole) (arg4 : Memref sig .tc .vmem S5000x64 .bf16) (harg4 : arg4.IsWhole)
    (arg5 : Memref sig .tc .vmem S1x64x64 .f32) (harg5 : arg5.IsWhole) (arg6 : Memref sig .tc .vmem S64x64 .f32) (harg6 : arg6.IsWhole)
    (hc0 : ¬cond2_0 i) (hc1 : cond2_1 i)
    (x0 : Vec F S5000x64 .f32) (x1 : Vec F S1x64 .f32) (x2 : Vec F S5000x64 .bf16) (xs : Vec F S64x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k2_pay3 (k2_pay2 x0 x1 x2 xs))
            ∗ owns (c : Thread nD τ) arg6 fullShare (k2_pay2 x0 x1 x2 xs)) -∗ K ⟨⟩))
      ⊢ wp frame (wpE (defs₀ (F := F)) Variants.none c none) E (cc2__pool_kernel i arg2 harg2 arg3 harg3 arg4 harg4 arg5 harg5 arg6 harg6) K := by
  simp only [cc2__pool_kernel_eq_skeleton]; unfold cc2__pool_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.Mem.head _, View.mem_set_unit_zero hz3 inb_S1x64x64_S1x64x64_0_0_0 y⟩)]
    rw [View.canon_unit_zero (S := S1x64x64) hz3, View.readCov_unit_zero (S := S64x64) _ hz2]
    simp only [View.readAt_eq_ld, View.ld_unit_zero (S := S5000x64) hz2, View.ld_unit_zero (S := S1x64) hz2, View.ld_unit_zero (S := S64x64) hz2]
  iexists _; isplitr
  swap; · iexact HS
  ipureintro
  sl_unfold_words
  rw [View.read_writes_eq_canon _ _ _ (fun y => ⟨_, List.Mem.head _, View.mem_set_unit_zero hz2 inb_S64x64_S64x64_0_0 y⟩)]
  rw [View.canon_unit_zero (S := S64x64) hz2]
  simp only [View.readAt_eq_ld, View.ld_unit_zero (S := S5000x64) hz2, View.ld_unit_zero (S := S1x64) hz2, View.ld_unit_zero (S := S64x64) hz2]

/-! ## The accumulator point by point -/

/-- What the scratch accumulator holds after the body at position `n`: at step 0 of a half the block's product added
    to zero, at a later step added to what position `n - 1` left. -/
def accAt (c : Dev nD) : (n : ℕ) → n < cfg2.N → Vec F S64x64 .f32
  | 0, hn => k2_pay2 (iblk2 V c 0 ⟨0, hn⟩) (iblk2 V c 1 ⟨0, hn⟩) (iblk2 V c 2 ⟨0, hn⟩) (k2_pay1 (F := F))
  | n + 1, hn =>
    if (n + 1) % 5 = 0 then
      k2_pay2 (iblk2 V c 0 ⟨n + 1, hn⟩) (iblk2 V c 1 ⟨n + 1, hn⟩) (iblk2 V c 2 ⟨n + 1, hn⟩) (k2_pay1 (F := F))
    else
      k2_pay2 (iblk2 V c 0 ⟨n + 1, hn⟩) (iblk2 V c 1 ⟨n + 1, hn⟩) (iblk2 V c 2 ⟨n + 1, hn⟩) (accAt c n (Nat.lt_of_succ_lt hn))

/-- At step 0 of a half the accumulator starts again from zero. -/
theorem accAt_reset (c : Dev nD) (t : Fin cfg2.N) (h0 : t.val % 5 = 0) :
    accAt V c t.val t.isLt = k2_pay2 (iblk2 V c 0 t) (iblk2 V c 1 t) (iblk2 V c 2 t) (k2_pay1 (F := F)) := by
  obtain ⟨n, hn⟩ := t
  cases n with
  | zero => rfl
  | succ n => exact (if_pos h0).trans rfl

/-- At a later step it goes on from what the point before left. -/
theorem accAt_step (c : Dev nD) (t : Fin cfg2.N) (h0 : ¬t.val % 5 = 0) :
    accAt V c t.val t.isLt
      = k2_pay2 (iblk2 V c 0 t) (iblk2 V c 1 t) (iblk2 V c 2 t) (accAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The region's invariant before position `n`: before the first point the scoped rest at anything and the generator
    register; afterwards the accumulator at what the point before left, beside the rest. -/
def PhiS (c : Dev nD) : (n : ℕ) → n ≤ cfg2.N → sProp 𝕄
  | 0, _ => Pipeline.ΦA spec2 c
  | n + 1, hn => iprop(iprop(owns (c : Thread nD τ) scM2 fullShare (accAt V c n hn)) ∗ R2rest c)

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM2 fullShare (accAt V c n hn)) ∗ R2rest c) := rfl

theorem PhiS_pos (c : Dev nD) (n : ℕ) (h : n ≤ cfg2.N) (hz : n ≠ 0) :
    PhiS V c n h = iprop(iprop(owns (c : Thread nD τ) scM2 fullShare (accAt V c (n - 1) (by omega))) ∗ R2rest c) := by
  cases n with
  | zero => exact absurd rfl hz
  | succ n => rfl

/-! ## The proof data and the body obligation -/

/-- The proof data of this pallas_call on core `c`: the arrays as the region finds them; after the body at point `t`
    each input's buffer at its block and the output's at the accumulator reshaped (what step 4 stores; at the other
    steps the window is idle and this is not consulted); the invariant carries the accumulator; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (accAt V c t.val t.isLt)
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay3 (accAt V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4000000 in
/-- The body at any point, by the step of the half the point is: the inputs' buffers hold their blocks; the invariant
    hands over the accumulator at what the point before left (at anything before step 0) and takes it back at this
    point's contents; before step 4 the output window's buffer goes back as it came. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS V c (t.val + 1) t.isLt from rfl, PhiS_succ]
  have hN : t.val < 10 := lt_of_lt_of_eq t.isLt (show cfg2.N = 10 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  by_cases h0 : t.val % 5 = 0
  · have h1 : ¬t.val % 5 = 4 := by omega
    rw [Dat.leavesExact_idle (dat2 V c) 3 t (idleAt2_3 t (fun h => h1 ((hcond2_1 t).mp h))) (noFlush2_3 t (fun h => h1 ((hcond2_1 t).mp h)))]
    rw [accAt_reset V c t h0]
    by_cases hz : t.val = 0
    · rw [PhiS_castSucc V c t, PhiS_zero V c _ _ hz]
      have hsp := PhiA2_split (F := F) c
      iintro ⟨Hphi, Ho, ⟨%d0, H0⟩, ⟨%d1, H1⟩, ⟨%d2, H2⟩, ⟨%d3, H3⟩⟩
      ihave Hsp := hsp $$ Hphi
      icases Hsp with ⟨HS, Hg⟩
      iapply (sound_kernel2_A c Set.univ (grid2.coords t) _ _ _ _ _ _ _ _ _ _ ((hcond2_0 t).mpr h0) (fun h => h1 ((hcond2_1 t).mp h))
        (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HS, Hg⟩, Ho, ⟨%d0, H0⟩, ⟨%d1, H1⟩, ⟨%d2, H2⟩, ⟨%d3, H3⟩⟩
      iapply (sound_kernel2_A c Set.univ (grid2.coords t) _ _ _ _ _ _ _ _ _ _ ((hcond2_0 t).mpr h0) (fun h => h1 ((hcond2_1 t).mp h))
        (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 5 = 4
    · rw [show (dat2 V c).leavesExact 3 t = owns (c : Thread nD τ) (st2_3 t) fullShare ((dat2 V c).after 3 t) from by
        unfold Dat.leavesExact; rw [liveAt2_3 t ((hcond2_1 t).mpr h1)], after2_3]
      rw [accAt_step V c t h0]
      rw [PhiS_castSucc V c t, PhiS_pos V c _ _ hz]
      iintro ⟨⟨HS, Hg⟩, Ho, ⟨%d0, H0⟩, ⟨%d1, H1⟩, ⟨%d2, H2⟩, ⟨%d3, H3⟩⟩
      iapply (sound_kernel2_C c Set.univ (grid2.coords t) _ _ _ _ _ _ _ _ _ _ (fun h => h0 ((hcond2_0 t).mp h)) ((hcond2_1 t).mpr h1)
        (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · rw [Dat.leavesExact_idle (dat2 V c) 3 t (idleAt2_3 t (fun h => h1 ((hcond2_1 t).mp h))) (noFlush2_3 t (fun h => h1 ((hcond2_1 t).mp h)))]
      rw [accAt_step V c t h0]
      rw [PhiS_castSucc V c t, PhiS_pos V c _ _ hz]
      iintro ⟨⟨HS, Hg⟩, Ho, ⟨%d0, H0⟩, ⟨%d1, H1⟩, ⟨%d2, H2⟩, ⟨%d3, H3⟩⟩
      iapply (sound_kernel2_B c Set.univ (grid2.coords t) _ _ _ _ _ _ _ _ _ _ (fun h => h0 ((hcond2_0 t).mp h)) (fun h => h1 ((hcond2_1 t).mp h))
        (iblk2 V c 0 t) (iblk2 V c 1 t) (iblk2 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the scoped rest back: the accumulator's contents are forgotten. -/
theorem hout2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 10 := N_2; omega)]
  unfold R2rest
  iintro ⟨HS, Hg⟩
  iapply Hg
  iexists _; iexact HS

end Cert.KernelIdeal.Fr

end
-- ==== Proof.FrReg3.lean ====
import proofs.«410010_j22943715295836_2_alg».proof.Proof.LaunchKI
import proofs.«410010_j22943715295836_2_alg».proof.Proof.Gen.KernelIdeal.Skeleton
import proofs.«410010_j22943715295836_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The fourth pallas_call: the head, at one grid point

The grid has one point: the pooled features (window 0), the two weight matrices (windows 1 and 3) and the two bias
rows (windows 2 and 4) are fetched whole, and the 64 × 10 result (window 5) is written whole. Everything is stated at a
parameter `V`, the buffers' contents when the region is entered. -/

variable (V : (c : Dev nD) → (b : Ref sig .tc) → Buf (Elt F) ((c : Thread nD τ).loc b))

/-- Window `w`'s block at point `t`, read off its array in the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block of the entry contents: window 0, -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- window 1, -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- window 2, -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- window 3, -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- and window 4. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_0 : Rect S64x64 := Rect.unit (s := S64x64) ![0, 0] S64x64.size inb_S64x64_S64x64_0_0
abbrev r3_1 : Rect S64x32 := Rect.unit (s := S64x32) ![0, 0] S64x32.size inb_S64x32_S64x32_0_0
abbrev r3_2 : Rect S1x32 := Rect.unit (s := S1x32) ![0, 0] S1x32.size inb_S1x32_S1x32_0_0
abbrev r3_3 : Rect S32x10 := Rect.unit (s := S32x10) ![0, 0] S32x10.size inb_S32x10_S32x10_0_0
abbrev r3_4 : Rect S1x10 := Rect.unit (s := S1x10) ![0, 0] S1x10.size inb_S1x10_S1x10_0_0
abbrev r3_5 : Rect S64x10 := Rect.unit (s := S64x10) ![0, 0] S64x10.size inb_S64x10_S64x10_0_0

/-- What the body leaves in the output window's buffer: its one whole-buffer store. -/
def out3_5 (x0 : Vec F S64x64 .f32) (x1 : Vec F S64x32 .f32) (x2 : Vec F S1x32 .f32) (x3 : Vec F S32x10 .f32) (x4 : Vec F S1x10 .f32) :
    Vec F S64x10 .f32 :=
  View.canon [⟨r3_5, k3_pay1 (View.ld x0 r3_0) (View.ld x1 r3_1) (View.ld x2 r3_2) (View.ld x3 r3_3) (View.ld x4 r3_4)⟩]

/-- The one store covers the whole buffer. -/
theorem cover3_5 (p0 : Vec F S64x10 .f32) (y : S64x10.Idx) :
    ∃ pc ∈ ([⟨r3_5, p0⟩] : List (View.Piece (Elt F) S64x10 .f32)), y ∈ pc.1.set :=
  View.cover_of_tiled [⟨r3_5, p0⟩] S64x10.size (by rfl) y

set_option maxHeartbeats 1000000 in
/-- The body on whole staging buffers: the five inputs at `x0 … x4` and the output at anything; it ends with the inputs
    as they were and the output at `out3_5` of them. -/
theorem sound_kernel3 (c : Dev nD) (E : Set ℕ) (i : grid3.Coords) (arg1 : Memref sig .tc .vmem S64x64 .f32) (harg1 : arg1.IsWhole)
    (arg2 : Memref sig .tc .vmem S64x32 .f32) (harg2 : arg2.IsWhole) (arg3 : Memref sig .tc .vmem S1x32 .f32) (harg3 : arg3.IsWhole)
    (arg4 : Memref sig .tc .vmem S32x10 .f32) (harg4 : arg4.IsWhole) (arg5 : Memref sig .tc .vmem S1x10 .f32) (harg5 : arg5.IsWhole)
    (arg6 : Memref sig .tc .vmem S64x10 .f32) (harg6 : arg6.IsWhole)
    (x0 : Vec F S64x64 .f32) (x1 : Vec F S64x32 .f32) (x2 : Vec F S1x32 .f32) (x3 : Vec F S32x10 .f32) (x4 : Vec F S1x10 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__mlp_head_kernel i arg1 harg1 arg2 harg2 arg3 harg3 arg4 harg4 arg5 harg5 arg6 harg6) K := by
  simp only [cc3__mlp_head_kernel_eq_skeleton]; unfold cc3__mlp_head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of this pallas_call on core `c`: the arrays as the region finds them; after the body each input's
    buffer at its block and the output's at `out3_5` of the five blocks; the invariant is the scoped rest and the
    generator register, untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at the point, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at the point: the inputs' buffers hold their blocks, so `sound_kernel3` applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at the point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.FrRun.lean ====
import proofs.«410010_j22943715295836_2_alg».proof.Proof.LaunchKI
import proofs.«410010_j22943715295836_2_alg».proof.Proof.Gen.KernelIdeal.Skeleton
import proofs.«410010_j22943715295836_2_alg».proof.Proof.Gen.KernelIdeal.Points
import proofs.«410010_j22943715295836_2_alg».proof.Proof.RegionsKI
import proofs.«410010_j22943715295836_2_alg».proof.Proof.FrReg0
import proofs.«410010_j22943715295836_2_alg».proof.Proof.FrReg1
import proofs.«410010_j22943715295836_2_alg».proof.Proof.FrReg2
import proofs.«410010_j22943715295836_2_alg».proof.Proof.FrReg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run: @main's eight items from the launch to the return

@main is host operations, call 0, host operations, call 1, host operations, call 2, host operations, call 3. The
buffers' contents at each boundary are a fold from the launch memory: a host stretch applies its operations, a call
leaves its arrays at what its pipeline's write-backs produce and everything else alone. Each call is a segment of the
several-regions launch over the thread state "every unscoped buffer at the boundary's contents, the generator
register at some state, nothing owed"; the launch then says every execution terminates with every unscoped buffer at
the last boundary's contents. -/

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (call 0's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- After call 0: its arrays at what the pipeline leaves (the inputs as entered, the output's write-backs folded), every
    other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch (call 1's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- After call 1: its arrays at what the pipeline leaves (the inputs as entered, the output's write-backs folded), every
    other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-- After the third host stretch (call 2's entry). -/
abbrev W5 : Dev nD → Valuation τ sig (Elt F) := fun c => StableHlo.after hostOps2 (W4 m ρ c)
abbrev E5 : (c : Dev nD) → (b : Ref sig .tc) → Buf (Elt F) ((c : Thread nD τ).loc b) := fun c b => W5 m ρ c b
/-- After call 2: its arrays at what the pipeline leaves (the inputs as entered, the output's write-backs folded), every
    other buffer as entered. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev E6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = E6 m ρ c (Pipeline.arrRef spec2 w) :=
  (W6_arr m ρ c w).symm
theorem hrest2 (c : Dev nD) : ∀ b, b ∉ Finset.univ.image (Pipeline.arrRef spec2) → E6 m ρ c b = E5 m ρ c b :=
  fun b hb => W6_of_ne m ρ c b fun w e => hb (Finset.mem_image.mpr ⟨w, Finset.mem_univ _, e⟩)

/-- After the fourth host stretch (call 3's entry). -/
abbrev W7 : Dev nD → Valuation τ sig (Elt F) := fun c => StableHlo.after hostOps3 (W6 m ρ c)
abbrev E7 : (c : Dev nD) → (b : Ref sig .tc) → Buf (Elt F) ((c : Thread nD τ).loc b) := fun c b => W7 m ρ c b
/-- After call 3: its arrays at what the pipeline leaves (the inputs as entered, the output's write-backs folded), every
    other buffer as entered. -/
def W8 (c : Dev nD) : Valuation τ sig (Elt F) :=
  Pipeline.withArrays spec3 c (W7 m ρ c) fun w => (dat3 (E7 m ρ) c).arrAt w cfg3.N
theorem W8_arr (c : Dev nD) (w : Fin cfg3.W) :
    W8 m ρ c (Proc.devRef .tc (Pipeline.arrRef spec3 w)) = (dat3 (E7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references. -/
abbrev E8 : (c : Dev nD) → (b : Ref sig .tc) → Buf (Elt F) ((c : Thread nD τ).loc b) := fun c b => W8 m ρ c b
theorem hF3 (c : Dev nD) (w : Fin cfg3.W) : (dat3 (E7 m ρ) c).arrAt w cfg3.N = E8 m ρ c (Pipeline.arrRef spec3 w) :=
  (W8_arr m ρ c w).symm
theorem hrest3 (c : Dev nD) : ∀ b, b ∉ Finset.univ.image (Pipeline.arrRef spec3) → E8 m ρ c b = E7 m ρ c b :=
  fun b hb => W8_of_ne m ρ c b fun w e => hb (Finset.mem_image.mpr ⟨w, Finset.mem_univ _, e⟩)

/-! ## A call leaves every buffer that is not its output as it found it -/

/-- Call 0 changes `main_v4` only. -/
theorem keep0 (c : Dev nD) (b : Ref sig .tc) (hb : b ≠ main_v4) : W2 m ρ c (Proc.devRef .tc b) = W1 m ρ c (Proc.devRef .tc b) := by
  by_cases h : ∃ w, Pipeline.arrRef spec0 w = b
  · obtain ⟨w, rfl⟩ := h
    rw [W2_arr]
    have hw : (cfg0.win w).isOut = false := by
      match w with
      | ⟨0, _⟩ => rfl
      | ⟨1, _⟩ => rfl
      | ⟨2, _⟩ => exact absurd rfl hb
    exact ((dat0 (E1 m ρ) c).arrAt_in w hw _).trans (A_eq0 (E1 m ρ) c w)
  · exact W2_of_ne m ρ c b fun w e => h ⟨w, e⟩
/-- Call 1 changes `main_v17` only. -/
theorem keep1 (c : Dev nD) (b : Ref sig .tc) (hb : b ≠ main_v17) : W4 m ρ c (Proc.devRef .tc b) = W3 m ρ c (Proc.devRef .tc b) := by
  by_cases h : ∃ w, Pipeline.arrRef spec1 w = b
  · obtain ⟨w, rfl⟩ := h
    rw [W4_arr]
    have hw : (cfg1.win w).isOut = false := by
      match w with
      | ⟨0, _⟩ => rfl
      | ⟨1, _⟩ => rfl
      | ⟨2, _⟩ => rfl
      | ⟨3, _⟩ => exact absurd rfl hb
    exact ((dat1 (E3 m ρ) c).arrAt_in w hw _).trans (A_eq1 (E3 m ρ) c w)
  · exact W4_of_ne m ρ c b fun w e => h ⟨w, e⟩
/-- Call 2 changes `main_v37` only. -/
theorem keep2 (c : Dev nD) (b : Ref sig .tc) (hb : b ≠ main_v37) : W6 m ρ c (Proc.devRef .tc b) = W5 m ρ c (Proc.devRef .tc b) := by
  by_cases h : ∃ w, Pipeline.arrRef spec2 w = b
  · obtain ⟨w, rfl⟩ := h
    rw [W6_arr]
    have hw : (cfg2.win w).isOut = false := by
      match w with
      | ⟨0, _⟩ => rfl
      | ⟨1, _⟩ => rfl
      | ⟨2, _⟩ => rfl
      | ⟨3, _⟩ => exact absurd rfl hb
    exact ((dat2 (E5 m ρ) c).arrAt_in w hw _).trans (A_eq2 (E5 m ρ) c w)
  · exact W6_of_ne m ρ c b fun w e => h ⟨w, e⟩
/-- Call 3 changes `main_v54` only. -/
theorem keep3 (c : Dev nD) (b : Ref sig .tc) (hb : b ≠ main_v54) : W8 m ρ c (Proc.devRef .tc b) = W7 m ρ c (Proc.devRef .tc b) := by
  by_cases h : ∃ w, Pipeline.arrRef spec3 w = b
  · obtain ⟨w, rfl⟩ := h
    rw [W8_arr]
    have hw : (cfg3.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact ((dat3 (E7 m ρ) c).arrAt_in w hw _).trans (A_eq3 (E7 m ρ) c w)
  · exact W8_of_ne m ρ c b fun w e => h ⟨w, e⟩

/-- `main_arg0` ends as launched: no host stretch writes it and each call reads it through an input window or not at all. -/
theorem W8_main_arg0 (c : Dev nD) : W8 m ρ c (Proc.devRef .tc main_arg0) = m ((c : Thread nD τ).loc main_arg0) :=
  (keep3 m ρ c main_arg0 (by decide)).trans <| (StableHlo.after_of_writes_sub hostOps3 _ hostOps3_writes (by decide)).trans <|
  (keep2 m ρ c main_arg0 (by decide)).trans <| (StableHlo.after_of_writes_sub hostOps2 _ hostOps2_writes (by decide)).trans <|
  (keep1 m ρ c main_arg0 (by decide)).trans <| (StableHlo.after_of_writes_sub hostOps1 _ hostOps1_writes (by decide)).trans <|
  (keep0 m ρ c main_arg0 (by decide)).trans <| (StableHlo.after_of_writes_sub hostOps0 _ hostOps0_writes (by decide)).trans rfl
/-- `main_arg1` ends as launched: no host stretch writes it and each call reads it through an input window or not at all. -/
theorem W8_main_arg1 (c : Dev nD) : W8 m ρ c (Proc.devRef .tc main_arg1) = m ((c : Thread nD τ).loc main_arg1) :=
  (keep3 m ρ c main_arg1 (by decide)).trans <| (StableHlo.after_of_writes_sub hostOps3 _ hostOps3_writes (by decide)).trans <|
  (keep2 m ρ c main_arg1 (by decide)).trans <| (StableHlo.after_of_writes_sub hostOps2 _ hostOps2_writes (by decide)).trans <|
  (keep1 m ρ c main_arg1 (by decide)).trans <| (StableHlo.after_of_writes_sub hostOps1 _ hostOps1_writes (by decide)).trans <|
  (keep0 m ρ c main_arg1 (by decide)).trans <| (StableHlo.after_of_writes_sub hostOps0 _ hostOps0_writes (by decide)).trans rfl
/-- `main_arg2` ends as launched: no host stretch writes it and each call reads it through an input window or not at all. -/
theorem W8_main_arg2 (c : Dev nD) : W8 m ρ c (Proc.devRef .tc main_arg2) = m ((c : Thread nD τ).loc main_arg2) :=
  (keep3 m ρ c main_arg2 (by decide)).trans <| (StableHlo.after_of_writes_sub hostOps3 _ hostOps3_writes (by decide)).trans <|
  (keep2 m ρ c main_arg2 (by decide)).trans <| (StableHlo.after_of_writes_sub hostOps2 _ hostOps2_writes (by decide)).trans <|
  (keep1 m ρ c main_arg2 (by decide)).trans <| (StableHlo.after_of_writes_sub hostOps1 _ hostOps1_writes (by decide)).trans <|
  (keep0 m ρ c main_arg2 (by decide)).trans <| (StableHlo.after_of_writes_sub hostOps0 _ hostOps0_writes (by decide)).trans rfl
/-- `main_arg3` ends as launched: no host stretch writes it and each call reads it through an input window or not at all. -/
theorem W8_main_arg3 (c : Dev nD) : W8 m ρ c (Proc.devRef .tc main_arg3) = m ((c : Thread nD τ).loc main_arg3) :=
  (keep3 m ρ c main_arg3 (by decide)).trans <| (StableHlo.after_of_writes_sub hostOps3 _ hostOps3_writes (by decide)).trans <|
  (keep2 m ρ c main_arg3 (by decide)).trans <| (StableHlo.after_of_writes_sub hostOps2 _ hostOps2_writes (by decide)).trans <|
  (keep1 m ρ c main_arg3 (by decide)).trans <| (StableHlo.after_of_writes_sub hostOps1 _ hostOps1_writes (by decide)).trans <|
  (keep0 m ρ c main_arg3 (by decide)).trans <| (StableHlo.after_of_writes_sub hostOps0 _ hostOps0_writes (by decide)).trans rfl
/-- `main_arg4` ends as launched: no host stretch writes it and each call reads it through an input window or not at all. -/
theorem W8_main_arg4 (c : Dev nD) : W8 m ρ c (Proc.devRef .tc main_arg4) = m ((c : Thread nD τ).loc main_arg4) :=
  (keep3 m ρ c main_arg4 (by decide)).trans <| (StableHlo.after_of_writes_sub hostOps3 _ hostOps3_writes (by decide)).trans <|
  (keep2 m ρ c main_arg4 (by decide)).trans <| (StableHlo.after_of_writes_sub hostOps2 _ hostOps2_writes (by decide)).trans <|
  (keep1 m ρ c main_arg4 (by decide)).trans <| (StableHlo.after_of_writes_sub hostOps1 _ hostOps1_writes (by decide)).trans <|
  (keep0 m ρ c main_arg4 (by decide)).trans <| (StableHlo.after_of_writes_sub hostOps0 _ hostOps0_writes (by decide)).trans rfl
/-- `main_arg5` ends as launched: no host stretch writes it and each call reads it through an input window or not at all. -/
theorem W8_main_arg5 (c : Dev nD) : W8 m ρ c (Proc.devRef .tc main_arg5) = m ((c : Thread nD τ).loc main_arg5) :=
  (keep3 m ρ c main_arg5 (by decide)).trans <| (StableHlo.after_of_writes_sub hostOps3 _ hostOps3_writes (by decide)).trans <|
  (keep2 m ρ c main_arg5 (by decide)).trans <| (StableHlo.after_of_writes_sub hostOps2 _ hostOps2_writes (by decide)).trans <|
  (keep1 m ρ c main_arg5 (by decide)).trans <| (StableHlo.after_of_writes_sub hostOps1 _ hostOps1_writes (by decide)).trans <|
  (keep0 m ρ c main_arg5 (by decide)).trans <| (StableHlo.after_of_writes_sub hostOps0 _ hostOps0_writes (by decide)).trans rfl
/-- `main_arg6` ends as launched: no host stretch writes it and each call reads it through an input window or not at all. -/
theorem W8_main_arg6 (c : Dev nD) : W8 m ρ c (Proc.devRef .tc main_arg6) = m ((c : Thread nD τ).loc main_arg6) :=
  (keep3 m ρ c main_arg6 (by decide)).trans <| (StableHlo.after_of_writes_sub hostOps3 _ hostOps3_writes (by decide)).trans <|
  (keep2 m ρ c main_arg6 (by decide)).trans <| (StableHlo.after_of_writes_sub hostOps2 _ hostOps2_writes (by decide)).trans <|
  (keep1 m ρ c main_arg6 (by decide)).trans <| (StableHlo.after_of_writes_sub hostOps1 _ hostOps1_writes (by decide)).trans <|
  (keep0 m ρ c main_arg6 (by decide)).trans <| (StableHlo.after_of_writes_sub hostOps0 _ hostOps0_writes (by decide)).trans rfl
/-- `main_arg7` ends as launched: no host stretch writes it and each call reads it through an input window or not at all. -/
theorem W8_main_arg7 (c : Dev nD) : W8 m ρ c (Proc.devRef .tc main_arg7) = m ((c : Thread nD τ).loc main_arg7) :=
  (keep3 m ρ c main_arg7 (by decide)).trans <| (StableHlo.after_of_writes_sub hostOps3 _ hostOps3_writes (by decide)).trans <|
  (keep2 m ρ c main_arg7 (by decide)).trans <| (StableHlo.after_of_writes_sub hostOps2 _ hostOps2_writes (by decide)).trans <|
  (keep1 m ρ c main_arg7 (by decide)).trans <| (StableHlo.after_of_writes_sub hostOps1 _ hostOps1_writes (by decide)).trans <|
  (keep0 m ρ c main_arg7 (by decide)).trans <| (StableHlo.after_of_writes_sub hostOps0 _ hostOps0_writes (by decide)).trans rfl
/-- `main_arg8` ends as launched: no host stretch writes it and each call reads it through an input window or not at all. -/
theorem W8_main_arg8 (c : Dev nD) : W8 m ρ c (Proc.devRef .tc main_arg8) = m ((c : Thread nD τ).loc main_arg8) :=
  (keep3 m ρ c main_arg8 (by decide)).trans <| (StableHlo.after_of_writes_sub hostOps3 _ hostOps3_writes (by decide)).trans <|
  (keep2 m ρ c main_arg8 (by decide)).trans <| (StableHlo.after_of_writes_sub hostOps2 _ hostOps2_writes (by decide)).trans <|
  (keep1 m ρ c main_arg8 (by decide)).trans <| (StableHlo.after_of_writes_sub hostOps1 _ hostOps1_writes (by decide)).trans <|
  (keep0 m ρ c main_arg8 (by decide)).trans <| (StableHlo.after_of_writes_sub hostOps0 _ hostOps0_writes (by decide)).trans rfl
/-- `main_arg9` ends as launched: no host stretch writes it and each call reads it through an input window or not at all. -/
theorem W8_main_arg9 (c : Dev nD) : W8 m ρ c (Proc.devRef .tc main_arg9) = m ((c : Thread nD τ).loc main_arg9) :=
  (keep3 m ρ c main_arg9 (by decide)).trans <| (StableHlo.after_of_writes_sub hostOps3 _ hostOps3_writes (by decide)).trans <|
  (keep2 m ρ c main_arg9 (by decide)).trans <| (StableHlo.after_of_writes_sub hostOps2 _ hostOps2_writes (by decide)).trans <|
  (keep1 m ρ c main_arg9 (by decide)).trans <| (StableHlo.after_of_writes_sub hostOps1 _ hostOps1_writes (by decide)).trans <|
  (keep0 m ρ c main_arg9 (by decide)).trans <| (StableHlo.after_of_writes_sub hostOps0 _ hostOps0_writes (by decide)).trans rfl
/-- `main_arg10` ends as launched: no host stretch writes it and each call reads it through an input window or not at all. -/
theorem W8_main_arg10 (c : Dev nD) : W8 m ρ c (Proc.devRef .tc main_arg10) = m ((c : Thread nD τ).loc main_arg10) :=
  (keep3 m ρ c main_arg10 (by decide)).trans <| (StableHlo.after_of_writes_sub hostOps3 _ hostOps3_writes (by decide)).trans <|
  (keep2 m ρ c main_arg10 (by decide)).trans <| (StableHlo.after_of_writes_sub hostOps2 _ hostOps2_writes (by decide)).trans <|
  (keep1 m ρ c main_arg10 (by decide)).trans <| (StableHlo.after_of_writes_sub hostOps1 _ hostOps1_writes (by decide)).trans <|
  (keep0 m ρ c main_arg10 (by decide)).trans <| (StableHlo.after_of_writes_sub hostOps0 _ hostOps0_writes (by decide)).trans rfl

/-! ## The proof data family and the thread state -/

/-- Every call's proof data, each at its entry contents — a literal `match`, so that the pinned configuration at a
    numeral reduces to the printed one. -/
def pdats : (p : Fin 4) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W8 m ρ c) ∗ ∃ r, prngReg c r)

/-! ## The calls as segments -/

-- unification with the pinned configuration may unfold plain definitions in a metavariable's type
set_option backward.isDefEq.respectTransparency.types false in
/-- Call 0 as a segment: entered with every unscoped buffer at `W1`, left with them at `W2`. Its arrays are
    split out of the unscoped buffers on entry and put back, at what the pipeline leaves, on exit; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Call 1 as a segment: entered with every unscoped buffer at `W3`, left with them at `W4`. Its arrays are
    split out of the unscoped buffers on entry and put back, at what the pipeline leaves, on exit; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Call 2 as a segment: entered with every unscoped buffer at `W5`, left with them at `W6`. Its arrays are
    split out of the unscoped buffers on entry and put back, at what the pipeline leaves, on exit; the generator
    register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ (Pipeline.ΦA spec2 c : sProp 𝕄) from hout2 (E5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Call 3 as a segment: entered with every unscoped buffer at `W7`, left with them at `W8`. Its arrays are
    split out of the unscoped buffers on entry and put back, at what the pipeline leaves, on exit; the generator
    register goes into the region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E7 m ρ c) (E8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments. -/
theorem main_run (c : Dev nD) : main (F := F) c = Pipeline.Seg.run (segs m ρ) := (main_chain c).trans (by chain_rfl)

-- the launch theorem's implicit arguments are found by unifying its conclusion with this one
set_option backward.isDefEq.respectTransparency.types false in
/-- THE RUN. From any memory with zero counters every weakly fair execution of @main terminates, nothing faulting,
    and every final state holds every unscoped buffer at the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME, at any float family: every execution terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W8_main_arg0 m ρ c), (h c _ (mem_uc main_arg1 (by decide))).trans (W8_main_arg1 m ρ c),
     (h c _ (mem_uc main_arg2 (by decide))).trans (W8_main_arg2 m ρ c), (h c _ (mem_uc main_arg3 (by decide))).trans (W8_main_arg3 m ρ c),
     (h c _ (mem_uc main_arg4 (by decide))).trans (W8_main_arg4 m ρ c), (h c _ (mem_uc main_arg5 (by decide))).trans (W8_main_arg5 m ρ c),
     (h c _ (mem_uc main_arg6 (by decide))).trans (W8_main_arg6 m ρ c), (h c _ (mem_uc main_arg7 (by decide))).trans (W8_main_arg7 m ρ c),
     (h c _ (mem_uc main_arg8 (by decide))).trans (W8_main_arg8 m ρ c), (h c _ (mem_uc main_arg9 (by decide))).trans (W8_main_arg9 m ρ c),
     (h c _ (mem_uc main_arg10 (by decide))).trans (W8_main_arg10 m ρ c)⟩) (run_all m ρ)

end Cert.KernelIdeal.Fr

end
-- ==== Proof.RegFns.lean ====
import proofs.«410010_j22943715295836_2_alg».proof.Proof.Gen.KernelIdeal.Skeleton
import Idealize.ShloMosaic.Lib.ValueIdx
import Idealize.ShloMosaic.PureOps.Ideal

/-!
# The four pallas_calls as whole-array functions, and the kernel's @main over them

Each pallas_call walks a grid and at every point applies the body's one arithmetic term (the skeleton's payload) to
the blocks of its operands at that point. Read over whole arrays that is:

* `R0 x w`   — row block `i / 10000` of `x`, times `w`, at row `i % 10000`: the rows of `x · w`;
* `R1 a b w` — the same over `max (a + b) 0`;
* `R2 a b oh` — on each of the two halves of the rows, five blocks of 5000 rows accumulated one after the other from
  zero: `ohᵀ · max (a + b) 0` over that half;
* `R3 …`     — the head on the whole 64-row arrays (one grid point).

`kFn` is the kernel's @main with each pallas_call replaced by its function: what the host operations between the
calls do to their results. All of it is stated for any float family `F`.
-/

noncomputable section

namespace Cert.KernelIdeal.Val

open Idealize.ShloMosaic Idealize.SL.Sem Idealize.ShloMosaic.ValueIdx Cert.KernelIdeal Cert.KernelIdeal.Gen

variable {F : FTy → Type} [FloatOps F]

/-! ## Row blocks -/

/-- Rows `B·t … B·t + B − 1` of an `N`-row array as a `B`-row block (`B·T ≤ N`). -/
def rowBlk {α : Type} (N B C T : Nat) (h : B * T ≤ N) (x : (⟨2, ![N, C]⟩ : Shape).Idx → α) (t : Fin T) :
    (⟨2, ![B, C]⟩ : Shape).Idx → α :=
  fun y => x (ix2 ⟨B * t.val + (y 0).val, by
    have h0 : (y 0).val < B := idx2_lt0 y
    have ht := t.isLt
    calc B * t.val + (y 0).val < B * t.val + B := by omega
      _ = B * (t.val + 1) := by ring
      _ ≤ B * T := Nat.mul_le_mul_left _ ht
      _ ≤ N := h⟩ ⟨(y 1).val, idx2_lt1 y⟩)

/-- The block a row lies in, and the row's place inside it. -/
def blkOf (B T N : Nat) (hB : 0 < B) (h : N ≤ B * T) (r : Fin N) : Fin T := ⟨r.val / B, by
  have := r.isLt
  exact Nat.div_lt_of_lt_mul (by omega)⟩
def inBlk (B N : Nat) (hB : 0 < B) (r : Fin N) : Fin B := ⟨r.val % B, Nat.mod_lt _ hB⟩

/-! ## The four calls -/

/-- The first call: rows of `x · w`, one block of 10000 rows per grid point. -/
def R0 (x : FVec F S50000x128 .f32) (w : FVec F S128x64 .f32) : FVec F S50000x64 .bf16 :=
  fun i => k0_pay1 (rowBlk 50000 10000 128 5 (by decide) x (blkOf 10000 5 50000 (by decide) (by decide) ⟨(i 0).val, idx2_lt0 i⟩)) w
    (ix2 (inBlk 10000 50000 (by decide) ⟨(i 0).val, idx2_lt0 i⟩) ⟨(i 1).val, idx2_lt1 i⟩)

/-- The second call: rows of `max (a + b) 0 · w`, one block of 10000 rows per grid point. -/
def R1 (a : FVec F S50000x64 .f32) (b : FVec F S1x64 .f32) (w : FVec F S64x64 .f32) : FVec F S50000x64 .bf16 :=
  fun i => k1_pay1 (rowBlk 50000 10000 64 5 (by decide) a (blkOf 10000 5 50000 (by decide) (by decide) ⟨(i 0).val, idx2_lt0 i⟩)) b w
    (ix2 (inBlk 10000 50000 (by decide) ⟨(i 0).val, idx2_lt0 i⟩) ⟨(i 1).val, idx2_lt1 i⟩)

/-- The third call's accumulator on half `h` of the rows after step `s` (`s = 0 … 4`): the step's block added to what
    the step before left, from the zero the first step stores. -/
def acc2 (a : FVec F S50000x64 .f32) (b : FVec F S1x64 .f32) (oh : FVec F S50000x64 .bf16) (h : Fin 2) : (s : Nat) → s < 5 → FVec F S64x64 .f32
  | 0, hs => k2_pay2 (rowBlk 50000 5000 64 10 (by decide) a ⟨5 * h.val + 0, by have := h.isLt; omega⟩) b
      (rowBlk 50000 5000 64 10 (by decide) oh ⟨5 * h.val + 0, by have := h.isLt; omega⟩) (k2_pay1 (F := F))
  | s + 1, hs => k2_pay2 (rowBlk 50000 5000 64 10 (by decide) a ⟨5 * h.val + (s + 1), by have := h.isLt; omega⟩) b
      (rowBlk 50000 5000 64 10 (by decide) oh ⟨5 * h.val + (s + 1), by have := h.isLt; omega⟩) (acc2 a b oh h s (by omega))

/-- The third call: per half of the rows, the accumulator after its fifth step. -/
def R2 (a : FVec F S50000x64 .f32) (b : FVec F S1x64 .f32) (oh : FVec F S50000x64 .bf16) : FVec F S2x64x64 .f32 :=
  fun i => k2_pay3 (acc2 a b oh ⟨(i 0).val, (i 0).isLt⟩ 4 (by decide)) (ix3 (0 : Fin 1) ⟨(i 1).val, (i 1).isLt⟩ ⟨(i 2).val, (i 2).isLt⟩)

/-- The fourth call: the head, on whole arrays. -/
def R3 (p : FVec F S64x64 .f32) (w1 : FVec F S64x32 .f32) (b1 : FVec F S1x32 .f32) (w2 : FVec F S32x10 .f32) (b2 : FVec F S1x10 .f32) :
    FVec F S64x10 .f32 :=
  k3_pay1 p w1 b1 w2 b2

/-! ## The host operations between the calls -/

/-- Source nodes of the edges, a negative one counted from the end, as a column of start indices. -/
def srcIdx (ei : IVec S2x800000 32) : IVec S800000x1 32 :=
  broadcastInDim S800000x1 ![0] bcast_S800000_S800000x1_0
    (select (cmpi .slt (shapeCast _ (extractStridedSlice S1x800000 ![0, 0] ei slices_S2x800000_S1x800000_0_0) shapeCasts_S1x800000_S800000)
        (broadcastInDim S800000 ![] bcast_S_S800000 (constantI S_ 32 0#32)))
      (addi (shapeCast _ (extractStridedSlice S1x800000 ![0, 0] ei slices_S2x800000_S1x800000_0_0) shapeCasts_S1x800000_S800000)
        (broadcastInDim S800000 ![] bcast_S_S800000 (constantI S_ 32 50000#32)))
      (shapeCast _ (extractStridedSlice S1x800000 ![0, 0] ei slices_S2x800000_S1x800000_0_0) shapeCasts_S1x800000_S800000))

/-- Target nodes of the edges, as a column of scatter indices. -/
def dstIdx (ei : IVec S2x800000 32) : IVec S800000x1 32 :=
  broadcastInDim S800000x1 ![0] bcast_S800000_S800000x1_0
    (shapeCast _ (extractStridedSlice S1x800000 ![1, 0] ei slices_S2x800000_S1x800000_1_0) shapeCasts_S1x800000_S800000)

/-- The edge aggregation of the kernel's @main: gather the source rows (bf16), widen, add into the target rows. -/
def aggK (h : FVec F S50000x64 .bf16) (ei : IVec S2x800000 32) : FVec F S50000x64 .f32 :=
  Host.scatterAdd scatter_S50000x64_S800000x1_S800000x64_1_0_0_1
    (broadcastInDim S50000x64 ![] bcast_S_S50000x64 (constant S_ .f32 0x00000000#32)) (dstIdx ei)
    (extf .f32 (Host.gather gather_S50000x64_S800000x1_S800000x64_1_0_n_n_0_1_164 h (srcIdx ei)) bitsLt_bf16_f32)

/-- The graph-membership table: entry `(n, g)` is one where node `n` belongs to graph `g`, else zero. -/
def onehot (bt : IVec S50000 32) : FVec F S50000x64 .bf16 :=
  uitofp .bf16 (cmpi .eq
    (broadcastInDim S50000x64 ![0, 1] bcast_S50000x1_S50000x64_0_1 (broadcastInDim S50000x1 ![0] bcast_S50000_S50000x1_0 bt))
    (broadcastInDim S50000x64 ![0, 1] bcast_S1x64_S50000x64_0_1 (broadcastInDim S1x64 ![1] bcast_S64_S1x64_1 (iotaInDim S64 32 0))))

/-- Nodes per graph, at least one, spread along the feature axis. -/
def cntK (bt : IVec S50000 32) : FVec F S64x64 .f32 :=
  broadcastInDim S64x64 ![0, 1] bcast_S64x1_S64x64_0_1 (broadcastInDim S64x1 ![0] bcast_S64_S64x1_0
    (maximumf (Host.scatterAdd scatter_S64_S50000x1_S50000_n_0_0_1
        (broadcastInDim S64 ![] bcast_S_S64 (constant S_ .f32 0x00000000#32))
        (broadcastInDim S50000x1 ![0] bcast_S50000_S50000x1_0 bt)
        (broadcastInDim S50000 ![] bcast_S_S50000 (constant S_ .f32 0x3F800000#32)))
      (broadcastInDim S64 ![] bcast_S_S64 (constant S_ .f32 0x3F800000#32))))

/-- The two halves' sums added. -/
def sumHalves (k : FVec F S2x64x64 .f32) : FVec F S64x64 .f32 :=
  addf (shapeCast _ (extractStridedSlice S1x64x64 ![0, 0, 0] k slices_S2x64x64_S1x64x64_0_0_0) shapeCasts_S1x64x64_S64x64)
    (shapeCast _ (extractStridedSlice S1x64x64 ![1, 0, 0] k slices_S2x64x64_S1x64x64_1_0_0) shapeCasts_S1x64x64_S64x64)

/-- The kernel's @main as one function of its arguments. -/
def kFn (x : FVec F S50000x128 .f32) (ei : IVec S2x800000 32) (bt : IVec S50000 32) (w1 : FVec F S128x64 .f32) (b1 : FVec F S64 .f32)
    (w2 : FVec F S64x64 .f32) (b2 : FVec F S64 .f32) (f1w : FVec F S64x32 .f32) (f1b : FVec F S32 .f32) (f2w : FVec F S32x10 .f32)
    (f2b : FVec F S10 .f32) : FVec F S64x10 .f32 :=
  R3 (Host.divf (sumHalves (R2 (aggK (R1 (aggK (R0 x w1) ei) (shapeCast _ b1 shapeCasts_S64_S1x64) w2) ei)
        (shapeCast _ b2 shapeCasts_S64_S1x64) (onehot bt))) (cntK bt))
    f1w (shapeCast _ f1b shapeCasts_S32_S1x32) f2w (shapeCast _ f2b shapeCasts_S10_S1x10)

end Cert.KernelIdeal.Val

end
-- ==== Proof.ValReg0.lean ====
import proofs.«410010_j22943715295836_2_alg».proof.Proof.FrReg0
import proofs.«410010_j22943715295836_2_alg».proof.Proof.RegFns
import Idealize.ShloMosaic.Lib.Pipeline.Value
import Idealize.ShloMosaic.Lib.ValueIdx

/-!
# What the first call leaves in its output array

Point `t` writes back rows `10000 t … 10000 t + 9999`: the body's product of that row block of `x` with `w`. The five
blocks tile the 50000 rows, so after the region the array is `R0` of the two operand arrays as the region found them.
-/

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Fr

variable {F : FTy → Type} [FloatOps F]
variable (V : (c : Dev nD) → (b : Ref sig .tc) → Buf (Elt F) ((c : Thread nD τ).loc b))

/-- The pair of zero offsets is the constant zero. -/
theorem zeroOff0 : (![0, 0] : Fin 2 → Nat) = fun _ => 0 := funext fun a => by fin_cases a <;> rfl

/-- The block indices over the five grid points: the operand's and the result's row blocks are at `(t, 0)`, the whole
    of `w` at `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- `R0` at row `10000 T + y₀`, column `y₁`: that row lies in block `T` at place `y₀`, so it is the body's term of
    row block `T` of `x` and of `w`, at `(y₀, y₁)`. -/
theorem R0_at (x : FVec F S50000x128 .f32) (w : FVec F S128x64 .f32) (T : Fin 5) (y : S10000x64.Idx) (i : S50000x64.Idx)
    (h0 : (i 0).val = 10000 * T.val + (y 0).val) (h1 : (i 1).val = (y 1).val) :
    R0 x w i = k0_pay1 (rowBlk 50000 10000 128 5 (by decide) x T) w y := by
  unfold R0
  have hy : (y 0).val < 10000 := idx2_lt0 y
  have hb : blkOf 10000 5 50000 (by decide) (by decide) ⟨(i 0).val, idx2_lt0 i⟩ = T :=
    Fin.ext (by show (i 0).val / 10000 = T.val; omega)
  have hin : ix2 (inBlk 10000 50000 (by decide) ⟨(i 0).val, idx2_lt0 i⟩) ⟨(i 1).val, idx2_lt1 i⟩ = y := by
    funext a
    match a with
    | ⟨0, _⟩ => exact Fin.ext (by show (i 0).val % 10000 = (y 0).val; omega)
    | ⟨1, _⟩ => exact Fin.ext h1
  rw [hb, hin]

/-- What point `t` writes back is block `t` of `R0` of the two operand arrays: its block of `x` is rows
    `10000 t … 10000 t + 9999`, its block of `w` all of `w`, and the block's index `(y₀, y₁)` is row `10000 t + y₀`, column `y₁`. -/
theorem flushed0_eq (c : Dev nD) (t : Fin cfg0.N) :
    (dat0 V c).flushed 2 t = ((cfg0.win 2).blk t).view.read (Elt F) (R0 (V c main_arg0) (V c main_arg3)) := by
  show (cfg0.win 2).cut (grid0.coords t) ((dat0 V c).after 2 t) = _
  rw [after0_2]
  unfold out0_2
  rw [View.canon_unit_zero zeroOff0]
  simp only [View.ld_unit_zero (S := S10000x128) zeroOff0, View.ld_unit_zero (S := S128x64) zeroOff0]
  obtain ⟨e0, e1, e2, e3, e4, e5⟩ := idx_facts0 t
  have ht : t.val < 5 := t.isLt
  funext j
  show k0_pay1 (iblk0 V c 0 t) (iblk0 V c 1 t) j = R0 (V c main_arg0) (V c main_arg3) (((cfg0.win 2).blk t).view.emb j)
  rw [R0_at (V c main_arg0) (V c main_arg3) ⟨t.val, ht⟩ j (((cfg0.win 2).blk t).view.emb j)
    (by show win0_2.index t (0 : Fin 2) * 10000 + 1 * (j 0).val = 10000 * t.val + (j 0).val; omega)
    (by show win0_2.index t (1 : Fin 2) * 64 + 1 * (j 1).val = (j 1).val; omega)]
  refine congrArg₂ (fun a b => k0_pay1 a b j) ?_ ?_
  · funext y
    show V c main_arg0 (((cfg0.win 0).blk t).view.emb y)
      = V c main_arg0 (ix2 ⟨10000 * t.val + (y 0).val, _⟩ ⟨(y 1).val, _⟩)
    refine congrArg (V c main_arg0) (funext fun a => Fin.ext ?_)
    match a with
    | ⟨0, _⟩ => show win0_0.index t (0 : Fin 2) * 10000 + 1 * (y 0).val = 10000 * t.val + (y 0).val; omega
    | ⟨1, _⟩ => show win0_0.index t (1 : Fin 2) * 128 + 1 * (y 1).val = (y 1).val; omega
  · funext y
    show V c main_arg3 (((cfg0.win 1).blk t).view.emb y) = V c main_arg3 y
    refine congrArg (V c main_arg3) (funext fun a => Fin.ext ?_)
    match a with
    | ⟨0, _⟩ => show win0_1.index t (0 : Fin 2) * 128 + 1 * (y 0).val = (y 0).val; omega
    | ⟨1, _⟩ => show win0_1.index t (1 : Fin 2) * 64 + 1 * (y 1).val = (y 1).val; omega

/-- An index of the output array is in point `t`'s block iff each coordinate is in the block's range on its axis. -/
theorem mem_blk0 (t : Fin cfg0.N) (i : S50000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v4).slice (win0_2.rect t)).set ↔ _
  rw [View.set_slice_whole, Rect.mem_set_unit]
  exact Iff.rfl

/-- Row `r` lies in the block of point `r / 10000`, which writes back: the five blocks tile the rows. -/
theorem cover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨T, hT⟩ : ∃ T : Fin cfg0.N, T.val = (i 0).val / 10000 :=
    ⟨⟨(i 0).val / 10000, by show (i 0).val / 10000 < 5; omega⟩, rfl⟩
  obtain ⟨e0, e1, e2, e3, e4, e5⟩ := idx_facts0 T
  refine ⟨T, flush0_2 T, ?_⟩
  rw [mem_blk0]
  intro a
  match a with
  | ⟨0, _⟩ =>
    show win0_2.index T (0 : Fin 2) * 10000 ≤ (i 0).val ∧ (i 0).val < win0_2.index T (0 : Fin 2) * 10000 + 10000
    omega
  | ⟨1, _⟩ =>
    show win0_2.index T (1 : Fin 2) * 64 ≤ (i 1).val ∧ (i 1).val < win0_2.index T (1 : Fin 2) * 64 + 64
    omega

/-- After the region the output array is `R0` of the entry contents of the two operands. -/
theorem final0 (c : Dev nD) : (dat0 V c).arrAt 2 cfg0.N = R0 (V c main_arg0) (V c main_arg3) := by
  exact (dat0 V c).arrAt_eq_of_cover 2 (R0 (V c main_arg0) (V c main_arg3)) (fun t _ => flushed0_eq V c t) cover0

end Cert.KernelIdeal.Val

end
-- ==== Proof.ValReg1.lean ====
import proofs.«410010_j22943715295836_2_alg».proof.Proof.FrReg1
import proofs.«410010_j22943715295836_2_alg».proof.Proof.RegFns
import Idealize.ShloMosaic.Lib.Pipeline.Value
import Idealize.ShloMosaic.Lib.ValueIdx

/-!
# What the second call leaves in its output array

Point `t` writes back rows `10000 t … 10000 t + 9999`: the body's term of that row block of the aggregate, the bias row
and `w`. The five blocks tile the 50000 rows, so after the region the array is `R1` of the three operand arrays as the
region found them.
-/

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Fr

variable {F : FTy → Type} [FloatOps F]
variable (V : (c : Dev nD) → (b : Ref sig .tc) → Buf (Elt F) ((c : Thread nD τ).loc b))

/-- The zero offsets, however spelt. -/
private theorem hz1 : (![0, 0] : Fin 2 → Nat) = fun _ => 0 := funext fun a => by fin_cases a <;> rfl

/-- The printed index maps over the five points: the row-block windows (the aggregate's, the output's) are at block
    `(t, 0)`, the bias row and the weight matrix at `(0, 0)`. -/
private theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The number of points is five. -/
private theorem lt_five (t : Fin cfg1.N) : t.val < 5 := t.isLt

/-- Window 0's block at point `t` is row block `t` of the aggregate: row `y₀` of the block is row `10000 t + y₀`. -/
private theorem iblk1_0_eq (c : Dev nD) (t : Fin cfg1.N) (y : S10000x64.Idx) :
    iblk1 V c 0 t y = rowBlk 50000 10000 64 5 (by decide) (V c main_v15) ⟨t.val, lt_five t⟩ y := by
  show V c main_v15 (((cfg1.win 0).blk t).view.emb y) = rowBlk 50000 10000 64 5 (by decide) (V c main_v15) ⟨t.val, lt_five t⟩ y
  unfold rowBlk
  refine congrArg (V c main_v15) ?_
  obtain ⟨e00, e01, e10, e11, e20, e21, e30, e31⟩ := idx_facts1 t
  funext a; apply Fin.ext
  match a with
  | ⟨0, _⟩ => show win1_0.index t (0 : Fin 2) * 10000 + 1 * (y 0).val = 10000 * t.val + (y 0).val; omega
  | ⟨1, _⟩ => show win1_0.index t (1 : Fin 2) * 64 + 1 * (y 1).val = (y 1).val; omega

/-- Window 1's block at every point is the whole bias row. -/
private theorem iblk1_1_eq (c : Dev nD) (t : Fin cfg1.N) (y : S1x64.Idx) : iblk1 V c 1 t y = V c main_v16 y := by
  show V c main_v16 (((cfg1.win 1).blk t).view.emb y) = V c main_v16 y
  refine congrArg (V c main_v16) ?_
  obtain ⟨e00, e01, e10, e11, e20, e21, e30, e31⟩ := idx_facts1 t
  funext a; apply Fin.ext
  match a with
  | ⟨0, _⟩ => show win1_1.index t (0 : Fin 2) * 1 + 1 * (y 0).val = (y 0).val; omega
  | ⟨1, _⟩ => show win1_1.index t (1 : Fin 2) * 64 + 1 * (y 1).val = (y 1).val; omega

/-- Window 2's block at every point is the whole weight matrix. -/
private theorem iblk1_2_eq (c : Dev nD) (t : Fin cfg1.N) (y : S64x64.Idx) : iblk1 V c 2 t y = V c main_arg5 y := by
  show V c main_arg5 (((cfg1.win 2).blk t).view.emb y) = V c main_arg5 y
  refine congrArg (V c main_arg5) ?_
  obtain ⟨e00, e01, e10, e11, e20, e21, e30, e31⟩ := idx_facts1 t
  funext a; apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- Row `10000 t + j` (`j < 10000`) lies in row block `t`, -/
private theorem blkOf_row (t : Fin 5) (j : Fin 10000) (r : Fin 50000) (hr : r.val = 10000 * t.val + j.val) :
    blkOf 10000 5 50000 (by decide) (by decide) r = t := by
  apply Fin.ext
  show r.val / 10000 = t.val
  have := j.isLt
  omega

/-- at place `j` inside it. -/
private theorem inBlk_row (t : Fin 5) (j : Fin 10000) (r : Fin 50000) (hr : r.val = 10000 * t.val + j.val) :
    inBlk 10000 50000 (by decide) r = j := by
  apply Fin.ext
  show r.val % 10000 = j.val
  have := j.isLt
  omega

/-- What point `t` writes back is row block `t` of `R1` of the operand arrays as the region finds them. -/
private theorem flushed1_eq (c : Dev nD) (t : Fin cfg1.N) :
    (dat1 V c).flushed 3 t = ((cfg1.win 3).blk t).view.read (Elt F) (R1 (V c main_v15) (V c main_v16) (V c main_arg5)) := by
  show (cfg1.win 3).cut (grid1.coords t) ((dat1 V c).after 3 t) = _
  rw [after1_3]
  unfold out1_3
  rw [View.canon_unit_zero hz1]
  simp only [View.ld_unit_zero (S := S10000x64) hz1, View.ld_unit_zero (S := S1x64) hz1, View.ld_unit_zero (S := S64x64) hz1]
  have h0 : (iblk1 V c 0 t : Vec F S10000x64 .f32) = rowBlk 50000 10000 64 5 (by decide) (V c main_v15) ⟨t.val, lt_five t⟩ :=
    funext (iblk1_0_eq V c t)
  have h1 : (iblk1 V c 1 t : Vec F S1x64 .f32) = V c main_v16 := funext (iblk1_1_eq V c t)
  have h2 : (iblk1 V c 2 t : Vec F S64x64 .f32) = V c main_arg5 := funext (iblk1_2_eq V c t)
  rw [h0, h1, h2]
  funext j
  show k1_pay1 (rowBlk 50000 10000 64 5 (by decide) (V c main_v15) ⟨t.val, lt_five t⟩) (V c main_v16) (V c main_arg5) j
    = R1 (V c main_v15) (V c main_v16) (V c main_arg5) (((cfg1.win 3).blk t).view.emb j)
  obtain ⟨e00, e01, e10, e11, e20, e21, e30, e31⟩ := idx_facts1 t
  have hj0 : (j 0).val < 10000 := (j 0).isLt
  have hE0 : ((((cfg1.win 3).blk t).view.emb j) 0).val = 10000 * t.val + (j 0).val := by
    show win1_3.index t (0 : Fin 2) * 10000 + 1 * (j 0).val = _
    omega
  have hE1 : ((((cfg1.win 3).blk t).view.emb j) 1).val = (j 1).val := by
    show win1_3.index t (1 : Fin 2) * 64 + 1 * (j 1).val = _
    omega
  unfold R1
  have hb : blkOf 10000 5 50000 (by decide) (by decide)
      (⟨((((cfg1.win 3).blk t).view.emb j) 0).val, idx2_lt0 (n0 := 50000) (n1 := 64) (((cfg1.win 3).blk t).view.emb j)⟩ : Fin 50000)
      = ⟨t.val, lt_five t⟩ := blkOf_row ⟨t.val, lt_five t⟩ ⟨(j 0).val, hj0⟩ _ hE0
  have hi : inBlk 10000 50000 (by decide)
      (⟨((((cfg1.win 3).blk t).view.emb j) 0).val, idx2_lt0 (n0 := 50000) (n1 := 64) (((cfg1.win 3).blk t).view.emb j)⟩ : Fin 50000)
      = ⟨(j 0).val, hj0⟩ := inBlk_row ⟨t.val, lt_five t⟩ ⟨(j 0).val, hj0⟩ _ hE0
  rw [hb, hi]
  refine congrArg (k1_pay1 (rowBlk 50000 10000 64 5 (by decide) (V c main_v15) ⟨t.val, lt_five t⟩) (V c main_v16) (V c main_arg5)) ?_
  funext a; apply Fin.ext
  match a with
  | ⟨0, _⟩ => rfl
  | ⟨1, _⟩ => exact hE1.symm

/-- An index of the output array is in point `t`'s block iff each coordinate is in the block's range on its axis. -/
private theorem mem_blk1 (t : Fin cfg1.N) (i : S50000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v17).slice (win1_3.rect t)).set ↔ _
  rw [View.set_slice_whole, Rect.mem_set_unit]
  exact Iff.rfl

/-- The five row blocks tile the 50000 rows: row `r` is in the block of point `r / 10000`. -/
private theorem cover1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have ht : (i 0).val / 10000 < 5 := by omega
  refine ⟨⟨(i 0).val / 10000, ht⟩, flush1_3 _, ?_⟩
  rw [mem_blk1]
  obtain ⟨e00, e01, e10, e11, e20, e21, e30, e31⟩ := idx_facts1 ⟨(i 0).val / 10000, ht⟩
  have e30' : win1_3.index ⟨(i 0).val / 10000, ht⟩ (0 : Fin 2) = (i 0).val / 10000 := e30
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    omega
  | ⟨1, _⟩ =>
    show win1_3.index ⟨(i 0).val / 10000, ht⟩ (1 : Fin 2) * 64 ≤ (i 1).val
      ∧ (i 1).val < win1_3.index ⟨(i 0).val / 10000, ht⟩ (1 : Fin 2) * 64 + 64
    omega

/-- After the region the output array is `R1` of the entry contents of the three operands. -/
theorem final1 (c : Dev nD) : (dat1 V c).arrAt 3 cfg1.N = R1 (V c main_v15) (V c main_v16) (V c main_arg5) :=
  (dat1 V c).arrAt_eq_of_cover 3 _ (fun t _ => flushed1_eq V c t) cover1

end Cert.KernelIdeal.Val

end
-- ==== Proof.ValReg2.lean ====
import proofs.«410010_j22943715295836_2_alg».proof.Proof.FrReg2
import proofs.«410010_j22943715295836_2_alg».proof.Proof.RegFns
import Idealize.ShloMosaic.Lib.Pipeline.Value
import Idealize.ShloMosaic.Lib.ValueIdx

/-!
# What the third call leaves in its output array

The output has one 64 × 64 block per half of the rows, written back after step 4 of the half, when the body has copied
the accumulator into it. The accumulator after step `s` of half `h` is `acc2 … h s`: by induction on the step, from the
body's two cases (zero at step 0, what the step before left otherwise). The two blocks tile the output, so after the
region the array is `R2` of the three operand arrays as the region found them.
-/

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Fr

variable {F : FTy → Type} [FloatOps F]
variable (V : (c : Dev nD) → (b : Ref sig .tc) → Buf (Elt F) ((c : Thread nD τ).loc b))

/-- The block index of each window at every grid point: the two row-block windows sit at block `(t, 0)`, the bias row at
    `(0, 0)`, the output block at `(t / 5, 0, 0)`. -/
private theorem idx_facts2 : ∀ t : Fin grid2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 3) = t.val / 5 ∧ win2_3.index t (1 : Fin 3) = 0 ∧ win2_3.index t (2 : Fin 3) = 0 :=
  (by decide +kernel : ∀ t : Fin grid2.N, _)

/-- Window 0's block at point `t` is rows `5000 t … 5000 t + 4999` of the aggregate: element `(y₀, y₁)` of the block
    sits at `(t · 5000 + y₀, 0 · 64 + y₁)`. -/
private theorem iblk2_0 (c : Dev nD) (t : Fin cfg2.N) :
    iblk2 V c 0 t = rowBlk 50000 5000 64 10 (by decide) (V c main_v28) ⟨t.val, lt_of_lt_of_eq t.isLt N_2⟩ := by
  funext y
  unfold iblk2 rowBlk
  rw [View.read_apply]
  show V c main_v28 _ = V c main_v28 _
  refine congrArg (V c main_v28) ?_
  obtain ⟨e0, e1, -⟩ := idx_facts2 t
  funext a
  apply Fin.ext
  match a with
  | ⟨0, _⟩ => show win2_0.index t (0 : Fin 2) * 5000 + 1 * (y 0).val = 5000 * t.val + (y 0).val; rw [e0]; omega
  | ⟨1, _⟩ => show win2_0.index t (1 : Fin 2) * 64 + 1 * (y 1).val = (y 1).val; rw [e1]; omega

/-- Window 2's block at point `t` is the same rows of the membership table. -/
private theorem iblk2_2 (c : Dev nD) (t : Fin cfg2.N) :
    iblk2 V c 2 t = rowBlk 50000 5000 64 10 (by decide) (V c main_v36) ⟨t.val, lt_of_lt_of_eq t.isLt N_2⟩ := by
  funext y
  unfold iblk2 rowBlk
  rw [View.read_apply]
  show V c main_v36 _ = V c main_v36 _
  refine congrArg (V c main_v36) ?_
  obtain ⟨-, -, -, -, e0, e1, -⟩ := idx_facts2 t
  funext a
  apply Fin.ext
  match a with
  | ⟨0, _⟩ => show win2_2.index t (0 : Fin 2) * 5000 + 1 * (y 0).val = 5000 * t.val + (y 0).val; rw [e0]; omega
  | ⟨1, _⟩ => show win2_2.index t (1 : Fin 2) * 64 + 1 * (y 1).val = (y 1).val; rw [e1]; omega

/-- Window 1's block is the whole bias row at every point: block index `(0, 0)`. -/
private theorem iblk2_1 (c : Dev nD) (t : Fin cfg2.N) : iblk2 V c 1 t = V c main_v29 := by
  funext y
  unfold iblk2
  rw [View.read_apply]
  show V c main_v29 _ = V c main_v29 _
  refine congrArg (V c main_v29) ?_
  obtain ⟨-, -, e0, e1, -⟩ := idx_facts2 t
  funext a
  apply Fin.ext
  match a with
  | ⟨0, _⟩ => show win2_1.index t (0 : Fin 2) * 1 + 1 * (y 0).val = (y 0).val; rw [e0]; omega
  | ⟨1, _⟩ => show win2_1.index t (1 : Fin 2) * 64 + 1 * (y 1).val = (y 1).val; rw [e1]; omega

/-- The accumulator at two equal positions is the same. -/
private theorem accAt_congr2 (c : Dev nD) (n n' : Nat) (e : n = n') (hn : n < cfg2.N) (hn' : n' < cfg2.N) :
    accAt V c n hn = accAt V c n' hn' := by subst e; rfl

/-- The accumulator after point `5 h + s` is `acc2 … h s`, by induction on the step: at `s = 0` the position is
    `≡ 0 (mod 5)` and the accumulator starts from zero; at `s + 1 < 5` it is `≢ 0 (mod 5)` and goes on from position
    `5 h + s`. -/
private theorem accAt_eq2 (c : Dev nD) (h : Fin 2) : ∀ (s : Nat) (hs : s < 5) (hn : 5 * h.val + s < cfg2.N),
    accAt V c (5 * h.val + s) hn = acc2 (V c main_v28) (V c main_v29) (V c main_v36) h s hs
  | 0, hs, hn => by
    refine (accAt_reset V c ⟨5 * h.val + 0, hn⟩ (by show (5 * h.val + 0) % 5 = 0; omega)).trans ?_
    rw [iblk2_0, iblk2_1, iblk2_2]
    rfl
  | s + 1, hs, hn => by
    refine (accAt_step V c ⟨5 * h.val + (s + 1), hn⟩ (by show ¬(5 * h.val + (s + 1)) % 5 = 0; omega)).trans ?_
    rw [iblk2_0, iblk2_1, iblk2_2]
    have hn' : 5 * h.val + s < cfg2.N := by omega
    rw [accAt_congr2 V c _ (5 * h.val + s) (by show 5 * h.val + (s + 1) - 1 = 5 * h.val + s; omega) _ hn', accAt_eq2 c h s (by omega) hn']
    rfl

/-- `R2` at an index whose three coordinates are `h`, `p`, `q`. -/
private theorem R2_apply2 (a : FVec F S50000x64 .f32) (b : FVec F S1x64 .f32) (oh : FVec F S50000x64 .bf16) (h : Fin 2) (p q : Fin 64)
    (i : S2x64x64.Idx) (e0 : (i 0).val = h.val) (e1 : (i 1).val = p.val) (e2 : (i 2).val = q.val) :
    R2 a b oh i = k2_pay3 (acc2 a b oh h 4 (by decide)) (ix3 (0 : Fin 1) p q) := by
  obtain ⟨h, hh⟩ := h
  obtain ⟨p, hp⟩ := p
  obtain ⟨q, hq⟩ := q
  dsimp only at e0 e1 e2
  subst e0 e1 e2
  rfl

/-- What a flushing point `t` (`t ≡ 4 (mod 5)`) writes back is its block of `R2`: the accumulator after point
    `t = 5 (t / 5) + 4` is `acc2 … (t / 5) 4`, and element `(0, j₁, j₂)` of the block sits at `(t / 5, j₁, j₂)` of the output. -/
private theorem flushed2_eq (c : Dev nD) (t : Fin cfg2.N) (h4 : t.val % 5 = 4) :
    (dat2 V c).flushed 3 t = ((cfg2.win 3).blk t).view.read (Elt F) (R2 (V c main_v28) (V c main_v29) (V c main_v36)) := by
  have hN : t.val < 10 := lt_of_lt_of_eq t.isLt N_2
  have hacc : accAt V c t.val t.isLt = acc2 (V c main_v28) (V c main_v29) (V c main_v36) ⟨t.val / 5, by omega⟩ 4 (by decide) :=
    (accAt_congr2 V c t.val (5 * (t.val / 5) + 4) (by omega) t.isLt (by have := t.isLt; omega)).trans
      (accAt_eq2 V c ⟨t.val / 5, by omega⟩ 4 (by decide) _)
  show (cfg2.win 3).cut (grid2.coords t) ((dat2 V c).after 3 t) = _
  rw [after2_3, hacc]
  funext j
  rw [View.read_apply]
  obtain ⟨-, -, -, -, -, -, e0, e1, e2⟩ := idx_facts2 t
  have hj0 : (j 0).val < 1 := (j 0).isLt
  have hj1 : (j 1).val < 64 := (j 1).isLt
  have hj2 : (j 2).val < 64 := (j 2).isLt
  have E0 : (((cfg2.win 3).blk t).view.emb j 0).val = t.val / 5 := by
    show win2_3.index t (0 : Fin 3) * 1 + 1 * (j 0).val = t.val / 5; rw [e0]; omega
  have E1 : (((cfg2.win 3).blk t).view.emb j 1).val = (j 1).val := by
    show win2_3.index t (1 : Fin 3) * 64 + 1 * (j 1).val = (j 1).val; rw [e1]; omega
  have E2 : (((cfg2.win 3).blk t).view.emb j 2).val = (j 2).val := by
    show win2_3.index t (2 : Fin 3) * 64 + 1 * (j 2).val = (j 2).val; rw [e2]; omega
  show k2_pay3 (acc2 (V c main_v28) (V c main_v29) (V c main_v36) ⟨t.val / 5, by omega⟩ 4 (by decide)) ((cfg2.win 3).xinj (grid2.coords t) j)
    = R2 (V c main_v28) (V c main_v29) (V c main_v36) (((cfg2.win 3).blk t).view.emb j)
  rw [R2_apply2 (V c main_v28) (V c main_v29) (V c main_v36) ⟨t.val / 5, by omega⟩ ⟨(j 1).val, hj1⟩ ⟨(j 2).val, hj2⟩ (((cfg2.win 3).blk t).view.emb j) E0 E1 E2]
  refine congrArg (k2_pay3 (acc2 (V c main_v28) (V c main_v29) (V c main_v36) ⟨t.val / 5, by omega⟩ 4 (by decide))) ?_
  funext a
  apply Fin.ext
  match a with
  | ⟨0, _⟩ => show (j 0).val = 0; omega
  | ⟨1, _⟩ => rfl
  | ⟨2, _⟩ => rfl

/-- An index of the output is in point `t`'s block iff each coordinate is in the block's range on its axis. -/
private theorem mem_blk2 (t : Fin cfg2.N) (i : S2x64x64.Idx) :
    i ∈ ((cfg2.win 3).blk t).view.set
      ↔ ∀ a : Fin 3, win2_3.index t a * S1x64x64.size a ≤ (i a).val ∧ (i a).val < win2_3.index t a * S1x64x64.size a + S1x64x64.size a := by
  show i ∈ ((View.whole main_v37).slice (win2_3.rect t)).set ↔ _
  rw [View.set_slice_whole, Rect.mem_set_unit]
  exact Iff.rfl

/-- After the region the output array is `R2` of the entry contents of the three operands. -/
theorem final2 (c : Dev nD) : (dat2 V c).arrAt 3 cfg2.N = R2 (V c main_v28) (V c main_v29) (V c main_v36) := by
  refine (dat2 V c).arrAt_eq_of_cover 3 (R2 (V c main_v28) (V c main_v29) (V c main_v36))
    (fun t hf => flushed2_eq V c t ((flush2_3 t).mp hf)) (fun i => ?_)
  have hi0 : (i 0).val < 2 := (i 0).isLt
  have hi1 : (i 1).val < 64 := (i 1).isLt
  have hi2 : (i 2).val < 64 := (i 2).isLt
  have hN : cfg2.N = 10 := N_2
  have ht : 5 * (i 0).val + 4 < cfg2.N := by rw [hN]; omega
  refine ⟨⟨5 * (i 0).val + 4, ht⟩, (flush2_3 _).mpr (by show (5 * (i 0).val + 4) % 5 = 4; omega), ?_⟩
  rw [mem_blk2]
  obtain ⟨-, -, -, -, -, -, e0, e1, e2⟩ := idx_facts2 ⟨5 * (i 0).val + 4, ht⟩
  have e0' : win2_3.index ⟨5 * (i 0).val + 4, ht⟩ (0 : Fin 3) = (i 0).val := by rw [e0]; show (5 * (i 0).val + 4) / 5 = (i 0).val; omega
  intro a
  match a with
  | ⟨0, _⟩ =>
    show win2_3.index ⟨5 * (i 0).val + 4, ht⟩ (0 : Fin 3) * 1 ≤ (i 0).val ∧ (i 0).val < win2_3.index ⟨5 * (i 0).val + 4, ht⟩ (0 : Fin 3) * 1 + 1
    rw [e0']; omega
  | ⟨1, _⟩ =>
    show win2_3.index ⟨5 * (i 0).val + 4, ht⟩ (1 : Fin 3) * 64 ≤ (i 1).val ∧ (i 1).val < win2_3.index ⟨5 * (i 0).val + 4, ht⟩ (1 : Fin 3) * 64 + 64
    rw [e1]; omega
  | ⟨2, _⟩ =>
    show win2_3.index ⟨5 * (i 0).val + 4, ht⟩ (2 : Fin 3) * 64 ≤ (i 2).val ∧ (i 2).val < win2_3.index ⟨5 * (i 0).val + 4, ht⟩ (2 : Fin 3) * 64 + 64
    rw [e2]; omega

end Cert.KernelIdeal.Val

end
-- ==== Proof.ValReg3.lean ====
import proofs.«410010_j22943715295836_2_alg».proof.Proof.FrReg3
import proofs.«410010_j22943715295836_2_alg».proof.Proof.RegFns
import Idealize.ShloMosaic.Lib.Pipeline.Value
import Idealize.ShloMosaic.Lib.ValueIdx

/-!
# What the fourth call leaves in its output array

One grid point whose blocks are the whole arrays: what it writes back is the body's term of the five operand arrays as
the region found them.
-/

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Fr

variable {F : FTy → Type} [FloatOps F]
variable (V : (c : Dev nD) → (b : Ref sig .tc) → Buf (Elt F) ((c : Thread nD τ).loc b))

/-- The zero offsets, however spelt. -/
private theorem hz3 : (![0, 0] : Fin 2 → Nat) = fun _ => 0 := funext fun a => by fin_cases a <;> rfl

/-- The printed index maps at the grid's one point: every window's block index is `(0, 0)`. -/
private theorem idx_facts3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Window 0's block at the point is its whole array: the embedded index is the index itself. -/
private theorem iblk3_0_eq (c : Dev nD) (t : Fin cfg3.N) (y : S64x64.Idx) : iblk3 V c 0 t y = V c main_v51 y := by
  show V c main_v51 (((cfg3.win 0).blk t).view.emb y) = V c main_v51 y
  refine congrArg (V c main_v51) ?_
  obtain ⟨e00, e01, e10, e11, e20, e21, e30, e31, e40, e41, e50, e51⟩ := idx_facts3 t
  funext a; apply Fin.ext
  match a with
  | ⟨0, _⟩ => show win3_0.index t (0 : Fin 2) * 64 + 1 * (y 0).val = (y 0).val; omega
  | ⟨1, _⟩ => show win3_0.index t (1 : Fin 2) * 64 + 1 * (y 1).val = (y 1).val; omega

/-- Window 1's block at the point is its whole array: the embedded index is the index itself. -/
private theorem iblk3_1_eq (c : Dev nD) (t : Fin cfg3.N) (y : S64x32.Idx) : iblk3 V c 1 t y = V c main_arg7 y := by
  show V c main_arg7 (((cfg3.win 1).blk t).view.emb y) = V c main_arg7 y
  refine congrArg (V c main_arg7) ?_
  obtain ⟨e00, e01, e10, e11, e20, e21, e30, e31, e40, e41, e50, e51⟩ := idx_facts3 t
  funext a; apply Fin.ext
  match a with
  | ⟨0, _⟩ => show win3_1.index t (0 : Fin 2) * 64 + 1 * (y 0).val = (y 0).val; omega
  | ⟨1, _⟩ => show win3_1.index t (1 : Fin 2) * 32 + 1 * (y 1).val = (y 1).val; omega

/-- Window 2's block at the point is its whole array: the embedded index is the index itself. -/
private theorem iblk3_2_eq (c : Dev nD) (t : Fin cfg3.N) (y : S1x32.Idx) : iblk3 V c 2 t y = V c main_v52 y := by
  show V c main_v52 (((cfg3.win 2).blk t).view.emb y) = V c main_v52 y
  refine congrArg (V c main_v52) ?_
  obtain ⟨e00, e01, e10, e11, e20, e21, e30, e31, e40, e41, e50, e51⟩ := idx_facts3 t
  funext a; apply Fin.ext
  match a with
  | ⟨0, _⟩ => show win3_2.index t (0 : Fin 2) * 1 + 1 * (y 0).val = (y 0).val; omega
  | ⟨1, _⟩ => show win3_2.index t (1 : Fin 2) * 32 + 1 * (y 1).val = (y 1).val; omega

/-- Window 3's block at the point is its whole array: the embedded index is the index itself. -/
private theorem iblk3_3_eq (c : Dev nD) (t : Fin cfg3.N) (y : S32x10.Idx) : iblk3 V c 3 t y = V c main_arg9 y := by
  show V c main_arg9 (((cfg3.win 3).blk t).view.emb y) = V c main_arg9 y
  refine congrArg (V c main_arg9) ?_
  obtain ⟨e00, e01, e10, e11, e20, e21, e30, e31, e40, e41, e50, e51⟩ := idx_facts3 t
  funext a; apply Fin.ext
  match a with
  | ⟨0, _⟩ => show win3_3.index t (0 : Fin 2) * 32 + 1 * (y 0).val = (y 0).val; omega
  | ⟨1, _⟩ => show win3_3.index t (1 : Fin 2) * 10 + 1 * (y 1).val = (y 1).val; omega

/-- Window 4's block at the point is its whole array: the embedded index is the index itself. -/
private theorem iblk3_4_eq (c : Dev nD) (t : Fin cfg3.N) (y : S1x10.Idx) : iblk3 V c 4 t y = V c main_v53 y := by
  show V c main_v53 (((cfg3.win 4).blk t).view.emb y) = V c main_v53 y
  refine congrArg (V c main_v53) ?_
  obtain ⟨e00, e01, e10, e11, e20, e21, e30, e31, e40, e41, e50, e51⟩ := idx_facts3 t
  funext a; apply Fin.ext
  match a with
  | ⟨0, _⟩ => show win3_4.index t (0 : Fin 2) * 1 + 1 * (y 0).val = (y 0).val; omega
  | ⟨1, _⟩ => show win3_4.index t (1 : Fin 2) * 10 + 1 * (y 1).val = (y 1).val; omega

/-- What the point writes back is its block — the whole array — of `R3` of the operand arrays as the region finds them. -/
private theorem flushed3_eq (c : Dev nD) (t : Fin cfg3.N) :
    (dat3 V c).flushed 5 t = ((cfg3.win 5).blk t).view.read (Elt F)
      (R3 (V c main_v51) (V c main_arg7) (V c main_v52) (V c main_arg9) (V c main_v53)) := by
  show (cfg3.win 5).cut (grid3.coords t) ((dat3 V c).after 5 t) = _
  rw [after3_5]
  unfold out3_5
  rw [View.canon_unit_zero hz3]
  simp only [View.ld_unit_zero (S := S64x64) hz3, View.ld_unit_zero (S := S64x32) hz3, View.ld_unit_zero (S := S1x32) hz3,
    View.ld_unit_zero (S := S32x10) hz3, View.ld_unit_zero (S := S1x10) hz3]
  have h0 : (iblk3 V c 0 t : Vec F S64x64 .f32) = V c main_v51 := funext (iblk3_0_eq V c t)
  have h1 : (iblk3 V c 1 t : Vec F S64x32 .f32) = V c main_arg7 := funext (iblk3_1_eq V c t)
  have h2 : (iblk3 V c 2 t : Vec F S1x32 .f32) = V c main_v52 := funext (iblk3_2_eq V c t)
  have h3 : (iblk3 V c 3 t : Vec F S32x10 .f32) = V c main_arg9 := funext (iblk3_3_eq V c t)
  have h4 : (iblk3 V c 4 t : Vec F S1x10 .f32) = V c main_v53 := funext (iblk3_4_eq V c t)
  rw [h0, h1, h2, h3, h4]
  funext j
  show k3_pay1 (V c main_v51) (V c main_arg7) (V c main_v52) (V c main_arg9) (V c main_v53) j
    = R3 (V c main_v51) (V c main_arg7) (V c main_v52) (V c main_arg9) (V c main_v53) (((cfg3.win 5).blk t).view.emb j)
  unfold R3
  refine congrArg (k3_pay1 (V c main_v51) (V c main_arg7) (V c main_v52) (V c main_arg9) (V c main_v53)) ?_
  obtain ⟨e00, e01, e10, e11, e20, e21, e30, e31, e40, e41, e50, e51⟩ := idx_facts3 t
  funext a; apply Fin.ext
  match a with
  | ⟨0, _⟩ => show (j 0).val = win3_5.index t (0 : Fin 2) * 64 + 1 * (j 0).val; omega
  | ⟨1, _⟩ => show (j 1).val = win3_5.index t (1 : Fin 2) * 10 + 1 * (j 1).val; omega

/-- An index of the output array is in the point's block iff each coordinate is in the block's range on its axis. -/
private theorem mem_blk3 (t : Fin cfg3.N) (i : S64x10.Idx) :
    i ∈ ((cfg3.win 5).blk t).view.set ↔ ∀ a : Fin 2, win3_5.index t a * S64x10.size a ≤ (i a).val
      ∧ (i a).val < win3_5.index t a * S64x10.size a + S64x10.size a := by
  show i ∈ ((View.whole main_v54).slice (win3_5.rect t)).set ↔ _
  rw [View.set_slice_whole, Rect.mem_set_unit]
  exact Iff.rfl

/-- Every index of the output array is in the one point's block. -/
private theorem cover3 (i : S64x10.Idx) :
    ∃ t : Fin cfg3.N, (cfg3.win 5).flush t = true ∧ i ∈ ((cfg3.win 5).blk t).view.set := by
  refine ⟨⟨0, by decide⟩, flush3_5 _, ?_⟩
  rw [mem_blk3]
  obtain ⟨e00, e01, e10, e11, e20, e21, e30, e31, e40, e41, e50, e51⟩ := idx_facts3 ⟨0, by decide⟩
  have hi0 : (i 0).val < 64 := (i 0).isLt
  have hi1 : (i 1).val < 10 := (i 1).isLt
  intro a
  match a with
  | ⟨0, _⟩ =>
    show win3_5.index ⟨0, by decide⟩ (0 : Fin 2) * 64 ≤ (i 0).val ∧ (i 0).val < win3_5.index ⟨0, by decide⟩ (0 : Fin 2) * 64 + 64
    omega
  | ⟨1, _⟩ =>
    show win3_5.index ⟨0, by decide⟩ (1 : Fin 2) * 10 ≤ (i 1).val ∧ (i 1).val < win3_5.index ⟨0, by decide⟩ (1 : Fin 2) * 10 + 10
    omega

/-- After the region the output array is `R3` of the entry contents of the five operands. -/
theorem final3 (c : Dev nD) :
    (dat3 V c).arrAt 5 cfg3.N = R3 (V c main_v51) (V c main_arg7) (V c main_v52) (V c main_arg9) (V c main_v53) :=
  (dat3 V c).arrAt_eq_of_cover 5 _ (fun t _ => flushed3_eq V c t) cover3

end Cert.KernelIdeal.Val

end
-- ==== Proof.KernelVal.lean ====
import proofs.«410010_j22943715295836_2_alg».proof.Proof.FrRun
import proofs.«410010_j22943715295836_2_alg».proof.Proof.RegFns
import proofs.«410010_j22943715295836_2_alg».proof.Proof.ValReg0
import proofs.«410010_j22943715295836_2_alg».proof.Proof.ValReg1
import proofs.«410010_j22943715295836_2_alg».proof.Proof.ValReg2
import proofs.«410010_j22943715295836_2_alg».proof.Proof.ValReg3
import Idealize.ShloMosaic.Lib.StableHlo.Run

/-!
# The kernel's result array as a function of the argument arrays

The run ends with every unscoped buffer at the last boundary's contents `W8`. Walking the fold back from the result
buffer: each call's output array is its region function of the call's operand arrays at the call's entry; each operand
there is what the host stretch before the call computed from the buffers at the boundary before it (read off the
stretch's operations), or a buffer no item in between writes. The composition is `kFn` of the argument arrays.
-/

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen Cert.KernelIdeal.Fr

variable {F : FTy → Type} [FloatOps F]

/-! ## What each host stretch leaves in the buffers the next call reads, from any contents `W` -/

section Legs
variable (W : Valuation τ sig (Elt F))

/-- The first stretch: the two rows of the edge list. -/
theorem leg0_v1 : after hostOps0 W (Proc.devRef .tc main_v1)
    = shapeCast _ (extractStridedSlice S1x800000 ![0, 0] (W (Proc.devRef .tc main_arg1)) slices_S2x800000_S1x800000_0_0) shapeCasts_S1x800000_S800000 := by
  after_results; rfl
theorem leg0_v3 : after hostOps0 W (Proc.devRef .tc main_v3)
    = shapeCast _ (extractStridedSlice S1x800000 ![1, 0] (W (Proc.devRef .tc main_arg1)) slices_S2x800000_S1x800000_1_0) shapeCasts_S1x800000_S800000 := by
  after_results; rfl

/-- The second stretch: the first aggregation, and the first bias as a one-row array. -/
theorem leg1_v15 : after hostOps1 W (Proc.devRef .tc main_v15)
    = Host.scatterAdd scatter_S50000x64_S800000x1_S800000x64_1_0_0_1
        (broadcastInDim S50000x64 ![] bcast_S_S50000x64 (constant S_ .f32 0x00000000#32))
        (broadcastInDim S800000x1 ![0] bcast_S800000_S800000x1_0 (W (Proc.devRef .tc main_v3)))
        (extf .f32 (Host.gather gather_S50000x64_S800000x1_S800000x64_1_0_n_n_0_1_164 (W (Proc.devRef .tc main_v4))
          (broadcastInDim S800000x1 ![0] bcast_S800000_S800000x1_0
            (select (cmpi .slt (W (Proc.devRef .tc main_v1)) (broadcastInDim S800000 ![] bcast_S_S800000 (constantI S_ 32 0#32)))
              (addi (W (Proc.devRef .tc main_v1)) (broadcastInDim S800000 ![] bcast_S_S800000 (constantI S_ 32 50000#32)))
              (W (Proc.devRef .tc main_v1))))) bitsLt_bf16_f32) := by
  after_results
theorem leg1_v16 : after hostOps1 W (Proc.devRef .tc main_v16) = shapeCast _ (W (Proc.devRef .tc main_arg4)) shapeCasts_S64_S1x64 := by
  after_results; rfl

/-- The third stretch: the second aggregation, the second bias as a one-row array, and the membership table. -/
theorem leg2_v28 : after hostOps2 W (Proc.devRef .tc main_v28)
    = Host.scatterAdd scatter_S50000x64_S800000x1_S800000x64_1_0_0_1
        (broadcastInDim S50000x64 ![] bcast_S_S50000x64 (constant S_ .f32 0x00000000#32))
        (broadcastInDim S800000x1 ![0] bcast_S800000_S800000x1_0 (W (Proc.devRef .tc main_v3)))
        (extf .f32 (Host.gather gather_S50000x64_S800000x1_S800000x64_1_0_n_n_0_1_164 (W (Proc.devRef .tc main_v17))
          (broadcastInDim S800000x1 ![0] bcast_S800000_S800000x1_0
            (select (cmpi .slt (W (Proc.devRef .tc main_v1)) (broadcastInDim S800000 ![] bcast_S_S800000 (constantI S_ 32 0#32)))
              (addi (W (Proc.devRef .tc main_v1)) (broadcastInDim S800000 ![] bcast_S_S800000 (constantI S_ 32 50000#32)))
              (W (Proc.devRef .tc main_v1))))) bitsLt_bf16_f32) := by
  after_results
theorem leg2_v29 : after hostOps2 W (Proc.devRef .tc main_v29) = shapeCast _ (W (Proc.devRef .tc main_arg6)) shapeCasts_S64_S1x64 := by
  after_results; rfl
theorem leg2_v36 : after hostOps2 W (Proc.devRef .tc main_v36) = onehot (F := F) (W (Proc.devRef .tc main_arg2)) := by
  after_results; rfl

/-- The fourth stretch: the two halves added and divided by the node counts, and the head's biases as one-row arrays. -/
theorem leg3_v51 : after hostOps3 W (Proc.devRef .tc main_v51)
    = Host.divf (sumHalves (W (Proc.devRef .tc main_v37))) (cntK (F := F) (W (Proc.devRef .tc main_arg2))) := by
  after_results; rfl
theorem leg3_v52 : after hostOps3 W (Proc.devRef .tc main_v52) = shapeCast _ (W (Proc.devRef .tc main_arg8)) shapeCasts_S32_S1x32 := by
  after_results; rfl
theorem leg3_v53 : after hostOps3 W (Proc.devRef .tc main_v53) = shapeCast _ (W (Proc.devRef .tc main_arg10)) shapeCasts_S10_S1x10 := by
  after_results; rfl

end Legs

/-! ## Buffers an item does not write reach the next boundary unchanged -/

variable (m : (ℓ : Loc nD τ sig) → Buf (Elt F) ℓ) (ρ : Dev nD → PrngReg)

theorem W1_keep (c : Dev nD) (b : Ref sig .tc) (h0 : b ∉ hostOps0_W) :
    W1 m ρ c (Proc.devRef .tc b) = m ((c : Thread nD τ).loc b) :=
  (after_of_writes_sub hostOps0 _ hostOps0_writes h0).trans rfl
theorem W2_keep (c : Dev nD) (b : Ref sig .tc) (h0 : b ∉ hostOps0_W) (h4 : b ≠ main_v4) :
    W2 m ρ c (Proc.devRef .tc b) = m ((c : Thread nD τ).loc b) :=
  (keep0 m ρ c b h4).trans (W1_keep m ρ c b h0)
theorem W3_keep (c : Dev nD) (b : Ref sig .tc) (h0 : b ∉ hostOps0_W) (h4 : b ≠ main_v4) (h1 : b ∉ hostOps1_W) :
    W3 m ρ c (Proc.devRef .tc b) = m ((c : Thread nD τ).loc b) :=
  (after_of_writes_sub hostOps1 _ hostOps1_writes h1).trans (W2_keep m ρ c b h0 h4)
theorem W4_keep (c : Dev nD) (b : Ref sig .tc) (h0 : b ∉ hostOps0_W) (h4 : b ≠ main_v4) (h1 : b ∉ hostOps1_W) (h17 : b ≠ main_v17) :
    W4 m ρ c (Proc.devRef .tc b) = m ((c : Thread nD τ).loc b) :=
  (keep1 m ρ c b h17).trans (W3_keep m ρ c b h0 h4 h1)
theorem W5_keep (c : Dev nD) (b : Ref sig .tc) (h0 : b ∉ hostOps0_W) (h4 : b ≠ main_v4) (h1 : b ∉ hostOps1_W) (h17 : b ≠ main_v17)
    (h2 : b ∉ hostOps2_W) : W5 m ρ c (Proc.devRef .tc b) = m ((c : Thread nD τ).loc b) :=
  (after_of_writes_sub hostOps2 _ hostOps2_writes h2).trans (W4_keep m ρ c b h0 h4 h1 h17)
theorem W6_keep (c : Dev nD) (b : Ref sig .tc) (h0 : b ∉ hostOps0_W) (h4 : b ≠ main_v4) (h1 : b ∉ hostOps1_W) (h17 : b ≠ main_v17)
    (h2 : b ∉ hostOps2_W) (h37 : b ≠ main_v37) : W6 m ρ c (Proc.devRef .tc b) = m ((c : Thread nD τ).loc b) :=
  (keep2 m ρ c b h37).trans (W5_keep m ρ c b h0 h4 h1 h17 h2)
theorem W7_keep (c : Dev nD) (b : Ref sig .tc) (h0 : b ∉ hostOps0_W) (h4 : b ≠ main_v4) (h1 : b ∉ hostOps1_W) (h17 : b ≠ main_v17)
    (h2 : b ∉ hostOps2_W) (h37 : b ≠ main_v37) (h3 : b ∉ hostOps3_W) : W7 m ρ c (Proc.devRef .tc b) = m ((c : Thread nD τ).loc b) :=
  (after_of_writes_sub hostOps3 _ hostOps3_writes h3).trans (W6_keep m ρ c b h0 h4 h1 h17 h2 h37)

/-- The two rows of the edge list, computed by the first stretch, are still there when the second and the third
    stretch read them. -/
theorem W2_row (c : Dev nD) (b : Ref sig .tc) (h4 : b ≠ main_v4) : W2 m ρ c (Proc.devRef .tc b) = W1 m ρ c (Proc.devRef .tc b) :=
  keep0 m ρ c b h4
theorem W4_row (c : Dev nD) (b : Ref sig .tc) (h4 : b ≠ main_v4) (h1 : b ∉ hostOps1_W) (h17 : b ≠ main_v17) :
    W4 m ρ c (Proc.devRef .tc b) = W1 m ρ c (Proc.devRef .tc b) :=
  (keep1 m ρ c b h17).trans ((after_of_writes_sub hostOps1 _ hostOps1_writes h1).trans (keep0 m ρ c b h4))

/-! ## The result -/

/-- The result buffer at the last boundary is `kFn` of the argument arrays. -/
theorem W8_result (c : Dev nD) :
    W8 m ρ c (Proc.devRef .tc main_v54)
      = kFn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  -- call 3's output, of its operands at its entry
  have e8 : W8 m ρ c (Proc.devRef .tc main_v54) = (dat3 (E7 m ρ) c).arrAt 5 cfg3.N := W8_arr m ρ c 5
  rw [e8, final3 (E7 m ρ) c]
  -- the operands at call 3's entry
  have a7 : E7 m ρ c main_arg7 = m ((c : Thread nD τ).loc main_arg7) := W7_keep m ρ c main_arg7 (by decide) (by decide) (by decide) (by decide) (by decide) (by decide) (by decide)
  have a9 : E7 m ρ c main_arg9 = m ((c : Thread nD τ).loc main_arg9) := W7_keep m ρ c main_arg9 (by decide) (by decide) (by decide) (by decide) (by decide) (by decide) (by decide)
  have a52 : E7 m ρ c main_v52 = shapeCast _ (m ((c : Thread nD τ).loc main_arg8)) shapeCasts_S32_S1x32 :=
    (leg3_v52 (W6 m ρ c)).trans (by rw [W6_keep m ρ c main_arg8 (by decide) (by decide) (by decide) (by decide) (by decide) (by decide)])
  have a53 : E7 m ρ c main_v53 = shapeCast _ (m ((c : Thread nD τ).loc main_arg10)) shapeCasts_S10_S1x10 :=
    (leg3_v53 (W6 m ρ c)).trans (by rw [W6_keep m ρ c main_arg10 (by decide) (by decide) (by decide) (by decide) (by decide) (by decide)])
  -- call 2's output, of its operands at its entry
  have e6 : W6 m ρ c (Proc.devRef .tc main_v37) = (dat2 (E5 m ρ) c).arrAt 3 cfg2.N := W6_arr m ρ c 3
  have a29 : E5 m ρ c main_v29 = shapeCast _ (m ((c : Thread nD τ).loc main_arg6)) shapeCasts_S64_S1x64 :=
    (leg2_v29 (W4 m ρ c)).trans (by rw [W4_keep m ρ c main_arg6 (by decide) (by decide) (by decide) (by decide)])
  have a36 : E5 m ρ c main_v36 = onehot (F := F) (m ((c : Thread nD τ).loc main_arg2)) :=
    (leg2_v36 (W4 m ρ c)).trans (by rw [W4_keep m ρ c main_arg2 (by decide) (by decide) (by decide) (by decide)])
  -- the two rows of the edge list at the boundaries that read them
  have r1 : W1 m ρ c (Proc.devRef .tc main_v1)
      = shapeCast _ (extractStridedSlice S1x800000 ![0, 0] (m ((c : Thread nD τ).loc main_arg1)) slices_S2x800000_S1x800000_0_0) shapeCasts_S1x800000_S800000 :=
    leg0_v1 (W0 m ρ c)
  have r3 : W1 m ρ c (Proc.devRef .tc main_v3)
      = shapeCast _ (extractStridedSlice S1x800000 ![1, 0] (m ((c : Thread nD τ).loc main_arg1)) slices_S2x800000_S1x800000_1_0) shapeCasts_S1x800000_S800000 :=
    leg0_v3 (W0 m ρ c)
  -- call 1's output, of its operands at its entry
  have e4 : W4 m ρ c (Proc.devRef .tc main_v17) = (dat1 (E3 m ρ) c).arrAt 3 cfg1.N := W4_arr m ρ c 3
  have a16 : E3 m ρ c main_v16 = shapeCast _ (m ((c : Thread nD τ).loc main_arg4)) shapeCasts_S64_S1x64 :=
    (leg1_v16 (W2 m ρ c)).trans (by rw [W2_keep m ρ c main_arg4 (by decide) (by decide)])
  have a5 : E3 m ρ c main_arg5 = m ((c : Thread nD τ).loc main_arg5) := W3_keep m ρ c main_arg5 (by decide) (by decide) (by decide)
  -- call 0's output, of its operands at its entry
  have e2 : W2 m ρ c (Proc.devRef .tc main_v4) = (dat0 (E1 m ρ) c).arrAt 2 cfg0.N := W2_arr m ρ c 2
  have a0 : E1 m ρ c main_arg0 = m ((c : Thread nD τ).loc main_arg0) := W1_keep m ρ c main_arg0 (by decide)
  have a3 : E1 m ρ c main_arg3 = m ((c : Thread nD τ).loc main_arg3) := W1_keep m ρ c main_arg3 (by decide)
  have k4 : W2 m ρ c (Proc.devRef .tc main_v4) = R0 (m ((c : Thread nD τ).loc main_arg0)) (m ((c : Thread nD τ).loc main_arg3)) := by
    rw [e2, final0 (E1 m ρ) c, a0, a3]
  have k15 : E3 m ρ c main_v15 = aggK (R0 (m ((c : Thread nD τ).loc main_arg0)) (m ((c : Thread nD τ).loc main_arg3))) (m ((c : Thread nD τ).loc main_arg1)) := by
    refine (leg1_v15 (W2 m ρ c)).trans ?_
    rw [k4, W2_row m ρ c main_v1 (by decide), W2_row m ρ c main_v3 (by decide), r1, r3]
    rfl
  have k17 : W4 m ρ c (Proc.devRef .tc main_v17)
      = R1 (aggK (R0 (m ((c : Thread nD τ).loc main_arg0)) (m ((c : Thread nD τ).loc main_arg3))) (m ((c : Thread nD τ).loc main_arg1)))
          (shapeCast _ (m ((c : Thread nD τ).loc main_arg4)) shapeCasts_S64_S1x64) (m ((c : Thread nD τ).loc main_arg5)) := by
    rw [e4, final1 (E3 m ρ) c, k15, a16, a5]
  have k28 : E5 m ρ c main_v28
      = aggK (R1 (aggK (R0 (m ((c : Thread nD τ).loc main_arg0)) (m ((c : Thread nD τ).loc main_arg3))) (m ((c : Thread nD τ).loc main_arg1)))
          (shapeCast _ (m ((c : Thread nD τ).loc main_arg4)) shapeCasts_S64_S1x64) (m ((c : Thread nD τ).loc main_arg5))) (m ((c : Thread nD τ).loc main_arg1)) := by
    refine (leg2_v28 (W4 m ρ c)).trans ?_
    rw [k17, W4_row m ρ c main_v1 (by decide) (by decide) (by decide), W4_row m ρ c main_v3 (by decide) (by decide) (by decide), r1, r3]
    rfl
  have k37 : W6 m ρ c (Proc.devRef .tc main_v37)
      = R2 (aggK (R1 (aggK (R0 (m ((c : Thread nD τ).loc main_arg0)) (m ((c : Thread nD τ).loc main_arg3))) (m ((c : Thread nD τ).loc main_arg1)))
          (shapeCast _ (m ((c : Thread nD τ).loc main_arg4)) shapeCasts_S64_S1x64) (m ((c : Thread nD τ).loc main_arg5))) (m ((c : Thread nD τ).loc main_arg1)))
          (shapeCast _ (m ((c : Thread nD τ).loc main_arg6)) shapeCasts_S64_S1x64) (onehot (F := F) (m ((c : Thread nD τ).loc main_arg2))) := by
    rw [e6, final2 (E5 m ρ) c, k28, a29, a36]
  have k51 : E7 m ρ c main_v51
      = Host.divf (sumHalves (R2 (aggK (R1 (aggK (R0 (m ((c : Thread nD τ).loc main_arg0)) (m ((c : Thread nD τ).loc main_arg3))) (m ((c : Thread nD τ).loc main_arg1)))
          (shapeCast _ (m ((c : Thread nD τ).loc main_arg4)) shapeCasts_S64_S1x64) (m ((c : Thread nD τ).loc main_arg5))) (m ((c : Thread nD τ).loc main_arg1)))
          (shapeCast _ (m ((c : Thread nD τ).loc main_arg6)) shapeCasts_S64_S1x64) (onehot (F := F) (m ((c : Thread nD τ).loc main_arg2)))))
          (cntK (F := F) (m ((c : Thread nD τ).loc main_arg2))) := by
    refine (leg3_v51 (W6 m ρ c)).trans ?_
    rw [k37, W6_keep m ρ c main_arg2 (by decide) (by decide) (by decide) (by decide) (by decide) (by decide)]
  rw [k51, a7, a52, a9, a53]
  rfl

end Cert.KernelIdeal.Val

end
-- ==== Proof.RefSide.lean ====
import proofs.«410010_j22943715295836_2_alg».proof.Defs
import proofs.«410010_j22943715295836_2_alg».proof.Proof.Gen.ReferenceIdeal
import proofs.«410010_j22943715295836_2_alg».proof.Proof.Gen.ReferenceIdeal.Run

/-!
# The reference's @main in stages

The reference is two graph-convolution layers (`x · W`, gather the source rows of every edge, add them into the target
rows, add the bias, clamp at zero), a mean over the nodes of each graph (sums by scatter-add, divided by the node
counts, at least one), and a two-layer head ending in a log-softmax. Each stage is named here as a function of whole
arrays, for any float family; `refFn` composes them, and the term the reference's run ends with is `refFn` of the
argument arrays.
-/

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

/-- Source nodes of the edges, a negative one counted from the end, as a column of start indices. -/
def rSrc (ei : IVec S2x800000 32) : IVec S800000x1 32 :=
  broadcastInDim S800000x1 ![0] bcast_S800000_S800000x1_0
    (select (cmpi .slt (shapeCast _ (extractStridedSlice S1x800000 ![0, 0] ei slices_S2x800000_S1x800000_0_0) shapeCasts_S1x800000_S800000)
        (broadcastInDim S800000 ![] bcast_S_S800000 (constantI S_ 32 0#32)))
      (addi (shapeCast _ (extractStridedSlice S1x800000 ![0, 0] ei slices_S2x800000_S1x800000_0_0) shapeCasts_S1x800000_S800000)
        (broadcastInDim S800000 ![] bcast_S_S800000 (constantI S_ 32 50000#32)))
      (shapeCast _ (extractStridedSlice S1x800000 ![0, 0] ei slices_S2x800000_S1x800000_0_0) shapeCasts_S1x800000_S800000))

/-- Target nodes of the edges, as a column of scatter indices. -/
def rDst (ei : IVec S2x800000 32) : IVec S800000x1 32 :=
  broadcastInDim S800000x1 ![0] bcast_S800000_S800000x1_0
    (shapeCast _ (extractStridedSlice S1x800000 ![1, 0] ei slices_S2x800000_S1x800000_1_0) shapeCasts_S1x800000_S800000)

/-- The edge aggregation: gather the source rows, add them into the target rows. -/
def rAgg (h : FVec F S50000x64 .f32) (ei : IVec S2x800000 32) : FVec F S50000x64 .f32 :=
  Host.scatterAdd scatter_S50000x64_S800000x1_S800000x64_1_0_0_1
    (broadcastInDim S50000x64 ![] bcast_S_S50000x64 (constant S_ .f32 0x00000000#32)) (rDst ei)
    (Host.gather gather_S50000x64_S800000x1_S800000x64_1_0_n_n_0_1_164 h (rSrc ei))

/-- Add the bias along the rows and clamp at zero. -/
def rBiasRelu (a : FVec F S50000x64 .f32) (b : FVec F S64 .f32) : FVec F S50000x64 .f32 :=
  maximumf (addf a (broadcastInDim S50000x64 ![0, 1] bcast_S1x64_S50000x64_0_1 (broadcastInDim S1x64 ![1] bcast_S64_S1x64_1 b)))
    (broadcastInDim S50000x64 ![] bcast_S_S50000x64 (constant S_ .f32 0x00000000#32))

/-- Per graph, the sum of its nodes' rows. -/
def rSums (r : FVec F S50000x64 .f32) (bt : IVec S50000 32) : FVec F S64x64 .f32 :=
  Host.scatterAdd scatter_S64x64_S50000x1_S50000x64_1_0_0_1
    (broadcastInDim S64x64 ![] bcast_S_S64x64 (constant S_ .f32 0x00000000#32))
    (broadcastInDim S50000x1 ![0] bcast_S50000_S50000x1_0 bt) r

/-- Nodes per graph, at least one, spread along the feature axis. -/
def rCnt (bt : IVec S50000 32) : FVec F S64x64 .f32 :=
  broadcastInDim S64x64 ![0, 1] bcast_S64x1_S64x64_0_1 (broadcastInDim S64x1 ![0] bcast_S64_S64x1_0
    (maximumf (Host.scatterAdd scatter_S64_S50000x1_S50000_n_0_0_1
        (broadcastInDim S64 ![] bcast_S_S64 (constant S_ .f32 0x00000000#32))
        (broadcastInDim S50000x1 ![0] bcast_S50000_S50000x1_0 bt)
        (broadcastInDim S50000 ![] bcast_S_S50000 (constant S_ .f32 0x3F800000#32)))
      (broadcastInDim S64 ![] bcast_S_S64 (constant S_ .f32 0x3F800000#32))))

/-- The head's logits: two dense layers, the first clamped at zero. -/
def rLogits (p : FVec F S64x64 .f32) (w1 : FVec F S64x32 .f32) (b1 : FVec F S32 .f32) (w2 : FVec F S32x10 .f32) (b2 : FVec F S10 .f32) :
    FVec F S64x10 .f32 :=
  addf (Host.dotGeneral dot_S64x32_S32x10_S64x10_1_0_0_1_n_n none
      (maximumf (addf (Host.dotGeneral dot_S64x64_S64x32_S64x32_1_0_0_1_n_n none p w1)
          (broadcastInDim S64x32 ![0, 1] bcast_S1x32_S64x32_0_1 (broadcastInDim S1x32 ![1] bcast_S32_S1x32_1 b1)))
        (broadcastInDim S64x32 ![] bcast_S_S64x32 (constant S_ .f32 0x00000000#32))) w2)
    (broadcastInDim S64x10 ![0, 1] bcast_S1x10_S64x10_0_1 (broadcastInDim S1x10 ![1] bcast_S10_S1x10_1 b2))

/-- The logits less their row maximum. -/
def rShift (z : FVec F S64x10 .f32) : FVec F S64x10 .f32 :=
  subf z (broadcastInDim S64x10 ![0, 1] bcast_S64x1_S64x10_0_1 (broadcastInDim S64x1 ![0] bcast_S64_S64x1_0
    (maximumf (broadcastInDim S64 ![] bcast_S_S64 (constant S_ .f32 0xFF800000#32))
      (Host.reduce FloatOps.maximumf z (constant S_ .f32 0xFF800000#32) reducesTo_S64x10_S64_d1 h_S_))))

/-- The log-softmax along the rows. -/
def rLogSoftmax (z : FVec F S64x10 .f32) : FVec F S64x10 .f32 :=
  subf (rShift z) (broadcastInDim S64x10 ![0, 1] bcast_S64x1_S64x10_0_1 (Host.log (broadcastInDim S64x1 ![0] bcast_S64_S64x1_0
    (Host.reduceAdd (Host.exp (rShift z)) (constant S_ .f32 0x00000000#32) reducesTo_S64x10_S64_d1 h_S_))))

/-- The reference's @main as one function of its arguments. -/
def refFn (x : FVec F S50000x128 .f32) (ei : IVec S2x800000 32) (bt : IVec S50000 32) (w1 : FVec F S128x64 .f32) (b1 : FVec F S64 .f32)
    (w2 : FVec F S64x64 .f32) (b2 : FVec F S64 .f32) (f1w : FVec F S64x32 .f32) (f1b : FVec F S32 .f32) (f2w : FVec F S32x10 .f32)
    (f2b : FVec F S10 .f32) : FVec F S64x10 .f32 :=
  rLogSoftmax (rLogits (Host.divf (rSums (rBiasRelu (rAgg (Host.dotGeneral dot_S50000x64_S64x64_S50000x64_1_0_0_1_n_n none
      (rBiasRelu (rAgg (Host.dotGeneral dot_S50000x128_S128x64_S50000x64_1_0_0_1_n_n none x w1) ei) b1) w2) ei) b2) bt) (rCnt bt))
    f1w f1b f2w f2b)

set_option maxRecDepth 8192 in
/-- The term the reference's run ends with is `refFn` of the argument arrays. -/
theorem res_eq (m : (ℓ : Loc nD τ sig) → Buf (Elt F) ℓ) (c : Dev nD) :
    Cert.ReferenceIdeal.Value.res_main_v55 m c
      = refFn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.Value.res_main_v55 refFn rLogSoftmax rShift rLogits rCnt rSums rBiasRelu rAgg rDst rSrc
  rfl

end Cert.ReferenceIdeal.RefVal

end
-- ==== Proof.MathDot.lean ====
import proofs.«410010_j22943715295836_2_alg».proof.Proof.RegFns
import proofs.«410010_j22943715295836_2_alg».proof.Proof.RefSide
import Idealize.ShloMosaic.Lib.ValueIdx
import Idealize.ShloMosaic.Lib.ValueLayout
import Idealize.ShloMosaic.Lib.Pipeline.Value
import Idealize.ShloMosaic.PureOps.Ideal.Laws

/-!
# The two projection calls are matrix products

At the ideal values a change of float format is the identity and `tpu.matmul` into a zero accumulator is the sum over
the contracted axis, so block `t` of the first call's result is block `t` of `x · w`, and of the second call's result
block `t` of `max (a + b) 0 · w`: over the whole arrays, the host's `dot_general`.
-/

noncomputable section

namespace Cert.Bridge

open Idealize.ShloMosaic Idealize.SL.Sem Idealize.ShloMosaic.ValueIdx
open Cert.KernelIdeal Cert.KernelIdeal.Gen Cert.KernelIdeal.Val Cert.ReferenceIdeal.RefVal

/-! ## A product contracting the left operand's columns with the right operand's rows -/

section Plain
variable {m n c : Nat} (D : DotDims ⟨2, ![m, n]⟩ ⟨2, ![n, c]⟩ ⟨2, ![m, c]⟩)

/-- With no batch axis and the rows of the left operand the one free axis, the left operand's row is the result's row. -/
theorem plain_lhs0 (h3 : D.lhsNonContracting = [0]) (h5 : D.lhsBatch = [])
    (j : (⟨2, ![m, c]⟩ : Shape).Idx) (k : D.contr.Idx) : (D.lhsIdx j k 0).val = (j 0).val := by
  obtain ⟨lc, rc, ln, rn, lb, rb, wf⟩ := D
  subst h3 h5
  unfold DotDims.lhsIdx
  rw [dif_neg (List.not_mem_nil : ¬ (0 : Fin 2) ∈ ([] : List (Fin 2))), dif_pos (List.mem_singleton.mpr rfl : (0 : Fin 2) ∈ [0])]
  rfl

/-- Likewise the right operand's column is the result's column. -/
theorem plain_rhs1 (h4 : D.rhsNonContracting = [1]) (h3 : D.lhsNonContracting = [0]) (h5 : D.lhsBatch = []) (h6 : D.rhsBatch = [])
    (j : (⟨2, ![m, c]⟩ : Shape).Idx) (k : D.contr.Idx) : (D.rhsIdx j k 1).val = (j 1).val := by
  obtain ⟨lc, rc, ln, rn, lb, rb, wf⟩ := D
  subst h3 h4 h5 h6
  unfold DotDims.rhsIdx
  rw [dif_neg (List.not_mem_nil : ¬ (1 : Fin 2) ∈ ([] : List (Fin 2))), dif_pos (List.mem_singleton.mpr rfl : (1 : Fin 2) ∈ [1])]
  rfl

/-- A rows-by-columns product read at row `p`, column `q`: re-indexing the one-axis contraction by its coordinate, the
    sum over `k` of the left operand at `(p, k)` times the right at `(k, q)`. -/
theorem plain_sum (h1 : D.lhsContracting = [1]) (h2 : D.rhsContracting = [0]) (h3 : D.lhsNonContracting = [0])
    (h4 : D.rhsNonContracting = [1]) (h5 : D.lhsBatch = []) (h6 : D.rhsBatch = [])
    (l : (⟨2, ![m, n]⟩ : Shape).Idx → EReal) (r : (⟨2, ![n, c]⟩ : Shape).Idx → EReal) (p : Fin m) (q : Fin c) :
    ∑ k : D.contr.Idx, l (D.lhsIdx (ix2 p q) k) * r (D.rhsIdx (ix2 p q) k) = ∑ k : Fin n, l (ix2 p k) * r (ix2 k q) := by
  have hr : D.contr.rank = 1 := by rw [D.rank_contr, h1]; rfl
  have hs : D.contr.size ⟨0, by omega⟩ = n := by
    obtain ⟨lc, rc, ln, rn, lb, rb, wf⟩ := D
    subst h1
    rfl
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun a => Fin.ext (by
    match a with
    | ⟨0, _⟩ => exact plain_lhs0 D h3 h5 _ _
    | ⟨1, _⟩ => exact (D.lhsIdx_val_of_single h1 _ _).trans hk)
  have er : D.rhsIdx (ix2 p q) ((contrEquiv1 D n hr hs).symm k) = ix2 k q := funext fun a => Fin.ext (by
    match a with
    | ⟨0, _⟩ => exact (D.rhsIdx_val_of_single h2 _ _).trans hk
    | ⟨1, _⟩ => exact plain_rhs1 D h4 h3 h5 h6 _ _)
  rw [el, er]

end Plain

/-! ## The first call -/

/-- The first call's body at row `p`, column `q` of its block: the sum over the 128 contracted positions. -/
theorem k0_read (xb : FVec Ideal S10000x128 .f32) (w : FVec Ideal S128x64 .f32) (p : Fin 10000) (q : Fin 64) :
    k0_pay1 (F := Ideal) xb w (ix2 p q) = ∑ k : Fin 128, xb (ix2 p k) * w (ix2 k q) := by
  unfold k0_pay1
  refine (Ideal.matmul_constant_zero_apply dot_S10000x128_S128x64_S10000x64_1_0_0_1_n_n none _ _ (ix2 p q)).trans ?_
  exact plain_sum dot_S10000x128_S128x64_S10000x64_1_0_0_1_n_n rfl rfl rfl rfl rfl rfl _ _ p q

/-- The host's product at row `p`, column `q`: the same sum. -/
theorem ref0_read (x : FVec Ideal S50000x128 .f32) (w : FVec Ideal S128x64 .f32) (p : Fin 50000) (q : Fin 64) :
    Host.dotGeneral (F := Ideal) Cert.ReferenceIdeal.dot_S50000x128_S128x64_S50000x64_1_0_0_1_n_n none x w (ix2 p q)
      = ∑ k : Fin 128, x (ix2 p k) * w (ix2 k q) := by
  simp only [Host.dotGeneral]
  refine (Ideal.dotGeneral_apply Cert.ReferenceIdeal.dot_S50000x128_S128x64_S50000x64_1_0_0_1_n_n none _ _ _ (ix2 p q)).trans ?_
  exact plain_sum Cert.ReferenceIdeal.dot_S50000x128_S128x64_S50000x64_1_0_0_1_n_n rfl rfl rfl rfl rfl rfl _ _ p q

/-- A row read through its block: block `r / B`, place `r % B` is row `B * (r / B) + r % B = r`. -/
theorem rowBlk_blkOf {α : Type} (N B C T : Nat) (h : B * T ≤ N) (hB : 0 < B) (h' : N ≤ B * T)
    (x : (⟨2, ![N, C]⟩ : Shape).Idx → α) (r : Fin N) (k : Fin C) :
    rowBlk N B C T h x (blkOf B T N hB h' r) (ix2 (inBlk B N hB r) k) = x (ix2 r k) := by
  unfold rowBlk
  refine congrArg x (funext fun a => ?_)
  match a with
  | ⟨0, _⟩ => exact Fin.ext (Nat.div_add_mod r.val B)
  | ⟨1, _⟩ => rfl

/-- The first call computes `x · w`. -/
theorem R0_eq (x : FVec Ideal S50000x128 .f32) (w : FVec Ideal S128x64 .f32) :
    (R0 x w : S50000x64.Idx → EReal)
      = Host.dotGeneral Cert.ReferenceIdeal.dot_S50000x128_S128x64_S50000x64_1_0_0_1_n_n none x w := by
  funext i
  obtain ⟨p, q, rfl⟩ : ∃ (p : Fin 50000) (q : Fin 64), i = ix2 p q := ⟨i 0, i 1, eq_ix2 i⟩
  rw [ref0_read]
  unfold R0
  refine (k0_read _ _ _ _).trans ?_
  refine Finset.sum_congr rfl fun k _ => ?_
  rw [rowBlk_blkOf]

/-! ## The second call -/

/-- The second call's body at row `p`, column `q` of its block: the bias row added along the rows, the clamp at zero,
    then the sum over the 64 contracted positions. -/
theorem k1_read (ab : FVec Ideal S10000x64 .f32) (b1 : FVec Ideal S1x64 .f32) (w : FVec Ideal S64x64 .f32) (p : Fin 10000) (q : Fin 64) :
    k1_pay1 (F := Ideal) ab b1 w (ix2 p q) = ∑ k : Fin 64, max (ab (ix2 p k) + b1 (ix2 (0 : Fin 1) k)) 0 * w (ix2 k q) := by
  unfold k1_pay1
  refine (Ideal.matmul_constant_zero_apply dot_S10000x64_S64x64_S10000x64_1_0_0_1_n_n none _ _ (ix2 p q)).trans ?_
  refine (plain_sum dot_S10000x64_S64x64_S10000x64_1_0_0_1_n_n rfl rfl rfl rfl rfl rfl _ _ p q).trans ?_
  refine Finset.sum_congr rfl fun k _ => ?_
  show max (shapeCast S10000x64 ab shapeCasts_S10000x64_S10000x64 (ix2 p k)
        + broadcastTo S10000x64 (shapeCast S1x64 b1 shapeCasts_S1x64_S1x64) broadcasts_S1x64_S10000x64 (ix2 p k))
      (Ideal.ofBits .f32 0x00000000#32) * w (ix2 k q) = _
  rw [shapeCast_self, shapeCast_self, Ideal.ofBits_zero_f32,
    broadcastTo_apply b1 broadcasts_S1x64_S10000x64 (ix2 p k) (ix2 (0 : Fin 1) k)
      (fun a => match a with | ⟨0, _⟩ => rfl | ⟨1, _⟩ => rfl)]

/-- The one-row bias array at column `k` is the bias vector's entry `k`. -/
theorem biasRow_read (b : FVec Ideal S64 .f32) (k : Fin 64) :
    shapeCast S1x64 b shapeCasts_S64_S1x64 (ix2 (0 : Fin 1) k) = b (ix1 k) :=
  shapeCast_apply b shapeCasts_S64_S1x64 (ix2 (0 : Fin 1) k) (ix1 k)
    (by rw [Shape.rowMajor_val_one, Shape.rowMajor_val_two]; show k.val = 0 * 64 + k.val; omega)

/-- The reference's bias-and-clamp stage at row `p`, column `k`. -/
theorem rBiasRelu_read (a : FVec Ideal S50000x64 .f32) (b : FVec Ideal S64 .f32) (p : Fin 50000) (k : Fin 64) :
    rBiasRelu (F := Ideal) a b (ix2 p k) = max (a (ix2 p k) + b (ix1 k)) 0 := by
  unfold rBiasRelu
  show max (a (ix2 p k) + broadcastInDim Cert.ReferenceIdeal.S50000x64 ![0, 1] Cert.ReferenceIdeal.Gen.bcast_S1x64_S50000x64_0_1
        (broadcastInDim Cert.ReferenceIdeal.S1x64 ![1] Cert.ReferenceIdeal.Gen.bcast_S64_S1x64_1 b) (ix2 p k))
      (broadcastInDim Cert.ReferenceIdeal.S50000x64 ![] Cert.ReferenceIdeal.Gen.bcast_S_S50000x64
        (constant (F := Ideal) Cert.ReferenceIdeal.S_ .f32 0x00000000#32) (ix2 p k)) = _
  rw [broadcastInDim_apply ![0, 1] Cert.ReferenceIdeal.Gen.bcast_S1x64_S50000x64_0_1 _ (ix2 p k) (ix2 (0 : Fin 1) k)
      (fun a => match a with | ⟨0, _⟩ => rfl | ⟨1, _⟩ => rfl),
    broadcastInDim_apply ![1] Cert.ReferenceIdeal.Gen.bcast_S64_S1x64_1 b (ix2 (0 : Fin 1) k) (ix1 k)
      (fun a => match a with | ⟨0, _⟩ => rfl),
    broadcastInDim_apply ![] Cert.ReferenceIdeal.Gen.bcast_S_S50000x64 _ (ix2 p k) ix0 (fun a => a.elim0),
    constant_apply, Ideal.ofBits_zero_f32]

/-- The host's second product at row `p`, column `q`: the sum over the 64 contracted positions. -/
theorem ref1_read (y : FVec Ideal S50000x64 .f32) (w : FVec Ideal S64x64 .f32) (p : Fin 50000) (q : Fin 64) :
    Host.dotGeneral (F := Ideal) Cert.ReferenceIdeal.dot_S50000x64_S64x64_S50000x64_1_0_0_1_n_n none y w (ix2 p q)
      = ∑ k : Fin 64, y (ix2 p k) * w (ix2 k q) := by
  simp only [Host.dotGeneral]
  refine (Ideal.dotGeneral_apply Cert.ReferenceIdeal.dot_S50000x64_S64x64_S50000x64_1_0_0_1_n_n none _ _ _ (ix2 p q)).trans ?_
  exact plain_sum Cert.ReferenceIdeal.dot_S50000x64_S64x64_S50000x64_1_0_0_1_n_n rfl rfl rfl rfl rfl rfl _ _ p q

/-- The second call computes `max (a + b) 0 · w`, the bias given as a one-row array. -/
theorem R1_eq (a : FVec Ideal S50000x64 .f32) (b : FVec Ideal S64 .f32) (w : FVec Ideal S64x64 .f32) :
    (R1 a (shapeCast S1x64 b shapeCasts_S64_S1x64) w : S50000x64.Idx → EReal)
      = Host.dotGeneral Cert.ReferenceIdeal.dot_S50000x64_S64x64_S50000x64_1_0_0_1_n_n none (rBiasRelu a b) w := by
  funext i
  obtain ⟨p, q, rfl⟩ : ∃ (p : Fin 50000) (q : Fin 64), i = ix2 p q := ⟨i 0, i 1, eq_ix2 i⟩
  rw [ref1_read]
  unfold R1
  refine (k1_read _ _ _ _ _).trans ?_
  refine Finset.sum_congr rfl fun k _ => ?_
  rw [rowBlk_blkOf, biasRow_read, rBiasRelu_read]

end Cert.Bridge

end
-- ==== Proof.MathPool.lean ====
import proofs.«410010_j22943715295836_2_alg».proof.Proof.RegFns
import proofs.«410010_j22943715295836_2_alg».proof.Proof.RefSide
import Idealize.ShloMosaic.Lib.ValueIdx
import Idealize.ShloMosaic.Lib.ValueLayout
import Idealize.ShloMosaic.Lib.Pipeline.Value
import Idealize.ShloMosaic.PureOps.Ideal.Laws

/-!
# The pooling call is the per-graph sum

The membership table has a one at `(n, g)` exactly where node `n`'s graph id is `g`, so its transpose times the
clamped rows, accumulated over the five blocks of each half of the rows and the two halves added, is the sum over the
nodes of graph `g` — the host's scatter-add of the rows by graph id (a row whose id names no graph is dropped on both
sides: `0 · x = 0` on the extended reals).
-/

noncomputable section

namespace Cert.Bridge

open Idealize.ShloMosaic Idealize.SL.Sem Idealize.ShloMosaic.ValueIdx
open Cert.KernelIdeal Cert.KernelIdeal.Gen Cert.KernelIdeal.Val Cert.ReferenceIdeal.RefVal

/-! ## The block product: contraction over the row axis of both operands

The dot's dimension numbers contract axis 0 of both operands and keep axis 1 of each: at output `(g, f)` and
contraction coordinate `r` the left operand is read at `(r, g)` and the right at `(r, f)`. -/

/-- The left operand's row coordinate is the contraction coordinate. -/
theorem pool_lhs_0 (i : S64x64.Idx) (q : dot_S5000x64_S5000x64_S64x64_0_0_1_1_n_n.contr.Idx) :
    (dot_S5000x64_S5000x64_S64x64_0_0_1_1_n_n.lhsIdx i q 0).val = (q ⟨0, by decide⟩).val :=
  dot_S5000x64_S5000x64_S64x64_0_0_1_1_n_n.lhsIdx_val_of_single rfl i q
/-- The right operand's row coordinate is the contraction coordinate. -/
theorem pool_rhs_0 (i : S64x64.Idx) (q : dot_S5000x64_S5000x64_S64x64_0_0_1_1_n_n.contr.Idx) :
    (dot_S5000x64_S5000x64_S64x64_0_0_1_1_n_n.rhsIdx i q 0).val = (q ⟨0, by decide⟩).val :=
  dot_S5000x64_S5000x64_S64x64_0_0_1_1_n_n.rhsIdx_val_of_single rfl i q
/-- The left operand's column coordinate is the output's row coordinate. -/
theorem pool_lhs_1 (i : S64x64.Idx) (q : dot_S5000x64_S5000x64_S64x64_0_0_1_1_n_n.contr.Idx) :
    (dot_S5000x64_S5000x64_S64x64_0_0_1_1_n_n.lhsIdx i q 1).val = (i 0).val := by
  unfold DotDims.lhsIdx
  rw [dif_neg (show ¬(1 : Fin S5000x64.rank) ∈ dot_S5000x64_S5000x64_S64x64_0_0_1_1_n_n.lhsBatch by decide), dif_pos (show (1 : Fin S5000x64.rank) ∈ dot_S5000x64_S5000x64_S64x64_0_0_1_1_n_n.lhsNonContracting by decide)]
  rfl
/-- The right operand's column coordinate is the output's column coordinate. -/
theorem pool_rhs_1 (i : S64x64.Idx) (q : dot_S5000x64_S5000x64_S64x64_0_0_1_1_n_n.contr.Idx) :
    (dot_S5000x64_S5000x64_S64x64_0_0_1_1_n_n.rhsIdx i q 1).val = (i 1).val := by
  unfold DotDims.rhsIdx
  rw [dif_neg (show ¬(1 : Fin S5000x64.rank) ∈ dot_S5000x64_S5000x64_S64x64_0_0_1_1_n_n.rhsBatch by decide), dif_pos (show (1 : Fin S5000x64.rank) ∈ dot_S5000x64_S5000x64_S64x64_0_0_1_1_n_n.rhsNonContracting by decide)]
  rfl

/-- One accumulation step at `(g, f)`: what the step before left plus, over the block's 5000 rows `r`, the table's entry
    `(r, g)` times the clamped entry `max (a (r, f) + bias f) 0` (the narrowing is the identity on extended reals). -/
theorem pool_pay2_apply (ablk : FVec Ideal S5000x64 .f32) (bias : FVec Ideal S1x64 .f32) (ohblk : FVec Ideal S5000x64 .bf16)
    (prev : FVec Ideal S64x64 .f32) (g f : Fin 64) :
    k2_pay2 ablk bias ohblk prev (ix2 g f)
      = prev (ix2 g f) + ∑ r : Fin 5000, ohblk (ix2 r g) * max (ablk (ix2 r f) + bias (ix2 (0 : Fin 1) f)) 0 := by
  unfold k2_pay2
  simp only [shapeCast_self]
  rw [addf_apply]
  refine congrArg (prev (ix2 g f) + ·) ?_
  simp only [matmul]
  rw [Ideal.matmul_constant_zero_apply, ← Equiv.sum_comp (contrEquiv1 dot_S5000x64_S5000x64_S64x64_0_0_1_1_n_n 5000 rfl rfl).symm]
  refine Finset.sum_congr rfl fun r _ => ?_
  have hk := contrEquiv1_symm_val dot_S5000x64_S5000x64_S64x64_0_0_1_1_n_n 5000 rfl rfl r
  have el : dot_S5000x64_S5000x64_S64x64_0_0_1_1_n_n.lhsIdx (ix2 g f)
      ((contrEquiv1 dot_S5000x64_S5000x64_S64x64_0_0_1_1_n_n 5000 rfl rfl).symm r) = ix2 r g :=
    funext fun a => Fin.ext (by
      match a with
      | ⟨0, _⟩ => exact (pool_lhs_0 _ _).trans hk
      | ⟨1, _⟩ => exact pool_lhs_1 _ _)
  have er : dot_S5000x64_S5000x64_S64x64_0_0_1_1_n_n.rhsIdx (ix2 g f)
      ((contrEquiv1 dot_S5000x64_S5000x64_S64x64_0_0_1_1_n_n 5000 rfl rfl).symm r) = ix2 r f :=
    funext fun a => Fin.ext (by
      match a with
      | ⟨0, _⟩ => exact (pool_rhs_0 _ _).trans hk
      | ⟨1, _⟩ => exact pool_rhs_1 _ _)
  rw [el, er, truncf_apply, maximumf_apply, addf_apply, broadcast_apply]
  rw [broadcastTo_apply bias broadcasts_S1x64_S5000x64 (ix2 r f) (ix2 (0 : Fin 1) f) (fun a => match a with
    | ⟨0, _⟩ => by show 0 = if (1 : Nat) = 1 then 0 else _; rw [if_pos rfl]
    | ⟨1, _⟩ => by show f.val = if (64 : Nat) = 1 then 0 else f.val; rw [if_neg (by decide)])]
  show _ * max _ (Ideal.ofBits .f32 0x00000000#32) = _
  rw [Ideal.ofBits_zero_f32]

/-! ## The accumulator over a half of the rows -/

/-- The product the pooling sum adds for row `n` at `(g, f)`: the table's entry times the clamped row entry; zero past
    the last row. -/
def poolTerm (a : FVec Ideal S50000x64 .f32) (b : FVec Ideal S1x64 .f32) (oh : FVec Ideal S50000x64 .bf16) (g f : Fin 64) (n : ℕ) : EReal :=
  if h : n < 50000 then oh (ix2 ⟨n, h⟩ g) * max (a (ix2 ⟨n, h⟩ f) + b (ix2 (0 : Fin 1) f)) 0 else 0

/-- One step on block `t` of 5000 rows adds that block's products to what the step before left. -/
theorem pool_blk_apply (a : FVec Ideal S50000x64 .f32) (b : FVec Ideal S1x64 .f32) (oh : FVec Ideal S50000x64 .bf16)
    (hN : 5000 * 10 ≤ 50000) (t : Fin 10) (prev : FVec Ideal S64x64 .f32) (g f : Fin 64) :
    k2_pay2 (rowBlk 50000 5000 64 10 hN a t) b (rowBlk 50000 5000 64 10 hN oh t) prev (ix2 g f)
      = prev (ix2 g f) + ∑ r ∈ Finset.range 5000, poolTerm a b oh g f (5000 * t.val + r) := by
  rw [pool_pay2_apply, ← Fin.sum_univ_eq_sum_range (fun r => poolTerm a b oh g f (5000 * t.val + r)) 5000]
  refine congrArg (prev (ix2 g f) + ·) (Finset.sum_congr rfl fun r _ => ?_)
  have hlt : 5000 * t.val + r.val < 50000 := by have := t.isLt; have := r.isLt; omega
  unfold poolTerm
  rw [dif_pos hlt]
  rfl

/-- The zero the first step stores. -/
theorem pool_pay1_apply (i : S64x64.Idx) : k2_pay1 (F := Ideal) i = 0 := by
  unfold k2_pay1
  simp only [shapeCast_self]
  rw [broadcast_apply]
  exact Ideal.ofBits_zero_f32

/-- The accumulator on half `h` after step `s`: the products of the rows of blocks `5h … 5h + s`. -/
theorem pool_acc2_apply (a : FVec Ideal S50000x64 .f32) (b : FVec Ideal S1x64 .f32) (oh : FVec Ideal S50000x64 .bf16) (h : Fin 2) (g f : Fin 64) :
    ∀ (s : Nat) (hs : s < 5), acc2 a b oh h s hs (ix2 g f)
      = ∑ s' ∈ Finset.range (s + 1), ∑ r ∈ Finset.range 5000, poolTerm a b oh g f (5000 * (5 * h.val + s') + r)
  | 0, hs => by
    rw [acc2, pool_blk_apply, pool_pay1_apply, zero_add, Finset.sum_range_one]
  | s + 1, hs => by
    rw [acc2, pool_blk_apply, pool_acc2_apply a b oh h g f s (by omega), Finset.sum_range_succ _ (s + 1)]

/-! ## The host's scatter-add read at an element -/

/-- An update lands at element `i` exactly when, on every axis, its start plus its window coordinate is `i`'s coordinate. -/
theorem pool_lands_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some_inj]
    constructor
    · intro e a
      have ha := h a
      rw [← e]
      show _ = (((d.start j idx a + (d.window j a : Int)).toNat : Nat) : Int)
      omega
    · intro hall
      funext a
      refine Fin.ext ?_
      have ha := hall a
      show (d.start j idx a + (d.window j a : Int)).toNat = (i a).val
      omega
  · constructor
    · intro e; cases e
    · intro hall
      refine absurd (fun a => ?_) h
      have ha := hall a
      have hlt := (i a).isLt
      omega

/-- On the operand's row axis the start is the scatter index of the update's row, read signed. -/
theorem pool_sc_start0 {w : Nat} (j : Cert.ReferenceIdeal.S50000x64.Idx) (idx : IVec Cert.ReferenceIdeal.S50000x1 w) :
    Cert.ReferenceIdeal.scatter_S64x64_S50000x1_S50000x64_1_0_0_1.start j idx 0
      = (idx (ix2 (⟨(j 0).val, (j 0).isLt⟩ : Fin 50000) (0 : Fin 1))).toInt := by
  unfold ScatterDims.start
  rw [dif_pos (show (0 : Fin Cert.ReferenceIdeal.S64x64.rank) ∈ Cert.ReferenceIdeal.scatter_S64x64_S50000x1_S50000x64_1_0_0_1.scatterDimsToOperandDims by decide)]
  refine congrArg (fun k => (idx k).toInt) ?_
  funext b
  refine Fin.ext ?_
  match b with
  | ⟨0, _⟩ => rfl
  | ⟨1, _⟩ => rfl
/-- On the operand's column axis the start is zero: the index vector names the row axis only. -/
theorem pool_sc_start1 {w : Nat} (j : Cert.ReferenceIdeal.S50000x64.Idx) (idx : IVec Cert.ReferenceIdeal.S50000x1 w) :
    Cert.ReferenceIdeal.scatter_S64x64_S50000x1_S50000x64_1_0_0_1.start j idx 1 = 0 := by
  unfold ScatterDims.start
  rw [dif_neg (show ¬ (1 : Fin Cert.ReferenceIdeal.S64x64.rank) ∈ Cert.ReferenceIdeal.scatter_S64x64_S50000x1_S50000x64_1_0_0_1.scatterDimsToOperandDims by decide)]
/-- The row axis is an inserted window axis: its window coordinate is zero. -/
theorem pool_sc_window0 (j : Cert.ReferenceIdeal.S50000x64.Idx) :
    Cert.ReferenceIdeal.scatter_S64x64_S50000x1_S50000x64_1_0_0_1.window j 0 = 0 := by
  unfold ScatterDims.window
  rw [dif_neg (show ¬ (0 : Fin Cert.ReferenceIdeal.S64x64.rank) ∈ Cert.ReferenceIdeal.scatter_S64x64_S50000x1_S50000x64_1_0_0_1.sKept by decide)]
/-- The column axis carries the update's window axis: its window coordinate is the update's column. -/
theorem pool_sc_window1 (j : Cert.ReferenceIdeal.S50000x64.Idx) :
    Cert.ReferenceIdeal.scatter_S64x64_S50000x1_S50000x64_1_0_0_1.window j 1 = (j 1).val := by
  unfold ScatterDims.window
  rw [dif_pos (show (1 : Fin Cert.ReferenceIdeal.S64x64.rank) ∈ Cert.ReferenceIdeal.scatter_S64x64_S50000x1_S50000x64_1_0_0_1.sKept by decide)]
  rfl

/-- An update `(n, f')` of the per-graph scatter lands at `(g, f)` exactly when node `n`'s id, read signed, is `g` and `f' = f`. -/
theorem pool_sc_lands {w : Nat} (idx : IVec Cert.ReferenceIdeal.S50000x1 w) (n : Fin 50000) (f' g f : Fin 64) :
    Cert.ReferenceIdeal.scatter_S64x64_S50000x1_S50000x64_1_0_0_1.resultIdx? (ix2 n f') idx = some (ix2 g f)
      ↔ (idx (ix2 n (0 : Fin 1))).toInt = (g.val : Int) ∧ f' = f := by
  rw [pool_lands_iff]
  constructor
  · intro h
    have h0 := h 0
    have h1 := h 1
    rw [pool_sc_start0, pool_sc_window0] at h0
    rw [pool_sc_start1, pool_sc_window1] at h1
    refine ⟨?_, Fin.ext ?_⟩
    · simpa using h0
    · have : ((f'.val : Int)) = (f.val : Int) := by simpa using h1
      exact_mod_cast this
  · rintro ⟨h0, rfl⟩ a
    match a with
    | ⟨0, _⟩ =>
      show Cert.ReferenceIdeal.scatter_S64x64_S50000x1_S50000x64_1_0_0_1.start (ix2 n f') idx 0
        + (Cert.ReferenceIdeal.scatter_S64x64_S50000x1_S50000x64_1_0_0_1.window (ix2 n f') 0 : Int) = (g.val : Int)
      rw [pool_sc_start0, pool_sc_window0]
      simpa using h0
    | ⟨1, _⟩ =>
      show Cert.ReferenceIdeal.scatter_S64x64_S50000x1_S50000x64_1_0_0_1.start (ix2 n f') idx 1
        + (Cert.ReferenceIdeal.scatter_S64x64_S50000x1_S50000x64_1_0_0_1.window (ix2 n f') 1 : Int) = (f'.val : Int)
      rw [pool_sc_start1, pool_sc_window1]
      simp

/-- The per-graph scatter-add read at `(g, f)`: the sum over the nodes whose id, read signed, is `g` of their row's entry `f`. -/
theorem pool_rSums_apply (r : FVec Ideal Cert.ReferenceIdeal.S50000x64 .f32) (bt : IVec Cert.ReferenceIdeal.S50000 32) (g f : Fin 64) :
    rSums r bt (ix2 g f) = ∑ n : Fin 50000, if (bt (ix1 n)).toInt = (g.val : Int) then r (ix2 n f) else 0 := by
  unfold rSums
  simp only [Host.scatterAdd]
  rw [Ideal.hostScatterAdd_def]
  unfold Ideal.hostScatterAdd
  rw [broadcastInDim_apply _ Cert.ReferenceIdeal.Gen.bcast_S_S64x64 _ (ix2 g f) ix0 (fun a => a.elim0), constant_apply,
    Ideal.ofBits_zero_f32, zero_add, Finset.sum_filter, sum_idx2]
  refine Finset.sum_congr rfl fun n _ => ?_
  have hidx : broadcastInDim Cert.ReferenceIdeal.S50000x1 ![0] Cert.ReferenceIdeal.Gen.bcast_S50000_S50000x1_0 bt (ix2 n (0 : Fin 1)) = bt (ix1 n) :=
    broadcastInDim_apply _ Cert.ReferenceIdeal.Gen.bcast_S50000_S50000x1_0 bt (ix2 n (0 : Fin 1)) (ix1 n) (fun a => match a with
      | ⟨0, _⟩ => by show n.val = if (50000 : Nat) = 1 then 0 else n.val; rw [if_neg (by decide)])
  simp only [pool_sc_lands, hidx]
  by_cases hg : (bt (ix1 n)).toInt = (g.val : Int)
  · simp only [hg, true_and, if_true]
    rw [Finset.sum_ite_eq' Finset.univ f (fun x => r (ix2 n x)), if_pos (Finset.mem_univ f)]
  · simp only [hg, false_and, if_false, Finset.sum_const_zero]

/-! ## The membership table and the clamped rows read at an element -/

/-- A 32-bit word read signed is `g < 64` exactly when it is the word of `g`. -/
theorem pool_toInt_eq_small_iff (x : BitVec 32) (g : Fin 64) : x.toInt = (g.val : Int) ↔ x = BitVec.ofNat 32 g.val := by
  have hg := g.isLt
  constructor
  · intro h
    apply BitVec.eq_of_toNat_eq
    rw [BitVec.toNat_ofNat]
    have hx := x.isLt
    rw [BitVec.toInt_eq_toNat_cond] at h
    split_ifs at h <;> omega
  · rintro rfl
    rw [BitVec.toInt_eq_toNat_cond, BitVec.toNat_ofNat]
    have : g.val % 2 ^ 32 = g.val := Nat.mod_eq_of_lt (by omega)
    rw [this]
    split_ifs <;> omega

/-- The membership table at `(n, g)`: one where node `n`'s id, read signed, is `g`, else zero. -/
theorem pool_onehot_apply (bt : IVec S50000 32) (n : Fin 50000) (g : Fin 64) :
    onehot (F := Ideal) bt (ix2 n g) = if (bt (ix1 n)).toInt = (g.val : Int) then 1 else 0 := by
  unfold onehot
  show FloatOps.uitofp .bf16 (IntOp.cmpi .eq _ _) = _
  rw [broadcastInDim_apply _ bcast_S50000x1_S50000x64_0_1 _ (ix2 n g) (ix2 n (0 : Fin 1)) (fun a => match a with
      | ⟨0, _⟩ => by show n.val = if (50000 : Nat) = 1 then 0 else n.val; rw [if_neg (by decide)]
      | ⟨1, _⟩ => by show 0 = if (1 : Nat) = 1 then 0 else g.val; rw [if_pos rfl]),
    broadcastInDim_apply _ bcast_S50000_S50000x1_0 bt (ix2 n (0 : Fin 1)) (ix1 n) (fun a => match a with
      | ⟨0, _⟩ => by show n.val = if (50000 : Nat) = 1 then 0 else n.val; rw [if_neg (by decide)]),
    broadcastInDim_apply _ bcast_S1x64_S50000x64_0_1 _ (ix2 n g) (ix2 (0 : Fin 1) g) (fun a => match a with
      | ⟨0, _⟩ => by show 0 = if (1 : Nat) = 1 then 0 else n.val; rw [if_pos rfl]
      | ⟨1, _⟩ => by show g.val = if (64 : Nat) = 1 then 0 else g.val; rw [if_neg (by decide)]),
    broadcastInDim_apply _ bcast_S64_S1x64_1 _ (ix2 (0 : Fin 1) g) (ix1 g) (fun a => match a with
      | ⟨0, _⟩ => by show g.val = if (64 : Nat) = 1 then 0 else g.val; rw [if_neg (by decide)])]
  show (((BitVec.ofBool (bt (ix1 n) == BitVec.ofNat 32 g.val)).toNat : ℝ) : EReal) = _
  by_cases h : bt (ix1 n) = BitVec.ofNat 32 g.val
  · rw [if_pos ((pool_toInt_eq_small_iff _ _).mpr h), h, beq_self_eq_true]
    simp
  · rw [if_neg (fun e => h ((pool_toInt_eq_small_iff _ _).mp e)), beq_eq_false_iff_ne.mpr h]
    simp

/-- The clamped rows at `(n, f)`: the row's entry plus the bias entry, clamped at zero. -/
theorem pool_rBiasRelu_apply (a : FVec Ideal Cert.ReferenceIdeal.S50000x64 .f32) (b : FVec Ideal Cert.ReferenceIdeal.S64 .f32) (n : Fin 50000) (f : Fin 64) :
    rBiasRelu a b (ix2 n f) = max (a (ix2 n f) + b (ix1 f)) 0 := by
  unfold rBiasRelu
  rw [maximumf_apply, addf_apply,
    broadcastInDim_apply _ Cert.ReferenceIdeal.Gen.bcast_S1x64_S50000x64_0_1 _ (ix2 n f) (ix2 (0 : Fin 1) f) (fun a => match a with
      | ⟨0, _⟩ => by show 0 = if (1 : Nat) = 1 then 0 else n.val; rw [if_pos rfl]
      | ⟨1, _⟩ => by show f.val = if (64 : Nat) = 1 then 0 else f.val; rw [if_neg (by decide)]),
    broadcastInDim_apply _ Cert.ReferenceIdeal.Gen.bcast_S64_S1x64_1 _ (ix2 (0 : Fin 1) f) (ix1 f) (fun a => match a with
      | ⟨0, _⟩ => by show f.val = if (64 : Nat) = 1 then 0 else f.val; rw [if_neg (by decide)]),
    broadcastInDim_apply _ Cert.ReferenceIdeal.Gen.bcast_S_S50000x64 _ (ix2 n f) ix0 (fun a => a.elim0), constant_apply,
    Ideal.ofBits_zero_f32]

/-! ## Blocks of a range, the call's layout operations, and the claim -/

/-- A sum over `T · B` consecutive naturals is the sum over `T` blocks of `B`. -/
theorem pool_sum_range_blocks {M : Type*} [AddCommMonoid M] (G : ℕ → M) (B : ℕ) :
    ∀ T : ℕ, ∑ n ∈ Finset.range (T * B), G n = ∑ t ∈ Finset.range T, ∑ r ∈ Finset.range B, G (B * t + r)
  | 0 => by simp
  | T + 1 => by
    rw [Nat.add_one_mul, Finset.sum_range_add, pool_sum_range_blocks G B T, Finset.sum_range_succ, Nat.mul_comm T B]

/-- The two halves added, at `(g, f)`. -/
theorem pool_sumHalves_apply (k : FVec Ideal S2x64x64 .f32) (g f : Fin 64) :
    sumHalves k (ix2 g f) = k (ix3 (0 : Fin 2) g f) + k (ix3 (1 : Fin 2) g f) := by
  unfold sumHalves
  rw [addf_apply,
    shapeCast_apply _ shapeCasts_S1x64x64_S64x64 (ix2 g f) (ix3 (0 : Fin 1) g f) (by
      rw [Shape.rowMajor_val_three, Shape.rowMajor_val_two]
      show (0 * 64 + g.val) * 64 + f.val = g.val * 64 + f.val
      omega),
    shapeCast_apply _ shapeCasts_S1x64x64_S64x64 (ix2 g f) (ix3 (0 : Fin 1) g f) (by
      rw [Shape.rowMajor_val_three, Shape.rowMajor_val_two]
      show (0 * 64 + g.val) * 64 + f.val = g.val * 64 + f.val
      omega),
    extractStridedSlice_apply ![0, 0, 0] k slices_S2x64x64_S1x64x64_0_0_0 (ix3 (0 : Fin 1) g f) (ix3 (0 : Fin 2) g f) (fun a => match a with
      | ⟨0, _⟩ => by show 0 = 0 + 0; rfl
      | ⟨1, _⟩ => by show g.val = 0 + g.val; omega
      | ⟨2, _⟩ => by show f.val = 0 + f.val; omega),
    extractStridedSlice_apply ![1, 0, 0] k slices_S2x64x64_S1x64x64_1_0_0 (ix3 (0 : Fin 1) g f) (ix3 (1 : Fin 2) g f) (fun a => match a with
      | ⟨0, _⟩ => by show 1 = 1 + 0; rfl
      | ⟨1, _⟩ => by show g.val = 0 + g.val; omega
      | ⟨2, _⟩ => by show f.val = 0 + f.val; omega)]

/-- The pooling call at `(h, g, f)`: half `h`'s accumulator after its fifth step, at `(g, f)`. -/
theorem pool_R2_apply (a : FVec Ideal S50000x64 .f32) (b : FVec Ideal S1x64 .f32) (oh : FVec Ideal S50000x64 .bf16) (h : Fin 2) (g f : Fin 64) :
    R2 a b oh (ix3 h g f) = acc2 a b oh h 4 (by decide) (ix2 g f) := by
  unfold R2
  show k2_pay3 (acc2 a b oh h 4 _) (ix3 (0 : Fin 1) g f) = _
  unfold k2_pay3
  exact shapeCast_apply _ shapeCasts_S64x64_S1x64x64 (ix3 (0 : Fin 1) g f) (ix2 g f) (by
    rw [Shape.rowMajor_val_three, Shape.rowMajor_val_two]
    show g.val * 64 + f.val = (0 * 64 + g.val) * 64 + f.val
    omega)

/-- The two halves of the pooling call, added, are the per-graph sums of the clamped rows. -/
theorem R2_eq (a : FVec Ideal S50000x64 .f32) (b : FVec Ideal S64 .f32) (bt : IVec S50000 32) :
    sumHalves (R2 a (shapeCast S1x64 b shapeCasts_S64_S1x64) (onehot (F := Ideal) bt)) = rSums (rBiasRelu a b) bt := by
  funext i
  obtain ⟨g, f, rfl⟩ : ∃ g f, i = ix2 g f := ⟨i 0, i 1, eq_ix2 i⟩
  rw [pool_sumHalves_apply, pool_R2_apply, pool_R2_apply, pool_acc2_apply, pool_acc2_apply, pool_rSums_apply]
  have hb : shapeCast S1x64 b shapeCasts_S64_S1x64 (ix2 (0 : Fin 1) f) = b (ix1 f) :=
    shapeCast_apply b shapeCasts_S64_S1x64 (ix2 (0 : Fin 1) f) (ix1 f) (by
      rw [Shape.rowMajor_val_one, Shape.rowMajor_val_two]
      show f.val = 0 * 64 + f.val
      omega)
  have hR : ∀ n : Fin 50000, (if (bt (ix1 n)).toInt = (g.val : Int) then rBiasRelu a b (ix2 n f) else 0)
      = onehot (F := Ideal) bt (ix2 n g) * max (a (ix2 n f) + shapeCast S1x64 b shapeCasts_S64_S1x64 (ix2 (0 : Fin 1) f)) 0 := by
    intro n
    rw [pool_onehot_apply, pool_rBiasRelu_apply, hb]
    split_ifs
    · rw [one_mul]
    · rw [zero_mul]
  rw [Finset.sum_congr rfl (fun n _ => hR n), Finset.sum_fin_eq_sum_range]
  refine Eq.trans ?_ (show ∑ n ∈ Finset.range (10 * 5000),
    poolTerm a (shapeCast S1x64 b shapeCasts_S64_S1x64) (onehot (F := Ideal) bt) g f n = _ from rfl)
  have h10 : Finset.range 10 = Finset.range (5 + 5) := rfl
  rw [pool_sum_range_blocks, h10, Finset.sum_range_add _ 5 5]
  refine congrArg₂ (· + ·) (Finset.sum_congr rfl fun s' _ => ?_) (Finset.sum_congr rfl fun s' _ => ?_)
  · have e : 5 * ((0 : Fin 2) : ℕ) + s' = s' := by show 5 * 0 + s' = s'; omega
    rw [e]
  · have e : 5 * ((1 : Fin 2) : ℕ) + s' = 5 + s' := by show 5 * 1 + s' = 5 + s'; omega
    rw [e]

end Cert.Bridge

end
-- ==== Proof.MathHead.lean ====
import proofs.«410010_j22943715295836_2_alg».proof.Proof.RegFns
import proofs.«410010_j22943715295836_2_alg».proof.Proof.RefSide
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost

/-!
# The head call is the reference's head

Two dense layers (the first clamped at zero) and a log-softmax along the rows: the kernel's `tpu.matmul`s into zero are
the host's `dot_general`s, its lane reductions the host's `reduce`s (a maximum from `-∞`, a sum from `0`), its
`exp` and `log` the host's.
-/

noncomputable section

namespace Cert.Bridge

open Idealize.ShloMosaic Idealize.SL.Sem Idealize.ShloMosaic.ValueIdx
open Cert.KernelIdeal Cert.KernelIdeal.Gen Cert.KernelIdeal.Val Cert.ReferenceIdeal.RefVal

section Layout
variable {α : Type}

/-- A row of `n` entries laid along each of `m` rows: the one-row cast (cast once more to its own shape) broadcast down
    the rows is the row broadcast to one row along axis 1 and then down the rows; both read entry `j` at `(g, j)`. -/
private theorem rowBias_eq {m n : ℕ} (b : (⟨1, ![n]⟩ : Shape).Idx → α)
    (h1 : (⟨1, ![n]⟩ : Shape).ShapeCasts ⟨2, ![1, n]⟩) (hs : (⟨2, ![1, n]⟩ : Shape).ShapeCasts ⟨2, ![1, n]⟩)
    (hb : (⟨2, ![1, n]⟩ : Shape).Broadcasts ⟨2, ![m, n]⟩)
    (hd : (⟨1, ![n]⟩ : Shape).BroadcastsInDim ⟨2, ![1, n]⟩ ![1])
    (hbc : (⟨2, ![1, n]⟩ : Shape).BroadcastsInDim ⟨2, ![m, n]⟩ ![0, 1]) :
    broadcastTo ⟨2, ![m, n]⟩ (shapeCast ⟨2, ![1, n]⟩ (shapeCast ⟨2, ![1, n]⟩ b h1) hs) hb
      = broadcastInDim ⟨2, ![m, n]⟩ ![0, 1] hbc (broadcastInDim ⟨2, ![1, n]⟩ ![1] hd b) := by
  funext i
  obtain ⟨g, j, rfl⟩ : ∃ (g : Fin m) (j : Fin n), i = ix2 g j := ⟨i 0, i 1, eq_ix2 i⟩
  rw [shapeCast_self, broadcastTo_1b_ab_apply, shapeCast_a_1a_apply, broadcastInDim_oneRow_apply]
  refine (broadcastInDim_apply ![1] hd b (ix2 (0 : Fin 1) j) (ix1 j) ?_).symm
  intro a
  match a with
  | ⟨0, _⟩ =>
    show j.val = if n = 1 then 0 else j.val
    split
    · have := j.isLt; omega
    · rfl

/-- A column of `m` entries laid along each of `n` columns: the one-column cast broadcast along the rows is the column
    broadcast to one column along axis 0 and then along the rows; both read entry `g` at `(g, j)`. -/
private theorem colBcast_eq {m n : ℕ} (v : (⟨1, ![m]⟩ : Shape).Idx → α)
    (h1 : (⟨1, ![m]⟩ : Shape).ShapeCasts ⟨2, ![m, 1]⟩) (hb : (⟨2, ![m, 1]⟩ : Shape).Broadcasts ⟨2, ![m, n]⟩)
    (hd : (⟨1, ![m]⟩ : Shape).BroadcastsInDim ⟨2, ![m, 1]⟩ ![0])
    (hbc : (⟨2, ![m, 1]⟩ : Shape).BroadcastsInDim ⟨2, ![m, n]⟩ ![0, 1]) :
    broadcastTo ⟨2, ![m, n]⟩ (shapeCast ⟨2, ![m, 1]⟩ v h1) hb
      = broadcastInDim ⟨2, ![m, n]⟩ ![0, 1] hbc (broadcastInDim ⟨2, ![m, 1]⟩ ![0] hd v) := by
  funext i
  obtain ⟨g, j, rfl⟩ : ∃ (g : Fin m) (j : Fin n), i = ix2 g j := ⟨i 0, i 1, eq_ix2 i⟩
  have e1 := broadcastTo_apply (shapeCast ⟨2, ![m, 1]⟩ v h1) hb (ix2 g j) (ix2 g (0 : Fin 1)) (by
    intro a
    match a with
    | ⟨0, _⟩ =>
      show g.val = if m = 1 then 0 else g.val
      split
      · have := g.isLt; omega
      · rfl
    | ⟨1, _⟩ => rfl)
  have e2 := shapeCast_apply v h1 (ix2 g (0 : Fin 1)) (ix1 g) (by
    rw [Shape.rowMajor_val_two, Shape.rowMajor_val_one]; show g.val = g.val * 1 + 0; omega)
  have e3 := broadcastInDim_apply ![0, 1] hbc (broadcastInDim ⟨2, ![m, 1]⟩ ![0] hd v) (ix2 g j) (ix2 g (0 : Fin 1)) (by
    intro a
    match a with
    | ⟨0, _⟩ =>
      show g.val = if m = 1 then 0 else g.val
      split
      · have := g.isLt; omega
      · rfl
    | ⟨1, _⟩ => rfl)
  have e4 := broadcastInDim_apply ![0] hd v (ix2 g (0 : Fin 1)) (ix1 g) (by
    intro a
    match a with
    | ⟨0, _⟩ =>
      show g.val = if m = 1 then 0 else g.val
      split
      · have := g.isLt; omega
      · rfl)
  exact e1.trans (e2.trans (e3.trans e4).symm)

end Layout

/-- A maximum over one axis from `-∞`: the kernel's lane reduction is the host's reduce. Both are the fold of `max` from
    the value of the word `0xFF800000` over that axis's coordinates. -/
private theorem rowMax_eq {s t : Shape} {a : Fin s.rank} (z : FVec Ideal s .f32) (h : s.Reduces [a] t) (hφ : FKind.Formats .f32)
    (hacc : (0xFF800000#32 : BitVec 32) = FKind.maximumf.neutral .f32 hφ) (h' : s.ReducesTo [a] t)
    (hu : 0 < (⟨0, ![]⟩ : Shape).numel) :
    multiReduction .maximumf [a] t z 0xFF800000#32 h hφ hacc
      = Host.reduce FloatOps.maximumf z (constant (⟨0, ![]⟩ : Shape) .f32 0xFF800000#32) h' hu := by
  funext j
  rw [Ideal.multiReduction_maximumf_single, Host.reduce_eq_fold_single FloatOps.maximumf z _ h' h hu]
  rfl

/-- At the ideal values a product of the operands narrowed to bf16, accumulated into the zero splat, is the host's
    product of the operands themselves: narrowing is the identity, `0 + x = x`, and both are the sum over the
    contracted axis of the operands' products. -/
private theorem matmul_truncf_eq_dotGeneral {sl sr so : Shape} (d d' : DotDims sl sr so) (hd : d = d') (x : FVec Ideal sl .f32)
    (w : FVec Ideal sr .f32) (h : FTy.bits .bf16 < FTy.bits .f32) (h' : FTy.bits .bf16 < FTy.bits .f32) :
    matmul d none (truncf .bf16 x h) (truncf .bf16 w h') (constant so .f32 0x00000000#32) = Host.dotGeneral d' none x w := by
  subst hd
  funext j
  show FloatOps.matmul d none (truncf .bf16 x h) (truncf .bf16 w h') (constant so .f32 0x00000000#32) j
    = FloatOps.dotGeneral d none _ x w j
  rw [Ideal.matmul_constant_zero_apply, Ideal.dotGeneral_apply]
  rfl

/-- The two dense layers: the kernel's logits are the reference's. -/
private theorem logits_eq (p : FVec Ideal S64x64 .f32) (w1 : FVec Ideal S64x32 .f32) (b1 : FVec Ideal S32 .f32) (w2 : FVec Ideal S32x10 .f32)
    (b2 : FVec Ideal S10 .f32) :
    addf (matmul dot_S64x32_S32x10_S64x10_1_0_0_1_n_n none
        (truncf .bf16 (maximumf (addf (matmul dot_S64x64_S64x32_S64x32_1_0_0_1_n_n none
              (truncf .bf16 (shapeCast S64x64 p shapeCasts_S64x64_S64x64) bitsLt_bf16_f32) (truncf .bf16 w1 bitsLt_bf16_f32)
              (constant S64x32 .f32 0x00000000#32))
            (broadcastTo S64x32 (shapeCast S1x32 (shapeCast S1x32 b1 shapeCasts_S32_S1x32) shapeCasts_S1x32_S1x32) broadcasts_S1x32_S64x32))
          (broadcast S64x32 (Scalar.ofBits .f32 0x00000000#32))) bitsLt_bf16_f32)
        (truncf .bf16 w2 bitsLt_bf16_f32) (constant S64x10 .f32 0x00000000#32))
      (broadcastTo S64x10 (shapeCast S1x10 (shapeCast S1x10 b2 shapeCasts_S10_S1x10) shapeCasts_S1x10_S1x10) broadcasts_S1x10_S64x10)
      = rLogits p w1 b1 w2 b2 := by
  unfold rLogits
  rw [shapeCast_self,
    matmul_truncf_eq_dotGeneral dot_S64x64_S64x32_S64x32_1_0_0_1_n_n Cert.ReferenceIdeal.dot_S64x64_S64x32_S64x32_1_0_0_1_n_n rfl,
    rowBias_eq b1 _ _ _ Cert.ReferenceIdeal.Gen.bcast_S32_S1x32_1 Cert.ReferenceIdeal.Gen.bcast_S1x32_S64x32_0_1,
    matmul_truncf_eq_dotGeneral dot_S64x32_S32x10_S64x10_1_0_0_1_n_n Cert.ReferenceIdeal.dot_S64x32_S32x10_S64x10_1_0_0_1_n_n rfl,
    rowBias_eq b2 _ _ _ Cert.ReferenceIdeal.Gen.bcast_S10_S1x10_1 Cert.ReferenceIdeal.Gen.bcast_S1x10_S64x10_0_1,
    broadcastInDim_constant]

/-- The logits less their row maximum: the kernel's lane maximum from `-∞`, cast to a column and broadcast along the
    rows, is the host's reduce broadcast the same way. -/
private theorem shift_eq (z : FVec Ideal S64x10 .f32) (hφ : FKind.Formats .f32)
    (hacc : (0xFF800000#32 : BitVec 32) = FKind.maximumf.neutral .f32 hφ) :
    subf z (broadcastTo S64x10 (shapeCast S64x1 (maximumf (broadcast S64 (Scalar.ofBits .f32 0xFF800000#32))
        (multiReduction .maximumf [1] S64 z 0xFF800000#32 reduces_S64x10_S64 hφ hacc)) shapeCasts_S64_S64x1) broadcasts_S64x1_S64x10)
      = rShift z := by
  unfold rShift
  rw [colBcast_eq _ shapeCasts_S64_S64x1 broadcasts_S64x1_S64x10 Cert.ReferenceIdeal.Gen.bcast_S64_S64x1_0
      Cert.ReferenceIdeal.Gen.bcast_S64x1_S64x10_0_1,
    rowMax_eq z reduces_S64x10_S64 hφ hacc Cert.ReferenceIdeal.Gen.reducesTo_S64x10_S64_d1 Cert.ReferenceIdeal.Gen.h_S_,
    broadcastInDim_constant]

/-- The logarithm of the row sums of the exponentials, broadcast along the rows: the kernel's lane sum from the zero
    accumulator is the host's sum from the initial value `0` (`0 + x = x`), and `exp`, `log` are the host's. -/
private theorem lse_eq (s : FVec Ideal S64x10 .f32) (hφ : FKind.Formats .f32)
    (hacc : (0x00000000#32 : BitVec 32) = FKind.add.neutral .f32 hφ) :
    broadcastTo S64x10 (log (shapeCast S64x1 (multiReduction .add [1] S64 (exp s) 0x00000000#32 reduces_S64x10_S64 hφ hacc)
        shapeCasts_S64_S64x1)) broadcasts_S64x1_S64x10
      = broadcastInDim S64x10 ![0, 1] Cert.ReferenceIdeal.Gen.bcast_S64x1_S64x10_0_1
          (Host.log (broadcastInDim S64x1 ![0] Cert.ReferenceIdeal.Gen.bcast_S64_S64x1_0
            (Host.reduceAdd (Host.exp s) (constant Cert.ReferenceIdeal.S_ .f32 0x00000000#32)
              Cert.ReferenceIdeal.Gen.reducesTo_S64x10_S64_d1 Cert.ReferenceIdeal.Gen.h_S_))) := by
  rw [multiReduction_add_eq_hostReduceAdd (exp s) _ reduces_S64x10_S64 hφ hacc (constant Cert.ReferenceIdeal.S_ .f32 0x00000000#32)
    Cert.ReferenceIdeal.Gen.reducesTo_S64x10_S64_d1 Cert.ReferenceIdeal.Gen.h_S_ Ideal.ofBits_zero_f32]
  exact colBcast_eq (log (Host.reduceAdd (exp s) (constant Cert.ReferenceIdeal.S_ .f32 0x00000000#32)
    Cert.ReferenceIdeal.Gen.reducesTo_S64x10_S64_d1 Cert.ReferenceIdeal.Gen.h_S_)) shapeCasts_S64_S64x1 broadcasts_S64x1_S64x10
    Cert.ReferenceIdeal.Gen.bcast_S64_S64x1_0 Cert.ReferenceIdeal.Gen.bcast_S64x1_S64x10_0_1

/-- The kernel's log-softmax along the rows is the reference's, on any logits. -/
private theorem logSoftmax_eq (z : FVec Ideal S64x10 .f32) (hφ : FKind.Formats .f32)
    (hmax : (0xFF800000#32 : BitVec 32) = FKind.maximumf.neutral .f32 hφ)
    (hadd : (0x00000000#32 : BitVec 32) = FKind.add.neutral .f32 hφ) :
    subf (subf z (broadcastTo S64x10 (shapeCast S64x1 (maximumf (broadcast S64 (Scalar.ofBits .f32 0xFF800000#32))
          (multiReduction .maximumf [1] S64 z 0xFF800000#32 reduces_S64x10_S64 hφ hmax)) shapeCasts_S64_S64x1) broadcasts_S64x1_S64x10))
      (broadcastTo S64x10 (log (shapeCast S64x1 (multiReduction .add [1] S64
          (exp (subf z (broadcastTo S64x10 (shapeCast S64x1 (maximumf (broadcast S64 (Scalar.ofBits .f32 0xFF800000#32))
            (multiReduction .maximumf [1] S64 z 0xFF800000#32 reduces_S64x10_S64 hφ hmax)) shapeCasts_S64_S64x1) broadcasts_S64x1_S64x10)))
          0x00000000#32 reduces_S64x10_S64 hφ hadd) shapeCasts_S64_S64x1)) broadcasts_S64x1_S64x10)
      = rLogSoftmax z := by
  unfold rLogSoftmax
  rw [shift_eq z hφ hmax, lse_eq (rShift z) hφ hadd]

/-- The head call is `log_softmax` of the two dense layers, the biases given as one-row arrays. -/
theorem R3_eq (p : FVec Ideal S64x64 .f32) (w1 : FVec Ideal S64x32 .f32) (b1 : FVec Ideal S32 .f32) (w2 : FVec Ideal S32x10 .f32)
    (b2 : FVec Ideal S10 .f32) :
    R3 p w1 (shapeCast S1x32 b1 shapeCasts_S32_S1x32) w2 (shapeCast S1x10 b2 shapeCasts_S10_S1x10)
      = rLogSoftmax (rLogits p w1 b1 w2 b2) :=
  (logSoftmax_eq _ _ _ _).trans (congrArg rLogSoftmax (logits_eq p w1 b1 w2 b2))

end Cert.Bridge

end
-- ==== Proof.Bridge.lean ====
import proofs.«410010_j22943715295836_2_alg».proof.Proof.MathDot
import proofs.«410010_j22943715295836_2_alg».proof.Proof.MathPool
import proofs.«410010_j22943715295836_2_alg».proof.Proof.MathHead

/-!
# At the ideal values the kernel's @main and the reference's @main are one function

The kernel's @main is `kFn`: the four pallas_calls as whole-array functions with the host operations between them; the
reference's is `refFn`. At the ideal values the first two calls are the reference's matrix products (of the clamped
rows, for the second), the pooling call with its two halves added is the reference's per-graph sum, and the head call
is the reference's head; the edge aggregations between them are the same gather and scatter-add on both sides, the
kernel's widening of the gathered rows being the identity; the node counts are the same operations. So the two
compositions agree.
-/

noncomputable section

namespace Cert.Bridge

open Idealize.ShloMosaic Idealize.SL.Sem
open Cert.KernelIdeal Cert.KernelIdeal.Gen Cert.KernelIdeal.Val Cert.ReferenceIdeal.RefVal

/-- The edge aggregation is the same on both sides: the same gather and scatter-add, the widening of the gathered rows
    the identity. -/
theorem aggK_eq (h : S50000x64.Idx → EReal) (ei : IVec S2x800000 32) :
    aggK (F := Ideal) h ei = rAgg (F := Ideal) h ei := by
  unfold aggK rAgg srcIdx dstIdx rSrc rDst
  rfl

/-- The node counts are the same operations on both sides. -/
theorem cntK_eq (bt : IVec S50000 32) : cntK (F := Ideal) bt = rCnt (F := Ideal) bt := by
  unfold cntK rCnt
  rfl

/-- The kernel's @main and the reference's @main, at the ideal values, are one function of the arguments. -/
theorem kFn_eq_refFn (x : FVec Ideal S50000x128 .f32) (ei : IVec S2x800000 32) (bt : IVec S50000 32) (w1 : FVec Ideal S128x64 .f32)
    (b1 : FVec Ideal S64 .f32) (w2 : FVec Ideal S64x64 .f32) (b2 : FVec Ideal S64 .f32) (f1w : FVec Ideal S64x32 .f32)
    (f1b : FVec Ideal S32 .f32) (f2w : FVec Ideal S32x10 .f32) (f2b : FVec Ideal S10 .f32) :
    kFn (F := Ideal) x ei bt w1 b1 w2 b2 f1w f1b f2w f2b = refFn (F := Ideal) x ei bt w1 b1 w2 b2 f1w f1b f2w f2b := by
  unfold kFn refFn
  rw [R3_eq, R2_eq, aggK_eq, R1_eq, aggK_eq, R0_eq, cntK_eq]

end Cert.Bridge

end
-- ==== Proof.lean ====
/-
  The five claims of this certificate.

  The kernel is a two-layer graph convolution, a per-graph mean and a two-layer head with a log-softmax, in four
  pallas_calls with the edge aggregation (gather the source rows, scatter-add into the target rows) left to the host
  between them; the reference is the same network in plain array operations.

  * The two kernel programs' frames: @main is eight items (host operations and the four calls alternating); the
    buffers' contents are folded through them from the launch memory, each call is a segment of the several-regions
    launch, and the run ends with every unscoped buffer at the last boundary's contents — in particular the argument
    arrays, which no item writes, as launched. The third call keeps a 64 × 64 accumulator in a scratch buffer across
    its grid points; its invariant carries the accumulator's contents point by point.
  * The reference's frame is its run with the result dropped.
  * The idealization rewrote nothing, so there is nothing to preserve.
  * Equivalence at the ideal values: the kernel's result buffer at the last boundary is `kFn` of the argument arrays
    (each call's output array is its region function of its operands at entry; each host stretch is read off its
    operations), the reference's result is `refFn` of them, and `kFn = refFn` there: a change of float format is
    the identity, a matmul into zero is the host's dot product, the transposed membership table times the rows is the
    per-graph scatter-add (`0 · x = 0`, `1 · x = x` on the extended reals), lane reductions are the host's.
-/
import proofs.«410010_j22943715295836_2_alg».proof.Defs
import proofs.«410010_j22943715295836_2_alg».proof.Proof.Gen.Kernel
import proofs.«410010_j22943715295836_2_alg».proof.Proof.Gen.KernelIdeal
import proofs.«410010_j22943715295836_2_alg».proof.Proof.Gen.ReferenceIdeal
import proofs.«410010_j22943715295836_2_alg».proof.Proof.Gen.ReferenceIdeal.Run
import proofs.«410010_j22943715295836_2_alg».proof.Proof.Gen.Pre_finite_inputs
import proofs.«410010_j22943715295836_2_alg».proof.Proof.KFrRun
import proofs.«410010_j22943715295836_2_alg».proof.Proof.FrRun
import proofs.«410010_j22943715295836_2_alg».proof.Proof.KernelVal
import proofs.«410010_j22943715295836_2_alg».proof.Proof.RefSide
import proofs.«410010_j22943715295836_2_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments alone. -/
theorem frame_k : @Cert.frame_Kernel Cert.Kernel.Gen.facts Cert.Pre_finite_inputs.Gen.facts :=
  fun m ρ _ => Cert.Kernel.Fr.frame (F := Bits) m ρ

/-- So does the idealized program. -/
theorem frame_ki : @Cert.frame_KernelIdeal Cert.KernelIdeal.Gen.facts Cert.Pre_finite_inputs.Gen.facts :=
  fun m ρ _ => Cert.KernelIdeal.Fr.frame (F := Ideal) m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values both programs run, and from memories agreeing on the arguments they end with the same result:
    the kernel's is `kFn` of the argument arrays, the reference's is `refFn` of them, and the two functions agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Val.kFn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · refine (θ_run Cert.KernelIdeal.defs _ _).mono (fun r h c => ⟨?_, ?_, ?_, ?_, ?_, ?_, ?_, ?_, ?_, ?_, ?_, ?_⟩) (Cert.KernelIdeal.Fr.run_all (F := Ideal) m ρ)
    · exact (h c _ (Cert.KernelIdeal.Fr.mem_uc Cert.KernelIdeal.main_v54 (by decide))).trans (Cert.KernelIdeal.Val.W8_result m ρ c)
    · exact (h c _ (Cert.KernelIdeal.Fr.mem_uc Cert.KernelIdeal.main_arg0 (by decide))).trans (Cert.KernelIdeal.Fr.W8_main_arg0 m ρ c)
    · exact (h c _ (Cert.KernelIdeal.Fr.mem_uc Cert.KernelIdeal.main_arg1 (by decide))).trans (Cert.KernelIdeal.Fr.W8_main_arg1 m ρ c)
    · exact (h c _ (Cert.KernelIdeal.Fr.mem_uc Cert.KernelIdeal.main_arg2 (by decide))).trans (Cert.KernelIdeal.Fr.W8_main_arg2 m ρ c)
    · exact (h c _ (Cert.KernelIdeal.Fr.mem_uc Cert.KernelIdeal.main_arg3 (by decide))).trans (Cert.KernelIdeal.Fr.W8_main_arg3 m ρ c)
    · exact (h c _ (Cert.KernelIdeal.Fr.mem_uc Cert.KernelIdeal.main_arg4 (by decide))).trans (Cert.KernelIdeal.Fr.W8_main_arg4 m ρ c)
    · exact (h c _ (Cert.KernelIdeal.Fr.mem_uc Cert.KernelIdeal.main_arg5 (by decide))).trans (Cert.KernelIdeal.Fr.W8_main_arg5 m ρ c)
    · exact (h c _ (Cert.KernelIdeal.Fr.mem_uc Cert.KernelIdeal.main_arg6 (by decide))).trans (Cert.KernelIdeal.Fr.W8_main_arg6 m ρ c)
    · exact (h c _ (Cert.KernelIdeal.Fr.mem_uc Cert.KernelIdeal.main_arg7 (by decide))).trans (Cert.KernelIdeal.Fr.W8_main_arg7 m ρ c)
    · exact (h c _ (Cert.KernelIdeal.Fr.mem_uc Cert.KernelIdeal.main_arg8 (by decide))).trans (Cert.KernelIdeal.Fr.W8_main_arg8 m ρ c)
    · exact (h c _ (Cert.KernelIdeal.Fr.mem_uc Cert.KernelIdeal.main_arg9 (by decide))).trans (Cert.KernelIdeal.Fr.W8_main_arg9 m ρ c)
    · exact (h c _ (Cert.KernelIdeal.Fr.mem_uc Cert.KernelIdeal.main_arg10 (by decide))).trans (Cert.KernelIdeal.Fr.W8_main_arg10 m ρ c)
  · refine (θ_run Cert.ReferenceIdeal.defs _ _).mono (fun r h c => ⟨(h c).1.trans ?_, (h c).2⟩) (Cert.ReferenceIdeal.Value.run (F := Ideal) m' ρ')
    rw [Cert.ReferenceIdeal.RefVal.res_eq]
    obtain ⟨e0, e1, e2, e3, e4, e5, e6, e7, e8, e9, e10⟩ := hagree c
    rw [e0, e1, e2, e3, e4, e5, e6, e7, e8, e9, e10]
    exact (Cert.Bridge.kFn_eq_refFn _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
